-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S1x128 : Shape := ⟨2, ![1, 128]⟩
abbrev S1x200x10000 : Shape := ⟨3, ![1, 200, 10000]⟩
abbrev S400x128 : Shape := ⟨2, ![400, 128]⟩
abbrev S200x10000 : Shape := ⟨2, ![200, 10000]⟩
abbrev S200x128 : Shape := ⟨2, ![200, 128]⟩

abbrev nBuf : Space → Nat
  | .hbm => 9
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S10000x128, .bf16⟩
  | .local _ .vmem, ⟨12, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_15 : BitVec 32) : Fin 2 → Nat :=
  let c2_i32 : BitVec 32 := 2#32
  let arg1 : BitVec 32 := BitVec.ofNat 32 (i 1).val
  let v27 : BitVec 32 := Scalar.muli c2_i32 arg1
  let v28 : BitVec 32 := Scalar.addi v27 c0_i32_15
  let c200_i32 : BitVec 32 := 200#32
  let v29 : BitVec 32 := Scalar.muli v28 c200_i32
  let v30 : Index := Scalar.indexCast v29
  let c0_16 : Index := 0#32
  ![v30.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 r.val)) a + S200x128.size a ≤ S10000x128.size a
  k0_off1_packedbf16 : ∀ i : grid0.Coords, ∀ (k0_h2 : k0_cond2 i = 1#1), ∀ (r : Fin 2), (Rect.unit (s := S10000x128) (k0_off1 i (BitVec.ofNat 32 r.val)) S200x128.size (k0_off1_inb i k0_h2 r)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x10000.size a ≤ S2x10000x10000.size a
  hwx0_0 : ∀ i : grid0.Coords, EltTy.bits .f32 = 32 ∨ (Rect.block (s := S2x10000x10000) S1x200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x10000.size a ≤ S2x10000x10000.size a
  hwx0_1 : ∀ i : grid0.Coords, EltTy.bits .f32 = 32 ∨ (Rect.block (s := S2x10000x10000) S1x200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S1x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S1x10000x10000 : Shape := ⟨3, ![1, 10000, 10000]⟩
abbrev S10000x10000 : Shape := ⟨2, ![10000, 10000]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x10000x10000, .f32⟩
  | .hbm, ⟨8, _⟩ => ⟨S10000x10000, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x10000x10000, .f32⟩
  | .hbm, ⟨18, _⟩ => ⟨S10000x10000, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x10000x10000_S1x10000x10000_1_0_0 : S2x10000x10000.Slices ![1, 0, 0] S1x10000x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Kit.lean ====
/-
  The one kernel region of this program as the pipeline meets it: what every TensorCore buffer holds when the
  region is entered (the two bias vectors re-laid as rows by the host lines before it), that @main is those host
  lines and then the region, each window's block of its array at a grid point under its literal shape, and the
  grid's 50 points in closed form: point t is layer t / 25, row group t % 25; the three branches of the body are
  taken at t = 0, at t < 25 and at 25 ≤ t; the rows the second-layer support is written to at a point t < 25
  begin at 400 t and at 400 t + 200; the result window keeps block 0 through layer 0 and is first written back
  at point 25.
-/
import proofs.«144041_g70901320122855_cont_9to1c4b_733_10_alg».proof.Proof.Gen.Kernel.Launch
import proofs.«144041_g70901320122855_cont_9to1c4b_733_10_alg».proof.Proof.Gen.Kernel.Points
import proofs.«144041_g70901320122855_cont_9to1c4b_733_10_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core c's TensorCore buffers hold when the region is entered: the launch contents after the two
    reshapes of the bias vectors. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reshape writes its own result only: an argument array is found as launched. -/
theorem V_arg (c : Dev nD) (b : Ref sig .tc) (h0 : Proc.devRef (τ := τ) .tc b ≠ Proc.devRef .tc main_v0) (h1 : Proc.devRef (τ := τ) .tc b ≠ Proc.devRef .tc main_v1) :
    V m c b = m ((c : Thread nD τ).loc b) :=
  show StableHlo.after hostOps0 (fun b => m (c, b)) b = m ((c : Thread nD τ).loc b) from
  StableHlo.after_of_forall_not_mem (b := Proc.devRef .tc b) _ _ (List.forall_iff_forall_mem.mp (by
    simp only [hostOps0, List.Forall, StableHlo.reshape_writes, Finset.mem_singleton]
    exact ⟨h0, h1⟩))

theorem V_main_arg0 (c : Dev nD) : V m c main_arg0 = m ((c : Thread nD τ).loc main_arg0) :=
  V_arg m c main_arg0 (StableHlo.devRef_ne_of_ne (by decide)) (StableHlo.devRef_ne_of_ne (by decide))
theorem V_main_arg1 (c : Dev nD) : V m c main_arg1 = m ((c : Thread nD τ).loc main_arg1) :=
  V_arg m c main_arg1 (StableHlo.devRef_ne_of_ne (by decide)) (StableHlo.devRef_ne_of_ne (by decide))
theorem V_main_arg2 (c : Dev nD) : V m c main_arg2 = m ((c : Thread nD τ).loc main_arg2) :=
  V_arg m c main_arg2 (StableHlo.devRef_ne_of_ne (by decide)) (StableHlo.devRef_ne_of_ne (by decide))
theorem V_main_arg3 (c : Dev nD) : V m c main_arg3 = m ((c : Thread nD τ).loc main_arg3) :=
  V_arg m c main_arg3 (StableHlo.devRef_ne_of_ne (by decide)) (StableHlo.devRef_ne_of_ne (by decide))
theorem V_main_arg4 (c : Dev nD) : V m c main_arg4 = m ((c : Thread nD τ).loc main_arg4) :=
  V_arg m c main_arg4 (StableHlo.devRef_ne_of_ne (by decide)) (StableHlo.devRef_ne_of_ne (by decide))
theorem V_main_arg5 (c : Dev nD) : V m c main_arg5 = m ((c : Thread nD τ).loc main_arg5) :=
  V_arg m c main_arg5 (StableHlo.devRef_ne_of_ne (by decide)) (StableHlo.devRef_ne_of_ne (by decide))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks under their literal shapes: the even and the odd 200-row slab of the point's adjacency layer,
    the features, the two weight matrices and the two bias rows. -/
abbrev adjA (c : Dev nD) (t : Fin cfg0.N) : Vec F S1x200x10000 .f32 := iblk m c 0 t
abbrev adjB (c : Dev nD) (t : Fin cfg0.N) : Vec F S1x200x10000 .f32 := iblk m c 1 t
abbrev xblk (c : Dev nD) (t : Fin cfg0.N) : Vec F S10000x128 .f32 := iblk m c 2 t
abbrev w1blk (c : Dev nD) (t : Fin cfg0.N) : Vec F S128x128 .f32 := iblk m c 3 t
abbrev b1blk (c : Dev nD) (t : Fin cfg0.N) : Vec F S1x128 .f32 := iblk m c 4 t
abbrev w2blk (c : Dev nD) (t : Fin cfg0.N) : Vec F S128x128 .f32 := iblk m c 5 t
abbrev b2blk (c : Dev nD) (t : Fin cfg0.N) : Vec F S1x128 .f32 := iblk m c 6 t

/-! ## The grid's 50 points in closed form -/

theorem N_eq : cfg0.N = 50 := N_0

/-- The first branch's condition (layer 0 and row group 0), as the body computes it from the coordinates. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcondA : ∀ t : Fin cfg0.N, condA (grid0.coords t) ↔ t.val = 0 :=
  (by decide +kernel : ∀ t : Fin grid0.N, condA (grid0.coords t) ↔ t.val = 0)
/-- The second branch (layer 0) is taken at the first 25 points. -/
theorem hcond2 : ∀ t : Fin cfg0.N, k0_cond2 (grid0.coords t) = 1#1 ↔ t.val < 25 :=
  (by decide +kernel : ∀ t : Fin grid0.N, k0_cond2 (grid0.coords t) = 1#1 ↔ t.val < 25)
/-- The third (layer 1) at the last 25. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- At a layer-0 point t the even slab's rows of the second support begin at row 400 t, -/
theorem off_even : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
/-- and the odd slab's at row 400 t + 200. -/
theorem off_odd : ∀ t : Fin cfg0.N, t.val < 25 → k0_off1 (grid0.coords t) 1#32 = ![400 * t.val + 200, 0] :=
  (by decide +kernel : ∀ t : Fin grid0.N, t.val < 25 → k0_off1 (grid0.coords t) 1#32 = ![400 * t.val + 200, 0])

/-- The result window is idle through layer 0 and not written back there; -/
theorem idle7 : ∀ t : Fin cfg0.N, t.val < 25 → cfg0.idle 7 (grid0.coords t) = true :=
  (by decide +kernel : ∀ t : Fin grid0.N, t.val < 25 → idle0 7 (grid0.coords t) = true)
theorem noflush7 : ∀ t : Fin cfg0.N, t.val < 25 → (cfg0.win 7).flush t = false :=
  (by decide +kernel : ∀ t : Fin grid0.N, t.val < 25 → win0_7.flush t = false)
/-- through layer 1 it is live and written back at every point. -/
theorem live7 : ∀ t : Fin cfg0.N, 25 ≤ t.val → cfg0.idle 7 (grid0.coords t) = false :=
  (by decide +kernel : ∀ t : Fin grid0.N, 25 ≤ t.val → idle0 7 (grid0.coords t) = false)
theorem flush7 : ∀ t : Fin cfg0.N, 25 ≤ t.val → (cfg0.win 7).flush t = true :=
  (by decide +kernel : ∀ t : Fin grid0.N, 25 ≤ t.val → win0_7.flush t = true)
/-- The block written back at point t ≥ 25 is block t - 25 of the result: rows 400 (t - 25) onwards. -/
theorem index7 : ∀ t : Fin cfg0.N, 25 ≤ t.val → (cfg0.win 7).index t = ![t.val - 25, 0] :=
  (by decide +kernel : ∀ t : Fin grid0.N, 25 ≤ t.val → win0_7.index t = ![t.val - 25, 0])

/-! ## What an input window's staging buffer holds -/

/-- An input window's current staging buffer holds its block at every point, fetched there or not, for any
    proof data whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Spec.lean ====
/-
  What the kernel computes, point by point, and the proof data of its one region.
  The first point fills the first scratch with the first support S0 = x W1 (one product of the whole feature
  matrix). A layer-0 point t < 25 reads the even and the odd 200-row slab of adjacency layer 0 at row group t
  and writes rows 400 t .. 400 t + 399 of the second scratch: for each slab, relu (slab S0 + b1) W2. So after
  point t < 25 the rows below 400 (t + 1) of the second scratch are those of the second support S1, and from
  point 25 on the scratch IS S1. A layer-1 point t ≥ 25 reads the two slabs of adjacency layer 1 at row group
  t - 25 and stores slab S1 + b2 into the two halves of its 400-row result block, which is written back.
  The result window is idle through layer 0: its staging buffer is handed back untouched there.
-/
import proofs.«144041_g70901320122855_cont_9to1c4b_733_10_alg».proof.Proof.K.Kit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first grid point. -/
def t₀ : Fin cfg0.N := ⟨0, by rw [N_eq]; decide⟩

/-- The two halves of the 400-row result block a layer-1 point stores: rows 0 .. 199 and rows 200 .. 399. -/
abbrev rLo : Rect S400x128 := Rect.unit (s := S400x128) ![0, 0] S200x128.size Facts₀.inb_S400x128_S200x128_0_0
abbrev rHi : Rect S400x128 := Rect.unit (s := S400x128) ![200, 0] S200x128.size Facts₀.inb_S400x128_S200x128_200_0

/-- The scratch operands as memrefs: whole scoped buffers of the kernel's own. -/
abbrev scM0 : Memref sig .tc .vmem S10000x128 .bf16 := Memref.whole cc0_scratch0
abbrev scM1 : Memref sig .tc .vmem S10000x128 .bf16 := Memref.whole cc0_scratch1

/-- The first support, x W1, as the first point stores it. -/
def S0 (c : Dev nD) : Vec F S10000x128 .bf16 := k0_pay1 (xblk m c t₀) (w1blk m c t₀)

/-- The 200 rows of the second support a layer-0 point computes from its even slab: relu (slab S0 + b1) W2, -/
def rowsA (c : Dev nD) (t : Fin cfg0.N) : Vec F S200x128 .bf16 := k0_pay6 (w2blk m c t) (adjA m c t) (S0 m c) (b1blk m c t)
/-- and from its odd slab. -/
def rowsB (c : Dev nD) (t : Fin cfg0.N) : Vec F S200x128 .bf16 := k0_pay2 (k0_pay5 (w2blk m c t)) (k0_pay7 (adjB m c t) (S0 m c) (b1blk m c t))

/-- The second support: row r belongs to row group r / 400, its even slab if r % 400 < 200, else its odd one. -/
def S1 (c : Dev nD) : Vec F S10000x128 .bf16 := fun y =>
  if h : (y 0).val % 400 < 200 then
    rowsA m c ⟨(y 0).val / 400, by have := idx2_lt0 y; rw [N_eq]; omega⟩ (ix2 (n0 := 200) (n1 := 128) ⟨(y 0).val % 400, h⟩ ⟨(y 1).val, idx2_lt1 y⟩)
  else
    rowsB m c ⟨(y 0).val / 400, by have := idx2_lt0 y; rw [N_eq]; omega⟩ (ix2 (n0 := 200) (n1 := 128) ⟨(y 0).val % 400 - 200, by omega⟩ ⟨(y 1).val, idx2_lt1 y⟩)

/-- The 400-row block a layer-1 point leaves in the result's staging buffer: its two stores, each a slab of
    adjacency layer 1 times the second support plus the bias row. -/
def outBlk (c : Dev nD) (t : Fin cfg0.N) : Vec F S400x128 .f32 :=
  View.canon [⟨rHi, k0_pay4 (adjB m c t) (S1 m c) (b2blk m c t)⟩, ⟨rLo, k0_pay3 (adjA m c t) (S1 m c) (b2blk m c t)⟩]

/-- The rows below 400 n of contents g are the second support's. -/
def P1 (c : Dev nD) (n : ℕ) (g : Vec F S10000x128 .bf16) : Prop :=
  ∀ y : S10000x128.Idx, (y 0).val < 400 * n → g y = S1 m c y

/-- The region's invariant before point n: before the first point both scratch buffers hold anything; afterwards
    the first holds the first support and the second agrees with the second support on the rows written so far. -/
def PhiS (c : Dev nD) : (n : ℕ) → sProp 𝕄
  | 0 => Pipeline.scopedRest (Ix := Unit) (Name := ℕ) (U := UR sig nD τ) (Lvl := ℕ) (Val := Elt F) spec0 c
  | n + 1 => iprop(owns (c : Thread nD τ) scM0 fullShare (S0 m c) ∗ ∃ g, ⌜P1 m c (n + 1) g⌝ ∗ owns (c : Thread nD τ) scM1 fullShare g)

theorem PhiS_zero (c : Dev nD) : PhiS m c 0 = Pipeline.scopedRest (Ix := Unit) (Name := ℕ) (U := UR sig nD τ) (Lvl := ℕ) (Val := Elt F) spec0 c := rfl
theorem PhiS_succ (c : Dev nD) (n : ℕ) :
    PhiS m c (n + 1) = iprop(owns (c : Thread nD τ) scM0 fullShare (S0 m c) ∗ ∃ g, ⌜P1 m c (n + 1) g⌝ ∗ owns (c : Thread nD τ) scM1 fullShare g) := rfl

/-- The seven input windows' current staging buffers at point t, each at its block. -/
def ins (c : Dev nD) (t : Fin cfg0.N) : sProp 𝕄 :=
  iprop(owns (c : Thread nD τ) (st0_0 t) fullShare (adjA m c t) ∗ owns (c : Thread nD τ) (st0_1 t) fullShare (adjB m c t)
    ∗ owns (c : Thread nD τ) (st0_2 t) fullShare (xblk m c t) ∗ owns (c : Thread nD τ) (st0_3 t) fullShare (w1blk m c t)
    ∗ owns (c : Thread nD τ) (st0_4 t) fullShare (b1blk m c t) ∗ owns (c : Thread nD τ) (st0_5 t) fullShare (w2blk m c t)
    ∗ owns (c : Thread nD τ) (st0_6 t) fullShare (b2blk m c t))

/-- The proof data of the one pipeline on core c: the arrays as the region finds them; after the body each
    input's buffer at its block and the result's at the point's block; the invariant over the two scratch buffers;
    the adjacency tensor's two windows each at half its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outBlk m c t := by dsimp only [dats]

theorem Phi_eq (c : Dev nD) (t : Fin (cfg0.N + 1)) : (dats m 0 c).Φ t = PhiS m c t.val := by dsimp only [dats]

theorem q_0 (c : Dev nD) : (dats m 0 c).q 0 = fullShare.left := by dsimp only [dats]
theorem q_1 (c : Dev nD) : (dats m 0 c).q 1 = fullShare.right := by dsimp only [dats]
theorem q_ge (c : Dev nD) (w : Fin 8) (h : 2 ≤ w.val) : (dats m 0 c).q w = fullShare := by
  match w, h with
  | ⟨2, _⟩, _ => dsimp only [dats]
  | ⟨3, _⟩, _ => dsimp only [dats]
  | ⟨4, _⟩, _ => dsimp only [dats]
  | ⟨5, _⟩, _ => dsimp only [dats]
  | ⟨6, _⟩, _ => dsimp only [dats]
  | ⟨7, _⟩, _ => dsimp only [dats]

/-- The scratch buffers as the region hands them over are the invariant before the first point, -/
theorem hin (c : Dev nD) : Pipeline.scopedRest (Ix := Unit) (Name := ℕ) (U := UR sig nD τ) (Lvl := ℕ) (Val := Elt F) spec0 c ⊢ (dats m 0 c).Φ 0 := by
  rw [Phi_eq]; exact BI.Entails.refl _

/-- The two scratch buffers at some contents, as memrefs owned. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- and after the last point the invariant gives them back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [Phi_eq, Fin.val_last, show cfg0.N = 49 + 1 from N_0, PhiS_succ, scoped_eq]
  iintro ⟨H0, ⟨%g, -, H1⟩⟩
  isplitl [H0]
  · iexists _; iexact H0
  · iexists _; iexact H1

end Cert.Kernel.Hand

end
-- ==== Proof.K.CaseA.lean ====
/-
  The kernel body at the first grid point (layer 0, row group 0), where its first and second branch are taken and
  its third is not. The first branch stores the first support x W1 whole into the first scratch; the second reads
  it back, and from the point's even and odd 200-row slab of adjacency layer 0 stores relu (slab S0 + b1) W2 into
  rows 0 .. 199 and 200 .. 399 of the second scratch. Those 400 rows are then the second support's, which is the
  region's invariant before the second point. No input buffer is written, and the result window's buffer is not
  touched.
-/
import proofs.«144041_g70901320122855_cont_9to1c4b_733_10_alg».proof.Proof.K.Spec
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

namespace CaseA

/-- The offsets of a load or store of a whole buffer are zero on every axis, at rank two and at rank three. -/
theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's run where the first two branches are taken -/

set_option maxHeartbeats 1000000 in
/-- On any whole buffers, with the first and the second branch taken and the third not: from the six inputs the two
    branches read at contents xa, xb (the even and the odd slab), xx (the features), xw1, xw2 (the weights) and xb1
    (the first bias row), and the two scratch buffers at anything, the body runs to a state where the inputs hold
    what they held, the first scratch holds s0 = the first support of xx and xw1 (its one store covers it), and the
    second scratch has had two stores: the even slab's 200 rows at the point's even offset, then the odd slab's at
    its odd offset, both computed from s0 as read back from the first scratch. -/
theorem run (c : Dev nD) (i : grid0.Coords)
    (arg2 : Memref sig .tc .vmem S1x200x10000 .f32) (harg2 : arg2.IsWhole) (arg3 : Memref sig .tc .vmem S1x200x10000 .f32) (harg3 : arg3.IsWhole)
    (arg4 : Memref sig .tc .vmem S10000x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S400x128 .f32) (harg9 : arg9.IsWhole)
    (arg10 : Memref sig .tc .vmem S10000x128 .bf16) (harg10 : arg10.IsWhole) (arg11 : Memref sig .tc .vmem S10000x128 .bf16) (harg11 : arg11.IsWhole)
    (hcA : condA i) (hc2 : k0_cond2 i = 1#1) (hc3 : ¬ k0_cond3 i = 1#1)
    (xa xb : Vec F S1x200x10000 .f32) (xx : Vec F S10000x128 .f32) (xw1 xw2 : Vec F S128x128 .f32) (xb1 : Vec F S1x128 .f32)
    (s0 : Vec F S10000x128 .bf16) (hs0 : s0 = k0_pay1 xx xw1)
    (E : Set ℕ) (K : PUnit → sProp 𝕄) :
    iprop(owns (c : Thread nD τ) arg2 fullShare xa ∗ owns (c : Thread nD τ) arg3 fullShare xb ∗ owns (c : Thread nD τ) arg4 fullShare xx
        ∗ owns (c : Thread nD τ) arg5 fullShare xw1 ∗ owns (c : Thread nD τ) arg6 fullShare xb1 ∗ owns (c : Thread nD τ) arg7 fullShare xw2
        ∗ (∃ d, owns (c : Thread nD τ) arg10 fullShare d) ∗ (∃ d, owns (c : Thread nD τ) arg11 fullShare d)
        ∗ (iprop(owns (c : Thread nD τ) arg2 fullShare xa ∗ owns (c : Thread nD τ) arg3 fullShare xb ∗ owns (c : Thread nD τ) arg4 fullShare xx
            ∗ owns (c : Thread nD τ) arg5 fullShare xw1 ∗ owns (c : Thread nD τ) arg6 fullShare xb1 ∗ owns (c : Thread nD τ) arg7 fullShare xw2
            ∗ owns (c : Thread nD τ) arg10 fullShare s0
            ∗ (∃ f, arg11.view.loc (c : Thread nD τ) ↦[arg11.view.set]{fullShare} arg11.view.writes (Elt F) f
                [⟨Rect.unit (s := S10000x128) (k0_off1 i 1#32) S200x128.size (k0_off1_inb i hc2 1), k0_pay2 (k0_pay5 xw2) (k0_pay7 xb s0 xb1)⟩,
                 ⟨Rect.unit (s := S10000x128) (k0_off1 i 0#32) S200x128.size (k0_off1_inb i hc2 0), k0_pay6 xw2 xa s0 xb1⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  subst hs0
  simp only [cc0__gcn_body_eq_skeleton]; unfold cc0__gcn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hcA | exact hc2 | exact hc3)
  -- every load of an input reads the contents it was entered with, and the loads of the first scratch after its
  -- whole store read that store's payload
  sl_unfold_run_names
  simp only [View.readAt_eq_ld, harg2.read_unread, harg3.read_unread, harg4.read_unread, harg5.read_unread, harg6.read_unread, harg7.read_unread,
    View.ld_unit_zero (S := S10000x128) zero2, View.ld_unit_zero (S := S128x128) zero2, View.ld_unit_zero (S := S1x128) zero2,
    View.ld_unit_zero (S := S1x200x10000) zero3, View.readCov_unit_zero (S := S10000x128) _ zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr
    swap; · iexact H10
    ipureintro
    exact (View.read_writes_eq_canon arg10.view f10
      [⟨Rect.unit (s := S10000x128) ![0, 0] S10000x128.size inb_S10000x128_S10000x128_0_0, k0_pay1 xx xw1⟩]
      (fun y => ⟨_, List.mem_singleton_self _, View.mem_set_unit_zero zero2 inb_S10000x128_S10000x128_0_0 y⟩)).trans
      (View.canon_unit_zero zero2 _ _)
  iexists _; iexact H11

/-! ## The rows of the second support a layer-0 point writes -/

/-- Row 400 t + p of the second support, p < 200, is row p of what row group t computes from its even slab, -/
theorem S1_even (c : Dev nD) (y : S10000x128.Idx) (t : Fin cfg0.N) (p : Fin 200) (q : Fin 128)
    (h0 : (y 0).val = 400 * t.val + p.val) (h1 : (y 1).val = q.val) : S1 m c y = rowsA m c t (ix2 p q) := by
  have hp := p.isLt
  have hlt : (y 0).val % 400 < 200 := by omega
  have key : ∀ (t' : Fin cfg0.N) (p' : Fin 200) (q' : Fin 128), t' = t → p' = p → q' = q →
      rowsA m c t' (ix2 p' q') = rowsA m c t (ix2 p q) := by rintro _ _ _ rfl rfl rfl; rfl
  unfold S1
  rw [dif_pos hlt]
  exact key _ _ _ (Fin.ext (by show (y 0).val / 400 = t.val; omega)) (Fin.ext (by show (y 0).val % 400 = p.val; omega)) (Fin.ext h1)

/-- and row 400 t + 200 + p is row p of what it computes from its odd slab. -/
theorem S1_odd (c : Dev nD) (y : S10000x128.Idx) (t : Fin cfg0.N) (p : Fin 200) (q : Fin 128)
    (h0 : (y 0).val = 400 * t.val + 200 + p.val) (h1 : (y 1).val = q.val) : S1 m c y = rowsB m c t (ix2 p q) := by
  have hp := p.isLt
  have hge : ¬ (y 0).val % 400 < 200 := by omega
  have key : ∀ (t' : Fin cfg0.N) (p' : Fin 200) (q' : Fin 128), t' = t → p' = p → q' = q →
      rowsB m c t' (ix2 p' q') = rowsB m c t (ix2 p q) := by rintro _ _ _ rfl rfl rfl; rfl
  unfold S1
  rw [dif_neg hge]
  exact key _ _ _ (Fin.ext (by show (y 0).val / 400 = t.val; omega)) (Fin.ext (by show (y 0).val % 400 - 200 = p.val; omega)) (Fin.ext h1)

/-- The even slab's rows, stored at rows 400 t onwards, are the second support's rows there; -/
theorem even_piece (c : Dev nD) (t : Fin cfg0.N)
    (inb : ∀ a, (![400 * t.val, 0] : Fin 2 → ℕ) a + S200x128.size a ≤ S10000x128.size a) (x : S200x128.Idx) :
    rowsA m c t x = S1 m c ((Rect.unit (s := S10000x128) ![400 * t.val, 0] S200x128.size inb).emb x) := by
  obtain ⟨p, q, rfl⟩ : ∃ (p : Fin 200) (q : Fin 128), x = ix2 p q := ⟨x 0, x 1, eq_ix2 x⟩
  exact (S1_even m c _ t p q (by show 400 * t.val + 1 * p.val = 400 * t.val + p.val; omega)
    (by show 0 + 1 * q.val = q.val; omega)).symm

/-- the odd slab's, stored at rows 400 t + 200 onwards, likewise. -/
theorem odd_piece (c : Dev nD) (t : Fin cfg0.N)
    (inb : ∀ a, (![400 * t.val + 200, 0] : Fin 2 → ℕ) a + S200x128.size a ≤ S10000x128.size a) (x : S200x128.Idx) :
    rowsB m c t x = S1 m c ((Rect.unit (s := S10000x128) ![400 * t.val + 200, 0] S200x128.size inb).emb x) := by
  obtain ⟨p, q, rfl⟩ : ∃ (p : Fin 200) (q : Fin 128), x = ix2 p q := ⟨x 0, x 1, eq_ix2 x⟩
  exact (S1_odd m c _ t p q (by show 400 * t.val + 200 + 1 * p.val = 400 * t.val + 200 + p.val; omega)
    (by show 0 + 1 * q.val = q.val; omega)).symm

/-- So after the two stores of row group t — the even slab's rows at offset (400 t, 0), then the odd slab's at
    (400 t + 200, 0) — a buffer reads the second support on rows 400 t .. 400 t + 399, whatever it held before: a
    row below 400 t + 200 lies in the even store's rectangle, the others in the odd one's. -/
theorem rows_of_writes (c : Dev nD) (t : Fin cfg0.N) (v : View sig .tc .vmem S10000x128 .bf16) (f : v.ty.Contents (Elt F))
    (offE offO : Fin 2 → ℕ) (hE : offE = ![400 * t.val, 0]) (hO : offO = ![400 * t.val + 200, 0])
    (inbE : ∀ a, offE a + S200x128.size a ≤ S10000x128.size a) (inbO : ∀ a, offO a + S200x128.size a ≤ S10000x128.size a)
    (y : S10000x128.Idx) (hlo : 400 * t.val ≤ (y 0).val) (hhi : (y 0).val < 400 * t.val + 400) :
    v.read (Elt F) (v.writes (Elt F) f [⟨Rect.unit (s := S10000x128) offO S200x128.size inbO, rowsB m c t⟩,
      ⟨Rect.unit (s := S10000x128) offE S200x128.size inbE, rowsA m c t⟩]) y = S1 m c y := by
  subst hE hO
  have hy1 := idx2_lt1 y
  refine View.read_writes_apply_of_pieces v f (S1 m c) _ ?_ y ?_
  · intro pc hpc x
    rcases List.mem_cons.mp hpc with rfl | hpc
    · exact odd_piece m c t inbO x
    · rcases List.mem_cons.mp hpc with rfl | hpc
      · exact even_piece m c t inbE x
      · exact absurd hpc List.not_mem_nil
  · by_cases hlt : (y 0).val < 400 * t.val + 200
    · have hm : y ∈ (Rect.unit (s := S10000x128) ![400 * t.val, 0] S200x128.size inbE).set :=
        Rect.mem_set_unit.mpr (Fin.forall_fin_two.mpr
          ⟨⟨by show 400 * t.val ≤ (y 0).val; exact hlo, by show (y 0).val < 400 * t.val + 200; exact hlt⟩,
           ⟨by show 0 ≤ (y 1).val; omega, by show (y 1).val < 0 + 128; omega⟩⟩)
      exact ⟨⟨Rect.unit (s := S10000x128) ![400 * t.val, 0] S200x128.size inbE, rowsA m c t⟩,
        List.mem_cons_of_mem _ List.mem_cons_self, hm⟩
    · have hm : y ∈ (Rect.unit (s := S10000x128) ![400 * t.val + 200, 0] S200x128.size inbO).set :=
        Rect.mem_set_unit.mpr (Fin.forall_fin_two.mpr
          ⟨⟨by show 400 * t.val + 200 ≤ (y 0).val; omega, by show (y 0).val < 400 * t.val + 200 + 200; omega⟩,
           ⟨by show 0 ≤ (y 1).val; omega, by show (y 1).val < 0 + 128; omega⟩⟩)
      exact ⟨⟨Rect.unit (s := S10000x128) ![400 * t.val + 200, 0] S200x128.size inbO, rowsB m c t⟩,
        List.mem_cons_self, hm⟩

end CaseA

/-- The first point: the first support is computed and stored whole into the first scratch, read back, and the
    point's two slabs give rows 0 .. 399 of the second scratch. The result window's buffer (in R) is not touched. -/
theorem sound_A (c : Dev nD) (t : Fin cfg0.N) (h : t.val = 0) (R : sProp 𝕄) :
    iprop(PhiS m c 0 ∗ ins m c t ∗ R)
      ⊢ wp frame (wpE (defs₀ (F := F)) Variants.none c none) Set.univ (bodyAt0 t) (fun _ => iprop(PhiS m c 1 ∗ ins m c t ∗ R)) := by
  have ht : t = t₀ := Fin.ext h
  -- the first support is the payload of this point's own features and first weights
  have e0 : S0 m c = k0_pay1 (xblk m c t) (w1blk m c t) := by subst ht; rfl
  have hA : condA (grid0.coords t) := (hcondA t).mpr h
  have h2 : k0_cond2 (grid0.coords t) = 1#1 := (hcond2 t).mpr (by omega)
  have h3 : ¬ k0_cond3 (grid0.coords t) = 1#1 := fun h' => by have := (hcond3 t).mp h'; omega
  rw [PhiS_zero, scoped_eq, show PhiS m c 1 = _ from PhiS_succ m c 0]
  unfold ins bodyAt0
  iintro ⟨⟨HS0, HS1⟩, ⟨H0, H1, H2, H3, H4, H5, H6⟩, HR⟩
  iapply (CaseA.run c (grid0.coords t) _ _ _ _ _ _ _ _ _ _ _ _ _ _ _ _ _ _ _ _ hA h2 h3
    (adjA m c t) (adjB m c t) (xblk m c t) (w1blk m c t) (w2blk m c t) (b1blk m c t) (S0 m c) e0 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, HS1⟩⟩
  isplitl [HS0 HS1]
  · isplitl [HS0]; · iexact HS0
    iexists _; isplitr
    swap
    · unfold owns; iexists _; isplitr
      swap; · iexact HS1
      ipureintro; rfl
    ipureintro
    -- rows 0 .. 399 of the second scratch are the second support's: the point's offsets are (0, 0) and (200, 0)
    intro y hy
    exact CaseA.rows_of_writes m c t _ f _ _ (off_even t (by omega)) (off_odd t (by omega)) _ _ y (by omega) (by omega)
  isplitr [HR]
  · isplitl [H0]; · iexact H0
    isplitl [H1]; · iexact H1
    isplitl [H2]; · iexact H2
    isplitl [H3]; · iexact H3
    isplitl [H4]; · iexact H4
    isplitl [H5]; · iexact H5
    iexact H6
  iexact HR

end Cert.Kernel.Hand

end
-- ==== Proof.K.CaseB.lean ====
/-
  The kernel body at the grid points of one of its three control cases.
-/
import proofs.«144041_g70901320122855_cont_9to1c4b_733_10_alg».proof.Proof.K.Spec
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The zero offsets of rank 2 and of rank 3, spelt as vectors, are the constant zero function. -/
theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body where only its second branch is taken, on whole memrefs held at named contents: the four inputs it
    loads and the first scratch come back as they were; the second scratch is left with two pieces written, the odd
    slab's 200 rows last, each the payload of the loaded contents. -/
theorem run_B (c : Dev nD) (i : grid0.Coords) (arg2 : Memref sig .tc .vmem S1x200x10000 .f32) (harg2 : arg2.IsWhole) (arg3 : Memref sig .tc .vmem S1x200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .bf16) (harg10 : arg10.IsWhole) (arg11 : Memref sig .tc .vmem S10000x128 .bf16) (harg11 : arg11.IsWhole)
    (hcA : ¬ condA i) (hc2 : k0_cond2 i = 1#1) (hc3 : ¬ k0_cond3 i = 1#1)
    (xa xb : Vec F S1x200x10000 .f32) (xw2 : Vec F S128x128 .f32) (xb1 : Vec F S1x128 .f32) (s0 g : Vec F S10000x128 .bf16)
    (E : Set ℕ) (K : PUnit → sProp 𝕄) :
    iprop(owns (c : Thread nD τ) arg2 fullShare xa ∗ owns (c : Thread nD τ) arg3 fullShare xb ∗ owns (c : Thread nD τ) arg6 fullShare xb1
        ∗ owns (c : Thread nD τ) arg7 fullShare xw2 ∗ owns (c : Thread nD τ) arg10 fullShare s0 ∗ owns (c : Thread nD τ) arg11 fullShare g
        ∗ (iprop(owns (c : Thread nD τ) arg2 fullShare xa ∗ owns (c : Thread nD τ) arg3 fullShare xb ∗ owns (c : Thread nD τ) arg6 fullShare xb1
            ∗ owns (c : Thread nD τ) arg7 fullShare xw2 ∗ owns (c : Thread nD τ) arg10 fullShare s0
            ∗ (∃ w1 w0, ⌜w1 = k0_pay2 (k0_pay5 xw2) (k0_pay7 xb s0 xb1) ∧ w0 = k0_pay6 xw2 xa s0 xb1⌝
                ∗ (arg11.view.loc (c : Thread nD τ) ↦[arg11.view.set]{fullShare} arg11.view.writes (Elt F) (harg11.unread g)
                    [⟨Rect.unit (s := S10000x128) (k0_off1 i 1#32) S200x128.size (k0_off1_inb i hc2 1), w1⟩,
                     ⟨Rect.unit (s := S10000x128) (k0_off1 i 0#32) S200x128.size (k0_off1_inb i hc2 0), w0⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  have r7 : View.readAt (Elt F) arg7.view (Rect.unit ![0, 0] S128x128.size inb_S128x128_S128x128_0_0).toLoadRect (harg7.unread xw2) = xw2 := by
    rw [View.readAt_eq_ld, harg7.read_unread, View.ld_unit_zero hz2]
  have r2 : View.readAt (Elt F) arg2.view (Rect.unit ![0, 0, 0] S1x200x10000.size inb_S1x200x10000_S1x200x10000_0_0_0).toLoadRect (harg2.unread xa) = xa := by
    rw [View.readAt_eq_ld, harg2.read_unread, View.ld_unit_zero hz3]
  have r3 : View.readAt (Elt F) arg3.view (Rect.unit ![0, 0, 0] S1x200x10000.size inb_S1x200x10000_S1x200x10000_0_0_0).toLoadRect (harg3.unread xb) = xb := by
    rw [View.readAt_eq_ld, harg3.read_unread, View.ld_unit_zero hz3]
  have r10 : View.readAt (Elt F) arg10.view (Rect.unit ![0, 0] S10000x128.size inb_S10000x128_S10000x128_0_0).toLoadRect (harg10.unread s0) = s0 := by
    rw [View.readAt_eq_ld, harg10.read_unread, View.ld_unit_zero hz2]
  have r6 : View.readAt (Elt F) arg6.view (Rect.unit ![0, 0] S1x128.size inb_S1x128_S1x128_0_0).toLoadRect (harg6.unread xb1) = xb1 := by
    rw [View.readAt_eq_ld, harg6.read_unread, View.ld_unit_zero hz2]
  simp only [cc0__gcn_body_eq_skeleton]; unfold cc0__gcn_body_skel
  unfold owns
  iintro ⟨⟨%f2, %hf2, H2⟩, ⟨%f3, %hf3, H3⟩, ⟨%f6, %hf6, H6⟩, ⟨%f7, %hf7, H7⟩, ⟨%f10, %hf10, H10⟩, ⟨%f11, %hf11, H11⟩, Hk⟩
  obtain rfl := harg2.eq_unread hf2; obtain rfl := harg3.eq_unread hf3; obtain rfl := harg6.eq_unread hf6
  obtain rfl := harg7.eq_unread hf7; obtain rfl := harg10.eq_unread hf10; obtain rfl := harg11.eq_unread hf11
  sl_exec (disch := first | exact hcA | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H10]
  · iexists _; isplitr; · ipureintro; exact harg10.read_unread _
    iexact H10
  iexists _; iexists _; isplitr
  swap; · iexact H11
  ipureintro
  sl_unfold_words
  first | exact ⟨rfl, rfl⟩ | (simp only [r7, r2, r3, r10, r6]; exact ⟨rfl, rfl⟩)

/-- Two rows of the same row group and slab position are the same entry of the slab's 200 rows. -/
theorem rowsA_congr (c : Dev nD) (t t' : Fin cfg0.N) (a a' : Fin 200) (b : Fin 128) (ht : t' = t) (ha : a' = a) :
    rowsA m c t' (ix2 (n0 := 200) (n1 := 128) a' b) = rowsA m c t (ix2 (n0 := 200) (n1 := 128) a b) := by
  subst ht; subst ha; rfl
theorem rowsB_congr (c : Dev nD) (t t' : Fin cfg0.N) (a a' : Fin 200) (b : Fin 128) (ht : t' = t) (ha : a' = a) :
    rowsB m c t' (ix2 (n0 := 200) (n1 := 128) a' b) = rowsB m c t (ix2 (n0 := 200) (n1 := 128) a b) := by
  subst ht; subst ha; rfl

/-- The invariant's step at a layer-0 point t. Contents that agree with the second support below row 400 t, after
    the even slab's rows are written at rows 400 t .. 400 t + 199 and then the odd slab's at rows 400 t + 200 ..
    400 t + 399, agree with it below row 400 (t + 1): a row of the odd rectangle reads the odd payload, which is the
    second support's entry there since the row's group is t and its position in the group is at least 200; a row of
    the even rectangle misses the odd one and reads the even payload likewise; a lower row misses both and is as before. -/
theorem P1_step (c : Dev nD) (t : Fin cfg0.N) (h : t.val < 25) {κ : Kind} {sp : Space}
    (v : View sig κ sp S10000x128 .bf16) (f : v.ty.Contents (Elt F)) (g : Vec F S10000x128 .bf16)
    (hf : v.read (Elt F) f = g) (hP : P1 m c t.val g)
    (inb1 : ∀ a, k0_off1 (grid0.coords t) 1#32 a + S200x128.size a ≤ S10000x128.size a)
    (inb0 : ∀ a, k0_off1 (grid0.coords t) 0#32 a + S200x128.size a ≤ S10000x128.size a) :
    P1 m c (t.val + 1) (v.read (Elt F) (v.writes (Elt F) f
      [⟨Rect.unit (s := S10000x128) (k0_off1 (grid0.coords t) 1#32) S200x128.size inb1, rowsB m c t⟩,
       ⟨Rect.unit (s := S10000x128) (k0_off1 (grid0.coords t) 0#32) S200x128.size inb0, rowsA m c t⟩])) := by
  intro y hy
  have hy0 : (y 0).val < 10000 := idx2_lt0 y
  by_cases h1 : 400 * t.val + 200 ≤ (y 0).val
  · have hlt : (y 0).val - (400 * t.val + 200) < 200 := by omega
    refine (View.read_writes_cons_rows_of_mem v f inb1 (rowsB m c t) _ y
      (ix2 (n0 := 200) (n1 := 128) ⟨(y 0).val - (400 * t.val + 200), hlt⟩ ⟨(y 1).val, idx2_lt1 y⟩) (off_odd t h)
      (show (y 0).val = 400 * t.val + 200 + ((y 0).val - (400 * t.val + 200)) by omega) rfl).trans ?_
    unfold S1
    have hmod : ¬ (y 0).val % 400 < 200 := by omega
    refine Eq.trans ?_ (dif_neg hmod).symm
    exact (rowsB_congr m c t _ _ _ _ (Fin.ext (show (y 0).val / 400 = t.val by omega))
      (Fin.ext (show (y 0).val % 400 - 200 = (y 0).val - (400 * t.val + 200) by omega))).symm
  · by_cases h2 : 400 * t.val ≤ (y 0).val
    · have hlt : (y 0).val - 400 * t.val < 200 := by omega
      refine (View.read_writes_cons_rows_of_not_mem (o := 400 * t.val + 200) (W := 200) v f inb1 (rowsB m c t) _ y (off_odd t h) rfl
        (Or.inl (by omega))).trans ?_
      refine (View.read_writes_cons_rows_of_mem v f inb0 (rowsA m c t) _ y
        (ix2 (n0 := 200) (n1 := 128) ⟨(y 0).val - 400 * t.val, hlt⟩ ⟨(y 1).val, idx2_lt1 y⟩) (off_even t h)
        (show (y 0).val = 400 * t.val + ((y 0).val - 400 * t.val) by omega) rfl).trans ?_
      unfold S1
      have hmod : (y 0).val % 400 < 200 := by omega
      refine Eq.trans ?_ (dif_pos hmod).symm
      exact (rowsA_congr m c t _ _ _ _ (Fin.ext (show (y 0).val / 400 = t.val by omega))
        (Fin.ext (show (y 0).val % 400 = (y 0).val - 400 * t.val by omega))).symm
    · refine (View.read_writes_cons_rows_of_not_mem (o := 400 * t.val + 200) (W := 200) v f inb1 (rowsB m c t) _ y (off_odd t h) rfl
        (Or.inl (by omega))).trans ?_
      refine (View.read_writes_cons_rows_of_not_mem (o := 400 * t.val) (W := 200) v f inb0 (rowsA m c t) _ y (off_even t h) rfl
        (Or.inl (by omega))).trans ?_
      rw [View.writes_nil, hf]
      exact hP y (by omega)

/-- A later layer-0 point t: the first scratch is only read; the point's two slabs give rows 400 t .. 400 t + 399
    of the second scratch, the rows below staying as they were. The result window's buffer (in R) is not touched. -/
theorem sound_B (c : Dev nD) (t : Fin cfg0.N) (h0 : t.val ≠ 0) (h : t.val < 25) (R : sProp 𝕄) :
    iprop(PhiS m c t.val ∗ ins m c t ∗ R)
      ⊢ wp frame (wpE (defs₀ (F := F)) Variants.none c none) Set.univ (bodyAt0 t) (fun _ => iprop(PhiS m c (t.val + 1) ∗ ins m c t ∗ R)) := by
  obtain ⟨n, hn⟩ := Nat.exists_eq_succ_of_ne_zero h0
  have hcA : ¬ condA (grid0.coords t) := fun hh => h0 ((hcondA t).mp hh)
  have hc2 : k0_cond2 (grid0.coords t) = 1#1 := (hcond2 t).mpr h
  have hc3 : ¬ k0_cond3 (grid0.coords t) = 1#1 := fun hh => absurd ((hcond3 t).mp hh) (by omega)
  rw [PhiS_succ m c t.val, show PhiS m c t.val = PhiS m c (n + 1) from congrArg (PhiS m c) hn, PhiS_succ m c n]
  unfold ins bodyAt0
  iintro ⟨⟨HS0, ⟨%g, %hg, HS1⟩⟩, ⟨H0, H1, H2, H3, H4, H5, H6⟩, HR⟩
  have hg' : P1 m c t.val g := by rw [hn]; exact hg
  have hw1 : (scM1 : Memref sig .tc .vmem S10000x128 .bf16).IsWhole := Memref.isWhole_whole _
  iapply (run_B (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hcA hc2 hc3 (adjA m c t) (adjB m c t) (w2blk m c t) (b1blk m c t) (S0 m c) g Set.univ _)
  isplitl [H0]; · iexact H0
  isplitl [H1]; · iexact H1
  isplitl [H4]; · iexact H4
  isplitl [H5]; · iexact H5
  isplitl [HS0]; · iexact HS0
  isplitl [HS1]; · iexact HS1
  iintro ⟨H0, H1, H4, H5, HS0, ⟨%w1, %w0, %hw, HS1⟩⟩
  obtain ⟨rfl, rfl⟩ := hw
  isplitl [HS0 HS1]
  · isplitl [HS0]; · iexact HS0
    iexists _; isplitr
    swap
    · unfold owns; iexists _; isplitr
      swap; · iexact HS1
      ipureintro; rfl
    ipureintro
    exact P1_step m c t h scM1.view (hw1.unread g) g (hw1.read_unread g) hg' _ _
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact HR

end Cert.Kernel.Hand

end
-- ==== Proof.K.CaseC.lean ====
/-
  The kernel body at the grid points of one of its three control cases.
-/
import proofs.«144041_g70901320122855_cont_9to1c4b_733_10_alg».proof.Proof.K.Spec
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole buffer through the rectangle of its full extents at offset zero, the buffer held at the raw
    contents that read X, reads X. -/
theorem caseC_readAt_whole {s : Shape} {e : EltTy} (M : Memref sig .tc .vmem s e) (h : M.IsWhole) (X : s.Idx → Elt F e)
    {off : Fin s.rank → ℕ} (hz : off = fun _ => 0) (inb : ∀ a, off a + s.size a ≤ s.size a) :
    View.readAt (Elt F) M.view (Rect.unit (s := s) off s.size inb).toLoadRect (h.unread X) = X := by
  rw [View.readAt_eq_ld, h.read_unread, View.ld_unit_zero hz]

theorem caseC_zero3 : (![0, 0, 0] : Fin 3 → ℕ) = fun _ => 0 := by funext a; fin_cases a <;> rfl
theorem caseC_zero2 : (![0, 0] : Fin 2 → ℕ) = fun _ => 0 := by funext a; fin_cases a <;> rfl

set_option maxHeartbeats 1000000 in
/-- The body on any whole memrefs at a point where only its third branch is taken. It loads the even slab, the
    second scratch whole and the second bias row, stores their payload into rows 0 .. 199 of the result's staging
    buffer, then the same with the odd slab into rows 200 .. 399: the two stores cover the staging buffer, so it
    ends at the canonical contents of the two pieces whatever it held; every buffer read comes back as it was. -/
theorem caseC_run (c : Dev nD) (i : grid0.Coords) (arg2 : Memref sig .tc .vmem S1x200x10000 .f32) (harg2 : arg2.IsWhole) (arg3 : Memref sig .tc .vmem S1x200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .bf16) (harg10 : arg10.IsWhole) (arg11 : Memref sig .tc .vmem S10000x128 .bf16) (harg11 : arg11.IsWhole)
    (hcA : ¬condA i) (hc2 : ¬k0_cond2 i = 1#1) (hc3 : k0_cond3 i = 1#1)
    (xa xb : Vec F S1x200x10000 .f32) (xb2 : Vec F S1x128 .f32) (xs1 : Vec F S10000x128 .bf16)
    (E : Set ℕ) (K : PUnit → sProp 𝕄) :
    iprop(owns (c : Thread nD τ) arg2 fullShare xa ∗ owns (c : Thread nD τ) arg3 fullShare xb ∗ owns (c : Thread nD τ) arg8 fullShare xb2
        ∗ (∃ d, owns (c : Thread nD τ) arg9 fullShare d) ∗ owns (c : Thread nD τ) arg11 fullShare xs1
        ∗ (iprop(owns (c : Thread nD τ) arg2 fullShare xa ∗ owns (c : Thread nD τ) arg3 fullShare xb ∗ owns (c : Thread nD τ) arg8 fullShare xb2
            ∗ owns (c : Thread nD τ) arg9 fullShare (View.canon [⟨rHi, k0_pay4 xb xs1 xb2⟩, ⟨rLo, k0_pay3 xa xs1 xb2⟩])
            ∗ owns (c : Thread nD τ) arg11 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f2, %hf2, H2⟩, ⟨%f3, %hf3, H3⟩, ⟨%f8, %hf8, H8⟩, ⟨%d9, %f9, -, H9⟩, ⟨%f11, %hf11, H11⟩, Hk⟩
  obtain rfl := harg2.eq_unread hf2; obtain rfl := harg3.eq_unread hf3; obtain rfl := harg8.eq_unread hf8; obtain rfl := harg11.eq_unread hf11
  sl_exec (disch := first | exact hcA | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H8]
  · iexists _; isplitr; · ipureintro; exact harg8.read_unread _
    iexact H8
  isplitl [H9]
  · iexists _; isplitr
    swap; · iexact H9
    ipureintro
    rw [caseC_readAt_whole arg2 harg2 xa caseC_zero3, caseC_readAt_whole arg3 harg3 xb caseC_zero3, caseC_readAt_whole arg8 harg8 xb2 caseC_zero2,
      caseC_readAt_whole arg11 harg11 xs1 caseC_zero2]
    exact View.read_writes_eq_canon _ _ _ (View.cover_of_tiledL _ S200x128.size (by sl_kernel_rfl))
  · iexists _; isplitr; · ipureintro; exact harg11.read_unread _
    iexact H11

/-- A layer-1 point t: both scratch buffers are only read (the second IS the second support by now); the two
    halves of the result's staging buffer are stored, which covers it. -/
theorem sound_C (c : Dev nD) (t : Fin cfg0.N) (h : 25 ≤ t.val) (R : sProp 𝕄) :
    iprop(PhiS m c t.val ∗ ins m c t ∗ (∃ d, owns (c : Thread nD τ) (st0_7 t) fullShare d) ∗ R)
      ⊢ wp frame (wpE (defs₀ (F := F)) Variants.none c none) Set.univ (bodyAt0 t)
          (fun _ => iprop(PhiS m c (t.val + 1) ∗ ins m c t ∗ owns (c : Thread nD τ) (st0_7 t) fullShare (outBlk m c t) ∗ R)) := by
  -- the invariant before and after the point, both at a successor
  have e1 : PhiS m c t.val
      = iprop(owns (c : Thread nD τ) scM0 fullShare (S0 m c) ∗ ∃ g, ⌜P1 m c t.val g⌝ ∗ owns (c : Thread nD τ) scM1 fullShare g) := by
    obtain ⟨n, hn⟩ : ∃ n, t.val = n + 1 := ⟨t.val - 1, by omega⟩
    rw [hn]; exact PhiS_succ m c n
  rw [e1, PhiS_succ]
  unfold ins outBlk
  iintro ⟨⟨HS0, ⟨%g, %hg, HS1⟩⟩, ⟨H0, H1, H2, H3, H4, H5, H6⟩, H7, HR⟩
  -- every row lies below 400 t, so the second scratch holds the second support
  have hg' : g = S1 m c := funext fun y => hg y (by have := ValueIdx.idx2_lt0 y; omega)
  subst hg'
  iapply (caseC_run c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (Memref.whole cc0_scratch0) (Memref.isWhole_whole _) (Memref.whole cc0_scratch1) (Memref.isWhole_whole _)
    (fun hA => by have := (hcondA t).mp hA; omega) (fun h2 => by have := (hcond2 t).mp h2; omega) ((hcond3 t).mpr h)
    (adjA m c t) (adjB m c t) (b2blk m c t) (S1 m c) Set.univ _)
  isplitl [H0]; · iexact H0
  isplitl [H1]; · iexact H1
  isplitl [H6]; · iexact H6
  isplitl [H7]; · iexact H7
  isplitl [HS1]; · iexact HS1
  iintro ⟨H0, H1, H6, H7, HS1⟩
  isplitl [HS0 HS1]
  · isplitl [HS0]; · iexact HS0
    iexists (S1 m c); isplitr; · ipureintro; exact fun _ _ => rfl
    iexact HS1
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact HR

end Cert.Kernel.Hand

end
-- ==== Proof.K.Body.lean ====
/-
  The body obligation of the region at every grid point, from the three control cases. The pipeline hands the
  body each input window's staging buffer at the window's block (fetched at this point or kept from an earlier
  one), the result window's buffer at whatever it holds, and the invariant over the two scratch buffers; the
  body returns the inputs as they were, the invariant one point further, and the result window's buffer either
  untouched (layer 0: the window is idle there and not written back) or at the point's block (layer 1).
-/
import proofs.«144041_g70901320122855_cont_9to1c4b_733_10_alg».proof.Proof.K.CaseA
import proofs.«144041_g70901320122855_cont_9to1c4b_733_10_alg».proof.Proof.K.CaseB
import proofs.«144041_g70901320122855_cont_9to1c4b_733_10_alg».proof.Proof.K.CaseC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_0 (c : Dev nD) (t : Fin cfg0.N) (d) : (dats m 0 c).before 0 t d = iblk m c 0 t := before_in0 m (dats m 0 c) (A_eq m c 0) (after_0 m c) t d
theorem before_1 (c : Dev nD) (t : Fin cfg0.N) (d) : (dats m 0 c).before 1 t d = iblk m c 1 t := before_in1 m (dats m 0 c) (A_eq m c 1) (after_1 m c) t d
theorem before_2 (c : Dev nD) (t : Fin cfg0.N) (d) : (dats m 0 c).before 2 t d = iblk m c 2 t := before_in2 m (dats m 0 c) (A_eq m c 2) (after_2 m c) t d
theorem before_3 (c : Dev nD) (t : Fin cfg0.N) (d) : (dats m 0 c).before 3 t d = iblk m c 3 t := before_in3 m (dats m 0 c) (A_eq m c 3) (after_3 m c) t d
theorem before_4 (c : Dev nD) (t : Fin cfg0.N) (d) : (dats m 0 c).before 4 t d = iblk m c 4 t := before_in4 m (dats m 0 c) (A_eq m c 4) (after_4 m c) t d
theorem before_5 (c : Dev nD) (t : Fin cfg0.N) (d) : (dats m 0 c).before 5 t d = iblk m c 5 t := before_in5 m (dats m 0 c) (A_eq m c 5) (after_5 m c) t d
theorem before_6 (c : Dev nD) (t : Fin cfg0.N) (d) : (dats m 0 c).before 6 t d = iblk m c 6 t := before_in6 m (dats m 0 c) (A_eq m c 6) (after_6 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- An input window is never idle: the body leaves its buffer at the block. -/
theorem leaves_in (c : Dev nD) (t : Fin cfg0.N) :
    (dats m 0 c).leavesExact 0 t = owns (c : Thread nD τ) (st0_0 t) fullShare (adjA m c t)
    ∧ (dats m 0 c).leavesExact 1 t = owns (c : Thread nD τ) (st0_1 t) fullShare (adjB m c t)
    ∧ (dats m 0 c).leavesExact 2 t = owns (c : Thread nD τ) (st0_2 t) fullShare (xblk m c t)
    ∧ (dats m 0 c).leavesExact 3 t = owns (c : Thread nD τ) (st0_3 t) fullShare (w1blk m c t)
    ∧ (dats m 0 c).leavesExact 4 t = owns (c : Thread nD τ) (st0_4 t) fullShare (b1blk m c t)
    ∧ (dats m 0 c).leavesExact 5 t = owns (c : Thread nD τ) (st0_5 t) fullShare (w2blk m c t)
    ∧ (dats m 0 c).leavesExact 6 t = owns (c : Thread nD τ) (st0_6 t) fullShare (b2blk m c t) := by
  refine ⟨?_, ?_, ?_, ?_, ?_, ?_, ?_⟩
  · unfold Dat.leavesExact; rw [show cfg0.idle 0 (cfg0.grid.coords t) = false from rfl, after_0]
  · unfold Dat.leavesExact; rw [show cfg0.idle 1 (cfg0.grid.coords t) = false from rfl, after_1]
  · unfold Dat.leavesExact; rw [show cfg0.idle 2 (cfg0.grid.coords t) = false from rfl, after_2]
  · unfold Dat.leavesExact; rw [show cfg0.idle 3 (cfg0.grid.coords t) = false from rfl, after_3]
  · unfold Dat.leavesExact; rw [show cfg0.idle 4 (cfg0.grid.coords t) = false from rfl, after_4]
  · unfold Dat.leavesExact; rw [show cfg0.idle 5 (cfg0.grid.coords t) = false from rfl, after_5]
  · unfold Dat.leavesExact; rw [show cfg0.idle 6 (cfg0.grid.coords t) = false from rfl, after_6]

/-- The inputs as the pipeline hands them over are the seven blocks. -/
theorem ins_intro (c : Dev nD) (t : Fin cfg0.N) :
    iprop((∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))) ⊢ ins m c t := by
  simp only [before_0, before_1, before_2, before_3, before_4, before_5, before_6]
  unfold ins
  iintro ⟨⟨%d0, H0⟩, ⟨%d1, H1⟩, ⟨%d2, H2⟩, ⟨%d3, H3⟩, ⟨%d4, H4⟩, ⟨%d5, H5⟩, ⟨%d6, H6⟩⟩
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨l0, l1, l2, l3, l4, l5, l6⟩ := leaves_in m c t
  rw [l0, l1, l2, l3, l4, l5, l6]
  rw [show (dats m 0 c).owesAt () t.succ = (dats m 0 c).owesAt () t.castSucc from rfl]
  rw [Phi_eq, Phi_eq, Fin.coe_castSucc, Fin.val_succ]
  by_cases h25 : t.val < 25
  · rw [Dat.leavesExact_idle (dats m 0 c) 7 t (idle7 t h25) (noflush7 t h25)]
    by_cases hz : t.val = 0
    · refine (show _ ⊢ iprop(PhiS m c 0 ∗ ins m c t ∗ ((dats m 0 c).owesAt () t.castSucc ∗ ∃ d, owns (c : Thread nD τ) (st0_7 t) fullShare ((dats m 0 c).before 7 t d))) from ?_).trans
        ((sound_A m c t hz _).trans (wp_mono _ _ _ fun _ => ?_))
      · rw [hz]
        iintro ⟨HΦ, Ho, H0, H1, H2, H3, H4, H5, H6, H7⟩
        isplitl [HΦ]; · iexact HΦ
        isplitr [Ho H7]
        · iapply (ins_intro m c t)
          isplitl [H0]; · iexact H0
          isplitl [H1]; · iexact H1
          isplitl [H2]; · iexact H2
          isplitl [H3]; · iexact H3
          isplitl [H4]; · iexact H4
          isplitl [H5]; · iexact H5
          iexact H6
        isplitl [Ho]; · iexact Ho
        iexact H7
      · rw [hz]; unfold ins
        iintro ⟨HΦ, ⟨H0, H1, H2, H3, H4, H5, H6⟩, Ho, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · refine (show _ ⊢ iprop(PhiS m c t.val ∗ ins m c t ∗ ((dats m 0 c).owesAt () t.castSucc ∗ ∃ d, owns (c : Thread nD τ) (st0_7 t) fullShare ((dats m 0 c).before 7 t d))) from ?_).trans
        ((sound_B m c t hz h25 _).trans (wp_mono _ _ _ fun _ => ?_))
      · iintro ⟨HΦ, Ho, H0, H1, H2, H3, H4, H5, H6, H7⟩
        isplitl [HΦ]; · iexact HΦ
        isplitr [Ho H7]
        · iapply (ins_intro m c t)
          isplitl [H0]; · iexact H0
          isplitl [H1]; · iexact H1
          isplitl [H2]; · iexact H2
          isplitl [H3]; · iexact H3
          isplitl [H4]; · iexact H4
          isplitl [H5]; · iexact H5
          iexact H6
        isplitl [Ho]; · iexact Ho
        iexact H7
      · unfold ins
        iintro ⟨HΦ, ⟨H0, H1, H2, H3, H4, H5, H6⟩, Ho, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · have h25' : 25 ≤ t.val := Nat.le_of_not_lt h25
    rw [show (dats m 0 c).leavesExact 7 t = owns (c : Thread nD τ) (st0_7 t) fullShare ((dats m 0 c).after 7 t) from by
      unfold Dat.leavesExact; rw [live7 t h25'], after_7]
    refine (show _ ⊢ iprop(PhiS m c t.val ∗ ins m c t ∗ (∃ d, owns (c : Thread nD τ) (st0_7 t) fullShare d) ∗ (dats m 0 c).owesAt () t.castSucc) from ?_).trans
      ((sound_C m c t h25' _).trans (wp_mono _ _ _ fun _ => ?_))
    · iintro ⟨HΦ, Ho, H0, H1, H2, H3, H4, H5, H6, ⟨%d7, H7⟩⟩
      isplitl [HΦ]; · iexact HΦ
      isplitr [Ho H7]
      · iapply (ins_intro m c t)
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      iexact Ho
    · unfold ins
      iintro ⟨HΦ, ⟨H0, H1, H2, H3, H4, H5, H6⟩, H7, Ho⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the one region, for any proof data over it. Two windows of the region read ONE array, the
  adjacency tensor (its even and its odd 200-row slabs): the region is entered holding that array once, whole,
  and hands each of the two windows one half of the share, which is all a window that only reads needs; every
  other window's array is held whole. The two scratch buffers the body keeps between grid points enter the
  region at unknown contents and leave it forgotten; the two bias vectors, which no window stages (the region
  reads their re-laid copies), bypass the region and are read back unchanged.
-/
import proofs.«144041_g70901320122855_cont_9to1c4b_733_10_alg».proof.Proof.K.Kit
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's scoped buffers that are no staging buffer, the two scratch operands, at some contents. -/
abbrev ΦS (c : Dev nD) : sProp 𝕄 :=
  Pipeline.scopedRest (Ix := Unit) (Name := ℕ) (U := UR sig nD τ) (Lvl := ℕ) (Val := Elt F) spec0 c

/-- The distinct buffers behind the eight windows' arrays. -/
theorem arrRefs_eq : Finset.univ.image (Pipeline.arrRef spec0)
    = insert main_arg1 (insert main_arg0 (insert main_arg2 (insert main_v0 (insert main_arg4 (insert main_v1 {main_v2}))))) := by decide

/-- The buffers behind the arrays, each held whole once, are the eight windows' arrays at the proof data's
    shares: the adjacency tensor's one points-to is split into the two halves its two windows hold. -/
theorem split_arrays (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin 8), 2 ≤ w.val → (dats 0 c).q w = fullShare)
    (hA : ∀ c w, (dats 0 c).A w = V m c (Pipeline.arrRef spec0 w)) (c : Dev nD) :
    (Pipeline.arrBufs (Ix := Unit) (Name := ℕ) (U := UR sig nD τ) (Lvl := ℕ) cfg0.spec c (V m c) : sProp 𝕄) ⊢ (dats 0 c).arrays ((dats 0 c).arrAt · 0) := by
  unfold Pipeline.arrBufs Dat.arrays
  rw [bigSep_W0, arrRefs_eq, bigSep_insert (by decide), bigSep_insert (by decide), bigSep_insert (by decide),
    bigSep_insert (by decide), bigSep_insert (by decide), bigSep_insert (by decide), bigSep_singleton]
  simp only [View.set_whole]
  have e0 : (dats 0 c).share 0 = fullShare.left := by unfold Dat.share; rw [if_neg (by decide), hq0]
  have e1 : (dats 0 c).share 1 = fullShare.right := by unfold Dat.share; rw [if_neg (by decide), hq1]
  have e2 : (dats 0 c).share 2 = fullShare := by unfold Dat.share; rw [if_neg (by decide), hq c 2 (by decide)]
  have e3 : (dats 0 c).share 3 = fullShare := by unfold Dat.share; rw [if_neg (by decide), hq c 3 (by decide)]
  have e4 : (dats 0 c).share 4 = fullShare := by unfold Dat.share; rw [if_neg (by decide), hq c 4 (by decide)]
  have e5 : (dats 0 c).share 5 = fullShare := by unfold Dat.share; rw [if_neg (by decide), hq c 5 (by decide)]
  have e6 : (dats 0 c).share 6 = fullShare := by unfold Dat.share; rw [if_neg (by decide), hq c 6 (by decide)]
  have e7 : (dats 0 c).share 7 = fullShare := by unfold Dat.share; rw [if_pos (by decide)]
  rw [e0, e1, e2, e3, e4, e5, e6, e7]
  rw [show (dats 0 c).arrAt 0 0 = V m c (Pipeline.arrRef spec0 0) from hA c 0, show (dats 0 c).arrAt 1 0 = V m c (Pipeline.arrRef spec0 1) from hA c 1,
    show (dats 0 c).arrAt 2 0 = V m c (Pipeline.arrRef spec0 2) from hA c 2, show (dats 0 c).arrAt 3 0 = V m c (Pipeline.arrRef spec0 3) from hA c 3,
    show (dats 0 c).arrAt 4 0 = V m c (Pipeline.arrRef spec0 4) from hA c 4, show (dats 0 c).arrAt 5 0 = V m c (Pipeline.arrRef spec0 5) from hA c 5,
    show (dats 0 c).arrAt 6 0 = V m c (Pipeline.arrRef spec0 6) from hA c 6, show (dats 0 c).arrAt 7 0 = V m c (Pipeline.arrRef spec0 7) from hA c 7]
  refine (show iprop((((c.tc : Thread nD τ).loc main_arg1) ↦{fullShare} V m c main_arg1) ∗ (((c.tc : Thread nD τ).loc main_arg0) ↦{fullShare} V m c main_arg0)
      ∗ (((c.tc : Thread nD τ).loc main_arg2) ↦{fullShare} V m c main_arg2) ∗ (((c.tc : Thread nD τ).loc main_v0) ↦{fullShare} V m c main_v0)
      ∗ (((c.tc : Thread nD τ).loc main_arg4) ↦{fullShare} V m c main_arg4) ∗ (((c.tc : Thread nD τ).loc main_v1) ↦{fullShare} V m c main_v1)
      ∗ (((c.tc : Thread nD τ).loc main_v2) ↦{fullShare} V m c main_v2)) ⊢ _ from ?_)
  have hs : ((((c.tc : Thread nD τ).loc main_arg1) ↦{fullShare} V m c main_arg1 : sProp 𝕄))
      ⊢ iprop((((c.tc : Thread nD τ).loc main_arg1) ↦{fullShare.left} V m c main_arg1) ∗ (((c.tc : Thread nD τ).loc main_arg1) ↦{fullShare.right} V m c main_arg1)) :=
    (pointsTo_share (PosShare.mem_left_op_right fullShare)).1
  refine (sep_mono hs .rfl).trans ?_
  iintro ⟨⟨Ha, Hb⟩, H0, H2, H3, H4, H5, H6⟩
  isplitl [Ha]; · iexact Ha
  isplitl [Hb]; · iexact Hb
  isplitl [H0]; · iexact H0
  isplitl [H2]; · iexact H2
  isplitl [H3]; · iexact H3
  isplitl [H4]; · iexact H4
  isplitl [H5]; · iexact H5
  iexact H6

set_option backward.isDefEq.respectTransparency.types false in
/-- At the compiled mesh, for any float values, from any memory with zero counters: every weakly fair
    execution of @main on the TensorCores terminates, and every final state has each window's array at what the
    library computes from the proof data (an input as it was found, the result its blocks overwritten by what the body
    left at each write-back) and the two bias vectors as they were. -/
theorem run_shared (dats : (p : Fin 1) → (c : Dev nD) → Dat τ (Elt F) Unit ℕ (UR sig nD τ) ℕ (cfgs p) c) (𝒱₀ : Variants)
    (hbody : ∀ c, BodyObligationLoose (dats 0 c) (defs₀ (F := F)) 𝒱₀ () Set.univ)
    (hq0 : ∀ c, (dats 0 c).q 0 = fullShare.left) (hq1 : ∀ c, (dats 0 c).q 1 = fullShare.right)
    (hq : ∀ c (w : Fin 8), 2 ≤ w.val → (dats 0 c).q w = fullShare)
    (howed : ∀ c t, (dats 0 c).owed t = 0)
    (hA : ∀ c w, (dats 0 c).A w = V m c (Pipeline.arrRef spec0 w))
    (hin : ∀ c, ΦS c ⊢ (dats 0 c).Φ 0) (hout : ∀ c, (dats 0 c).Φ (Fin.last cfg0.N) ⊢ ΦS c) :
    θ_run defs (onTc (τ := τ) (main (F := F))) ⟨m, fun _ => 0, ρ⟩ (Pipeline.FramePost cfgs dats 0 (V m)) :=
  Pipeline.θ_run_region_noSem_shared cfgs dats () cellOf_inj (0 : Fin 1) winFacts₀0 emb₁ defs₀ 𝒱₀ m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m 𝒱₀)
    (hsplit := split_arrays m dats hq0 hq1 hq hA)
    (X := fun _ => iprop(emp)) (Y := fun _ => iprop(emp))
    (Z := fun c => Pipeline.unscopedRest (Ix := Unit) (Name := ℕ) (U := UR sig nD τ) (Lvl := ℕ) cfg0.spec c (V m c))
    (hX := fun c => by iintro H; isplitr; · iempintro
                       iexact H)
    (hin := fun c => (show iprop(emp ∗ ΦS c) ⊢ ΦS c from by iintro ⟨-, H⟩; iexact H).trans (hin c))
    (hout := fun c => (hout c).trans (by iintro H; isplitr; · iempintro
                                         iexact H))
    (QY := fun c s => ∀ b ∈ Pipeline.restRefs sig cfg0.spec, s.mem ((c.tc : Thread nD τ).loc b) = V m c b)
    (hY := fun c s' => by
      iintro ⟨-, HU, HSI⟩
      unfold Pipeline.unscopedRest
      imodintro
      iapply (pointsTo_read_all (Pipeline.restRefs sig cfg0.spec) (fun b => (c.tc : Thread nD τ).loc b) (V m c) s')
      isplitl [HU] <;> iassumption)
    (hQ := fun s h c => ⟨(h c).1, (h c).2⟩)

end Cert.Kernel.Hand

end
-- ==== Proof.K.Frame.lean ====
/-
  The run of the program and its frame: every weakly fair execution of @main terminates without a fault, the
  result array ends at what the library computes from the proof data, and the six argument arrays end as they
  were launched — the features, the adjacency tensor and the two weight matrices because the region only reads
  the windows on them, the two bias vectors because neither the two reshapes nor the region write them.
-/
import proofs.«144041_g70901320122855_cont_9to1c4b_733_10_alg».proof.Proof.K.Body
import proofs.«144041_g70901320122855_cont_9to1c4b_733_10_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the compiled mesh, for any float values, from any memory with zero counters: every weakly fair execution
    of @main on the TensorCores terminates, and every final state has every window's array at what the library
    computes from the proof data and the two bias vectors as they were. -/
theorem run_main : θ_run defs (onTc (τ := τ) (main (F := F))) ⟨m, fun _ => 0, ρ⟩ (Pipeline.FramePost cfgs (dats m) 0 (V m)) :=
  run_shared m ρ (dats m) Variants.none (fun c => (body_obligation m c).loose) (q_0 m) (q_1 m) (q_ge m) (fun _ _ => rfl) (A_eq m)
    (hin m) (hout m)

/-- An input window's array ends as the region found it, which is as it was launched. -/
theorem kept_arg0 (c : Dev nD) (r : PUnit × MemSt nD τ sig (Elt F)) (h : Pipeline.FramePost cfgs (dats m) 0 (V m) r) :
    r.2.mem ((c.tc : Thread nD τ).loc main_arg0) = m ((c.tc : Thread nD τ).loc main_arg0) :=
  ((h c).1 2).trans (((dats m 0 c).arrAt_in 2 rfl _).trans ((A_eq m c 2).trans (V_main_arg0 m c)))
theorem kept_arg1 (c : Dev nD) (r : PUnit × MemSt nD τ sig (Elt F)) (h : Pipeline.FramePost cfgs (dats m) 0 (V m) r) :
    r.2.mem ((c.tc : Thread nD τ).loc main_arg1) = m ((c.tc : Thread nD τ).loc main_arg1) :=
  ((h c).1 0).trans (((dats m 0 c).arrAt_in 0 rfl _).trans ((A_eq m c 0).trans (V_main_arg1 m c)))
theorem kept_arg2 (c : Dev nD) (r : PUnit × MemSt nD τ sig (Elt F)) (h : Pipeline.FramePost cfgs (dats m) 0 (V m) r) :
    r.2.mem ((c.tc : Thread nD τ).loc main_arg2) = m ((c.tc : Thread nD τ).loc main_arg2) :=
  ((h c).1 3).trans (((dats m 0 c).arrAt_in 3 rfl _).trans ((A_eq m c 3).trans (V_main_arg2 m c)))
theorem kept_arg4 (c : Dev nD) (r : PUnit × MemSt nD τ sig (Elt F)) (h : Pipeline.FramePost cfgs (dats m) 0 (V m) r) :
    r.2.mem ((c.tc : Thread nD τ).loc main_arg4) = m ((c.tc : Thread nD τ).loc main_arg4) :=
  ((h c).1 5).trans (((dats m 0 c).arrAt_in 5 rfl _).trans ((A_eq m c 5).trans (V_main_arg4 m c)))
/-- A bias vector bypasses the region and ends as the region's entry found it, which is as it was launched. -/
theorem kept_arg3 (c : Dev nD) (r : PUnit × MemSt nD τ sig (Elt F)) (h : Pipeline.FramePost cfgs (dats m) 0 (V m) r) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg5 (c : Dev nD) (r : PUnit × MemSt nD τ sig (Elt F)) (h : Pipeline.FramePost cfgs (dats m) 0 (V m) r) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- The frame: the program runs to the end and its six argument arrays end unchanged, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨kept_arg0 m c r h, kept_arg1 m c r h, kept_arg2 m c r h, kept_arg3 m c r h, kept_arg4 m c r h, kept_arg5 m c r h⟩)
    (run_main m ρ)

/-- The result array after the run: what the library computes from the proof data's write-backs. -/
theorem result_eq (c : Dev nD) (r : PUnit × MemSt nD τ sig (Elt F)) (h : Pipeline.FramePost cfgs (dats m) 0 (V m) r) :
    r.2.mem ((c.tc : Thread nD τ).loc main_v2) = (dats m 0 c).arrAt 7 cfg0.N := (h c).1 7

end Cert.Kernel.Hand

end
-- ==== Proof.KI.Kit.lean ====
/-
  The one kernel region of this program as the pipeline meets it: what every TensorCore buffer holds when the
  region is entered (the two bias vectors re-laid as rows by the host lines before it), that @main is those host
  lines and then the region, each window's block of its array at a grid point under its literal shape, and the
  grid's 50 points in closed form: point t is layer t / 25, row group t % 25; the three branches of the body are
  taken at t = 0, at t < 25 and at 25 ≤ t; the rows the second-layer support is written to at a point t < 25
  begin at 400 t and at 400 t + 200; the result window keeps block 0 through layer 0 and is first written back
  at point 25.
-/
import proofs.«144041_g70901320122855_cont_9to1c4b_733_10_alg».proof.Proof.Gen.KernelIdeal.Launch
import proofs.«144041_g70901320122855_cont_9to1c4b_733_10_alg».proof.Proof.Gen.KernelIdeal.Points
import proofs.«144041_g70901320122855_cont_9to1c4b_733_10_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core c's TensorCore buffers hold when the region is entered: the launch contents after the two
    reshapes of the bias vectors. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reshape writes its own result only: an argument array is found as launched. -/
theorem V_arg (c : Dev nD) (b : Ref sig .tc) (h0 : Proc.devRef (τ := τ) .tc b ≠ Proc.devRef .tc main_v0) (h1 : Proc.devRef (τ := τ) .tc b ≠ Proc.devRef .tc main_v1) :
    V m c b = m ((c : Thread nD τ).loc b) :=
  show StableHlo.after hostOps0 (fun b => m (c, b)) b = m ((c : Thread nD τ).loc b) from
  StableHlo.after_of_forall_not_mem (b := Proc.devRef .tc b) _ _ (List.forall_iff_forall_mem.mp (by
    simp only [hostOps0, List.Forall, StableHlo.reshape_writes, Finset.mem_singleton]
    exact ⟨h0, h1⟩))

theorem V_main_arg0 (c : Dev nD) : V m c main_arg0 = m ((c : Thread nD τ).loc main_arg0) :=
  V_arg m c main_arg0 (StableHlo.devRef_ne_of_ne (by decide)) (StableHlo.devRef_ne_of_ne (by decide))
theorem V_main_arg1 (c : Dev nD) : V m c main_arg1 = m ((c : Thread nD τ).loc main_arg1) :=
  V_arg m c main_arg1 (StableHlo.devRef_ne_of_ne (by decide)) (StableHlo.devRef_ne_of_ne (by decide))
theorem V_main_arg2 (c : Dev nD) : V m c main_arg2 = m ((c : Thread nD τ).loc main_arg2) :=
  V_arg m c main_arg2 (StableHlo.devRef_ne_of_ne (by decide)) (StableHlo.devRef_ne_of_ne (by decide))
theorem V_main_arg3 (c : Dev nD) : V m c main_arg3 = m ((c : Thread nD τ).loc main_arg3) :=
  V_arg m c main_arg3 (StableHlo.devRef_ne_of_ne (by decide)) (StableHlo.devRef_ne_of_ne (by decide))
theorem V_main_arg4 (c : Dev nD) : V m c main_arg4 = m ((c : Thread nD τ).loc main_arg4) :=
  V_arg m c main_arg4 (StableHlo.devRef_ne_of_ne (by decide)) (StableHlo.devRef_ne_of_ne (by decide))
theorem V_main_arg5 (c : Dev nD) : V m c main_arg5 = m ((c : Thread nD τ).loc main_arg5) :=
  V_arg m c main_arg5 (StableHlo.devRef_ne_of_ne (by decide)) (StableHlo.devRef_ne_of_ne (by decide))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks under their literal shapes: the even and the odd 200-row slab of the point's adjacency layer,
    the features, the two weight matrices and the two bias rows. -/
abbrev adjA (c : Dev nD) (t : Fin cfg0.N) : Vec F S1x200x10000 .f32 := iblk m c 0 t
abbrev adjB (c : Dev nD) (t : Fin cfg0.N) : Vec F S1x200x10000 .f32 := iblk m c 1 t
abbrev xblk (c : Dev nD) (t : Fin cfg0.N) : Vec F S10000x128 .f32 := iblk m c 2 t
abbrev w1blk (c : Dev nD) (t : Fin cfg0.N) : Vec F S128x128 .f32 := iblk m c 3 t
abbrev b1blk (c : Dev nD) (t : Fin cfg0.N) : Vec F S1x128 .f32 := iblk m c 4 t
abbrev w2blk (c : Dev nD) (t : Fin cfg0.N) : Vec F S128x128 .f32 := iblk m c 5 t
abbrev b2blk (c : Dev nD) (t : Fin cfg0.N) : Vec F S1x128 .f32 := iblk m c 6 t

/-! ## The grid's 50 points in closed form -/

theorem N_eq : cfg0.N = 50 := N_0

/-- The first branch's condition (layer 0 and row group 0), as the body computes it from the coordinates. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcondA : ∀ t : Fin cfg0.N, condA (grid0.coords t) ↔ t.val = 0 :=
  (by decide +kernel : ∀ t : Fin grid0.N, condA (grid0.coords t) ↔ t.val = 0)
/-- The second branch (layer 0) is taken at the first 25 points. -/
theorem hcond2 : ∀ t : Fin cfg0.N, k0_cond2 (grid0.coords t) = 1#1 ↔ t.val < 25 :=
  (by decide +kernel : ∀ t : Fin grid0.N, k0_cond2 (grid0.coords t) = 1#1 ↔ t.val < 25)
/-- The third (layer 1) at the last 25. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- At a layer-0 point t the even slab's rows of the second support begin at row 400 t, -/
theorem off_even : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
/-- and the odd slab's at row 400 t + 200. -/
theorem off_odd : ∀ t : Fin cfg0.N, t.val < 25 → k0_off1 (grid0.coords t) 1#32 = ![400 * t.val + 200, 0] :=
  (by decide +kernel : ∀ t : Fin grid0.N, t.val < 25 → k0_off1 (grid0.coords t) 1#32 = ![400 * t.val + 200, 0])

/-- The result window is idle through layer 0 and not written back there; -/
theorem idle7 : ∀ t : Fin cfg0.N, t.val < 25 → cfg0.idle 7 (grid0.coords t) = true :=
  (by decide +kernel : ∀ t : Fin grid0.N, t.val < 25 → idle0 7 (grid0.coords t) = true)
theorem noflush7 : ∀ t : Fin cfg0.N, t.val < 25 → (cfg0.win 7).flush t = false :=
  (by decide +kernel : ∀ t : Fin grid0.N, t.val < 25 → win0_7.flush t = false)
/-- through layer 1 it is live and written back at every point. -/
theorem live7 : ∀ t : Fin cfg0.N, 25 ≤ t.val → cfg0.idle 7 (grid0.coords t) = false :=
  (by decide +kernel : ∀ t : Fin grid0.N, 25 ≤ t.val → idle0 7 (grid0.coords t) = false)
theorem flush7 : ∀ t : Fin cfg0.N, 25 ≤ t.val → (cfg0.win 7).flush t = true :=
  (by decide +kernel : ∀ t : Fin grid0.N, 25 ≤ t.val → win0_7.flush t = true)
/-- The block written back at point t ≥ 25 is block t - 25 of the result: rows 400 (t - 25) onwards. -/
theorem index7 : ∀ t : Fin cfg0.N, 25 ≤ t.val → (cfg0.win 7).index t = ![t.val - 25, 0] :=
  (by decide +kernel : ∀ t : Fin grid0.N, 25 ≤ t.val → win0_7.index t = ![t.val - 25, 0])

/-! ## What an input window's staging buffer holds -/

/-- An input window's current staging buffer holds its block at every point, fetched there or not, for any
    proof data whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Spec.lean ====
/-
  What the kernel computes, point by point, and the proof data of its one region.
  The first point fills the first scratch with the first support S0 = x W1 (one product of the whole feature
  matrix). A layer-0 point t < 25 reads the even and the odd 200-row slab of adjacency layer 0 at row group t
  and writes rows 400 t .. 400 t + 399 of the second scratch: for each slab, relu (slab S0 + b1) W2. So after
  point t < 25 the rows below 400 (t + 1) of the second scratch are those of the second support S1, and from
  point 25 on the scratch IS S1. A layer-1 point t ≥ 25 reads the two slabs of adjacency layer 1 at row group
  t - 25 and stores slab S1 + b2 into the two halves of its 400-row result block, which is written back.
  The result window is idle through layer 0: its staging buffer is handed back untouched there.
-/
import proofs.«144041_g70901320122855_cont_9to1c4b_733_10_alg».proof.Proof.KI.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first grid point. -/
def t₀ : Fin cfg0.N := ⟨0, by rw [N_eq]; decide⟩

/-- The two halves of the 400-row result block a layer-1 point stores: rows 0 .. 199 and rows 200 .. 399. -/
abbrev rLo : Rect S400x128 := Rect.unit (s := S400x128) ![0, 0] S200x128.size Facts₀.inb_S400x128_S200x128_0_0
abbrev rHi : Rect S400x128 := Rect.unit (s := S400x128) ![200, 0] S200x128.size Facts₀.inb_S400x128_S200x128_200_0

/-- The scratch operands as memrefs: whole scoped buffers of the kernel's own. -/
abbrev scM0 : Memref sig .tc .vmem S10000x128 .bf16 := Memref.whole cc0_scratch0
abbrev scM1 : Memref sig .tc .vmem S10000x128 .bf16 := Memref.whole cc0_scratch1

/-- The first support, x W1, as the first point stores it. -/
def S0 (c : Dev nD) : Vec F S10000x128 .bf16 := k0_pay1 (xblk m c t₀) (w1blk m c t₀)

/-- The 200 rows of the second support a layer-0 point computes from its even slab: relu (slab S0 + b1) W2, -/
def rowsA (c : Dev nD) (t : Fin cfg0.N) : Vec F S200x128 .bf16 := k0_pay6 (w2blk m c t) (adjA m c t) (S0 m c) (b1blk m c t)
/-- and from its odd slab. -/
def rowsB (c : Dev nD) (t : Fin cfg0.N) : Vec F S200x128 .bf16 := k0_pay2 (k0_pay5 (w2blk m c t)) (k0_pay7 (adjB m c t) (S0 m c) (b1blk m c t))

/-- The second support: row r belongs to row group r / 400, its even slab if r % 400 < 200, else its odd one. -/
def S1 (c : Dev nD) : Vec F S10000x128 .bf16 := fun y =>
  if h : (y 0).val % 400 < 200 then
    rowsA m c ⟨(y 0).val / 400, by have := idx2_lt0 y; rw [N_eq]; omega⟩ (ix2 (n0 := 200) (n1 := 128) ⟨(y 0).val % 400, h⟩ ⟨(y 1).val, idx2_lt1 y⟩)
  else
    rowsB m c ⟨(y 0).val / 400, by have := idx2_lt0 y; rw [N_eq]; omega⟩ (ix2 (n0 := 200) (n1 := 128) ⟨(y 0).val % 400 - 200, by omega⟩ ⟨(y 1).val, idx2_lt1 y⟩)

/-- The 400-row block a layer-1 point leaves in the result's staging buffer: its two stores, each a slab of
    adjacency layer 1 times the second support plus the bias row. -/
def outBlk (c : Dev nD) (t : Fin cfg0.N) : Vec F S400x128 .f32 :=
  View.canon [⟨rHi, k0_pay4 (adjB m c t) (S1 m c) (b2blk m c t)⟩, ⟨rLo, k0_pay3 (adjA m c t) (S1 m c) (b2blk m c t)⟩]

/-- The rows below 400 n of contents g are the second support's. -/
def P1 (c : Dev nD) (n : ℕ) (g : Vec F S10000x128 .bf16) : Prop :=
  ∀ y : S10000x128.Idx, (y 0).val < 400 * n → g y = S1 m c y

/-- The region's invariant before point n: before the first point both scratch buffers hold anything; afterwards
    the first holds the first support and the second agrees with the second support on the rows written so far. -/
def PhiS (c : Dev nD) : (n : ℕ) → sProp 𝕄
  | 0 => Pipeline.scopedRest (Ix := Unit) (Name := ℕ) (U := UR sig nD τ) (Lvl := ℕ) (Val := Elt F) spec0 c
  | n + 1 => iprop(owns (c : Thread nD τ) scM0 fullShare (S0 m c) ∗ ∃ g, ⌜P1 m c (n + 1) g⌝ ∗ owns (c : Thread nD τ) scM1 fullShare g)

theorem PhiS_zero (c : Dev nD) : PhiS m c 0 = Pipeline.scopedRest (Ix := Unit) (Name := ℕ) (U := UR sig nD τ) (Lvl := ℕ) (Val := Elt F) spec0 c := rfl
theorem PhiS_succ (c : Dev nD) (n : ℕ) :
    PhiS m c (n + 1) = iprop(owns (c : Thread nD τ) scM0 fullShare (S0 m c) ∗ ∃ g, ⌜P1 m c (n + 1) g⌝ ∗ owns (c : Thread nD τ) scM1 fullShare g) := rfl

/-- The seven input windows' current staging buffers at point t, each at its block. -/
def ins (c : Dev nD) (t : Fin cfg0.N) : sProp 𝕄 :=
  iprop(owns (c : Thread nD τ) (st0_0 t) fullShare (adjA m c t) ∗ owns (c : Thread nD τ) (st0_1 t) fullShare (adjB m c t)
    ∗ owns (c : Thread nD τ) (st0_2 t) fullShare (xblk m c t) ∗ owns (c : Thread nD τ) (st0_3 t) fullShare (w1blk m c t)
    ∗ owns (c : Thread nD τ) (st0_4 t) fullShare (b1blk m c t) ∗ owns (c : Thread nD τ) (st0_5 t) fullShare (w2blk m c t)
    ∗ owns (c : Thread nD τ) (st0_6 t) fullShare (b2blk m c t))

/-- The proof data of the one pipeline on core c: the arrays as the region finds them; after the body each
    input's buffer at its block and the result's at the point's block; the invariant over the two scratch buffers;
    the adjacency tensor's two windows each at half its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outBlk m c t := by dsimp only [dats]

theorem Phi_eq (c : Dev nD) (t : Fin (cfg0.N + 1)) : (dats m 0 c).Φ t = PhiS m c t.val := by dsimp only [dats]

theorem q_0 (c : Dev nD) : (dats m 0 c).q 0 = fullShare.left := by dsimp only [dats]
theorem q_1 (c : Dev nD) : (dats m 0 c).q 1 = fullShare.right := by dsimp only [dats]
theorem q_ge (c : Dev nD) (w : Fin 8) (h : 2 ≤ w.val) : (dats m 0 c).q w = fullShare := by
  match w, h with
  | ⟨2, _⟩, _ => dsimp only [dats]
  | ⟨3, _⟩, _ => dsimp only [dats]
  | ⟨4, _⟩, _ => dsimp only [dats]
  | ⟨5, _⟩, _ => dsimp only [dats]
  | ⟨6, _⟩, _ => dsimp only [dats]
  | ⟨7, _⟩, _ => dsimp only [dats]

/-- The scratch buffers as the region hands them over are the invariant before the first point, -/
theorem hin (c : Dev nD) : Pipeline.scopedRest (Ix := Unit) (Name := ℕ) (U := UR sig nD τ) (Lvl := ℕ) (Val := Elt F) spec0 c ⊢ (dats m 0 c).Φ 0 := by
  rw [Phi_eq]; exact BI.Entails.refl _

/-- The two scratch buffers at some contents, as memrefs owned. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- and after the last point the invariant gives them back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [Phi_eq, Fin.val_last, show cfg0.N = 49 + 1 from N_0, PhiS_succ, scoped_eq]
  iintro ⟨H0, ⟨%g, -, H1⟩⟩
  isplitl [H0]
  · iexists _; iexact H0
  · iexists _; iexact H1

end Cert.KernelIdeal.Hand

end
-- ==== Proof.KI.CaseA.lean ====
/-
  The kernel body at the first grid point (layer 0, row group 0), where its first and second branch are taken and
  its third is not. The first branch stores the first support x W1 whole into the first scratch; the second reads
  it back, and from the point's even and odd 200-row slab of adjacency layer 0 stores relu (slab S0 + b1) W2 into
  rows 0 .. 199 and 200 .. 399 of the second scratch. Those 400 rows are then the second support's, which is the
  region's invariant before the second point. No input buffer is written, and the result window's buffer is not
  touched.
-/
import proofs.«144041_g70901320122855_cont_9to1c4b_733_10_alg».proof.Proof.KI.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

namespace CaseA

/-- The offsets of a load or store of a whole buffer are zero on every axis, at rank two and at rank three. -/
theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's run where the first two branches are taken -/

set_option maxHeartbeats 1000000 in
/-- On any whole buffers, with the first and the second branch taken and the third not: from the six inputs the two
    branches read at contents xa, xb (the even and the odd slab), xx (the features), xw1, xw2 (the weights) and xb1
    (the first bias row), and the two scratch buffers at anything, the body runs to a state where the inputs hold
    what they held, the first scratch holds s0 = the first support of xx and xw1 (its one store covers it), and the
    second scratch has had two stores: the even slab's 200 rows at the point's even offset, then the odd slab's at
    its odd offset, both computed from s0 as read back from the first scratch. -/
theorem run (c : Dev nD) (i : grid0.Coords)
    (arg2 : Memref sig .tc .vmem S1x200x10000 .f32) (harg2 : arg2.IsWhole) (arg3 : Memref sig .tc .vmem S1x200x10000 .f32) (harg3 : arg3.IsWhole)
    (arg4 : Memref sig .tc .vmem S10000x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S400x128 .f32) (harg9 : arg9.IsWhole)
    (arg10 : Memref sig .tc .vmem S10000x128 .bf16) (harg10 : arg10.IsWhole) (arg11 : Memref sig .tc .vmem S10000x128 .bf16) (harg11 : arg11.IsWhole)
    (hcA : condA i) (hc2 : k0_cond2 i = 1#1) (hc3 : ¬ k0_cond3 i = 1#1)
    (xa xb : Vec F S1x200x10000 .f32) (xx : Vec F S10000x128 .f32) (xw1 xw2 : Vec F S128x128 .f32) (xb1 : Vec F S1x128 .f32)
    (s0 : Vec F S10000x128 .bf16) (hs0 : s0 = k0_pay1 xx xw1)
    (E : Set ℕ) (K : PUnit → sProp 𝕄) :
    iprop(owns (c : Thread nD τ) arg2 fullShare xa ∗ owns (c : Thread nD τ) arg3 fullShare xb ∗ owns (c : Thread nD τ) arg4 fullShare xx
        ∗ owns (c : Thread nD τ) arg5 fullShare xw1 ∗ owns (c : Thread nD τ) arg6 fullShare xb1 ∗ owns (c : Thread nD τ) arg7 fullShare xw2
        ∗ (∃ d, owns (c : Thread nD τ) arg10 fullShare d) ∗ (∃ d, owns (c : Thread nD τ) arg11 fullShare d)
        ∗ (iprop(owns (c : Thread nD τ) arg2 fullShare xa ∗ owns (c : Thread nD τ) arg3 fullShare xb ∗ owns (c : Thread nD τ) arg4 fullShare xx
            ∗ owns (c : Thread nD τ) arg5 fullShare xw1 ∗ owns (c : Thread nD τ) arg6 fullShare xb1 ∗ owns (c : Thread nD τ) arg7 fullShare xw2
            ∗ owns (c : Thread nD τ) arg10 fullShare s0
            ∗ (∃ f, arg11.view.loc (c : Thread nD τ) ↦[arg11.view.set]{fullShare} arg11.view.writes (Elt F) f
                [⟨Rect.unit (s := S10000x128) (k0_off1 i 1#32) S200x128.size (k0_off1_inb i hc2 1), k0_pay2 (k0_pay5 xw2) (k0_pay7 xb s0 xb1)⟩,
                 ⟨Rect.unit (s := S10000x128) (k0_off1 i 0#32) S200x128.size (k0_off1_inb i hc2 0), k0_pay6 xw2 xa s0 xb1⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  subst hs0
  simp only [cc0__gcn_body_eq_skeleton]; unfold cc0__gcn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hcA | exact hc2 | exact hc3)
  -- every load of an input reads the contents it was entered with, and the loads of the first scratch after its
  -- whole store read that store's payload
  sl_unfold_run_names
  simp only [View.readAt_eq_ld, harg2.read_unread, harg3.read_unread, harg4.read_unread, harg5.read_unread, harg6.read_unread, harg7.read_unread,
    View.ld_unit_zero (S := S10000x128) zero2, View.ld_unit_zero (S := S128x128) zero2, View.ld_unit_zero (S := S1x128) zero2,
    View.ld_unit_zero (S := S1x200x10000) zero3, View.readCov_unit_zero (S := S10000x128) _ zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr
    swap; · iexact H10
    ipureintro
    exact (View.read_writes_eq_canon arg10.view f10
      [⟨Rect.unit (s := S10000x128) ![0, 0] S10000x128.size inb_S10000x128_S10000x128_0_0, k0_pay1 xx xw1⟩]
      (fun y => ⟨_, List.mem_singleton_self _, View.mem_set_unit_zero zero2 inb_S10000x128_S10000x128_0_0 y⟩)).trans
      (View.canon_unit_zero zero2 _ _)
  iexists _; iexact H11

/-! ## The rows of the second support a layer-0 point writes -/

/-- Row 400 t + p of the second support, p < 200, is row p of what row group t computes from its even slab, -/
theorem S1_even (c : Dev nD) (y : S10000x128.Idx) (t : Fin cfg0.N) (p : Fin 200) (q : Fin 128)
    (h0 : (y 0).val = 400 * t.val + p.val) (h1 : (y 1).val = q.val) : S1 m c y = rowsA m c t (ix2 p q) := by
  have hp := p.isLt
  have hlt : (y 0).val % 400 < 200 := by omega
  have key : ∀ (t' : Fin cfg0.N) (p' : Fin 200) (q' : Fin 128), t' = t → p' = p → q' = q →
      rowsA m c t' (ix2 p' q') = rowsA m c t (ix2 p q) := by rintro _ _ _ rfl rfl rfl; rfl
  unfold S1
  rw [dif_pos hlt]
  exact key _ _ _ (Fin.ext (by show (y 0).val / 400 = t.val; omega)) (Fin.ext (by show (y 0).val % 400 = p.val; omega)) (Fin.ext h1)

/-- and row 400 t + 200 + p is row p of what it computes from its odd slab. -/
theorem S1_odd (c : Dev nD) (y : S10000x128.Idx) (t : Fin cfg0.N) (p : Fin 200) (q : Fin 128)
    (h0 : (y 0).val = 400 * t.val + 200 + p.val) (h1 : (y 1).val = q.val) : S1 m c y = rowsB m c t (ix2 p q) := by
  have hp := p.isLt
  have hge : ¬ (y 0).val % 400 < 200 := by omega
  have key : ∀ (t' : Fin cfg0.N) (p' : Fin 200) (q' : Fin 128), t' = t → p' = p → q' = q →
      rowsB m c t' (ix2 p' q') = rowsB m c t (ix2 p q) := by rintro _ _ _ rfl rfl rfl; rfl
  unfold S1
  rw [dif_neg hge]
  exact key _ _ _ (Fin.ext (by show (y 0).val / 400 = t.val; omega)) (Fin.ext (by show (y 0).val % 400 - 200 = p.val; omega)) (Fin.ext h1)

/-- The even slab's rows, stored at rows 400 t onwards, are the second support's rows there; -/
theorem even_piece (c : Dev nD) (t : Fin cfg0.N)
    (inb : ∀ a, (![400 * t.val, 0] : Fin 2 → ℕ) a + S200x128.size a ≤ S10000x128.size a) (x : S200x128.Idx) :
    rowsA m c t x = S1 m c ((Rect.unit (s := S10000x128) ![400 * t.val, 0] S200x128.size inb).emb x) := by
  obtain ⟨p, q, rfl⟩ : ∃ (p : Fin 200) (q : Fin 128), x = ix2 p q := ⟨x 0, x 1, eq_ix2 x⟩
  exact (S1_even m c _ t p q (by show 400 * t.val + 1 * p.val = 400 * t.val + p.val; omega)
    (by show 0 + 1 * q.val = q.val; omega)).symm

/-- the odd slab's, stored at rows 400 t + 200 onwards, likewise. -/
theorem odd_piece (c : Dev nD) (t : Fin cfg0.N)
    (inb : ∀ a, (![400 * t.val + 200, 0] : Fin 2 → ℕ) a + S200x128.size a ≤ S10000x128.size a) (x : S200x128.Idx) :
    rowsB m c t x = S1 m c ((Rect.unit (s := S10000x128) ![400 * t.val + 200, 0] S200x128.size inb).emb x) := by
  obtain ⟨p, q, rfl⟩ : ∃ (p : Fin 200) (q : Fin 128), x = ix2 p q := ⟨x 0, x 1, eq_ix2 x⟩
  exact (S1_odd m c _ t p q (by show 400 * t.val + 200 + 1 * p.val = 400 * t.val + 200 + p.val; omega)
    (by show 0 + 1 * q.val = q.val; omega)).symm

/-- So after the two stores of row group t — the even slab's rows at offset (400 t, 0), then the odd slab's at
    (400 t + 200, 0) — a buffer reads the second support on rows 400 t .. 400 t + 399, whatever it held before: a
    row below 400 t + 200 lies in the even store's rectangle, the others in the odd one's. -/
theorem rows_of_writes (c : Dev nD) (t : Fin cfg0.N) (v : View sig .tc .vmem S10000x128 .bf16) (f : v.ty.Contents (Elt F))
    (offE offO : Fin 2 → ℕ) (hE : offE = ![400 * t.val, 0]) (hO : offO = ![400 * t.val + 200, 0])
    (inbE : ∀ a, offE a + S200x128.size a ≤ S10000x128.size a) (inbO : ∀ a, offO a + S200x128.size a ≤ S10000x128.size a)
    (y : S10000x128.Idx) (hlo : 400 * t.val ≤ (y 0).val) (hhi : (y 0).val < 400 * t.val + 400) :
    v.read (Elt F) (v.writes (Elt F) f [⟨Rect.unit (s := S10000x128) offO S200x128.size inbO, rowsB m c t⟩,
      ⟨Rect.unit (s := S10000x128) offE S200x128.size inbE, rowsA m c t⟩]) y = S1 m c y := by
  subst hE hO
  have hy1 := idx2_lt1 y
  refine View.read_writes_apply_of_pieces v f (S1 m c) _ ?_ y ?_
  · intro pc hpc x
    rcases List.mem_cons.mp hpc with rfl | hpc
    · exact odd_piece m c t inbO x
    · rcases List.mem_cons.mp hpc with rfl | hpc
      · exact even_piece m c t inbE x
      · exact absurd hpc List.not_mem_nil
  · by_cases hlt : (y 0).val < 400 * t.val + 200
    · have hm : y ∈ (Rect.unit (s := S10000x128) ![400 * t.val, 0] S200x128.size inbE).set :=
        Rect.mem_set_unit.mpr (Fin.forall_fin_two.mpr
          ⟨⟨by show 400 * t.val ≤ (y 0).val; exact hlo, by show (y 0).val < 400 * t.val + 200; exact hlt⟩,
           ⟨by show 0 ≤ (y 1).val; omega, by show (y 1).val < 0 + 128; omega⟩⟩)
      exact ⟨⟨Rect.unit (s := S10000x128) ![400 * t.val, 0] S200x128.size inbE, rowsA m c t⟩,
        List.mem_cons_of_mem _ List.mem_cons_self, hm⟩
    · have hm : y ∈ (Rect.unit (s := S10000x128) ![400 * t.val + 200, 0] S200x128.size inbO).set :=
        Rect.mem_set_unit.mpr (Fin.forall_fin_two.mpr
          ⟨⟨by show 400 * t.val + 200 ≤ (y 0).val; omega, by show (y 0).val < 400 * t.val + 200 + 200; omega⟩,
           ⟨by show 0 ≤ (y 1).val; omega, by show (y 1).val < 0 + 128; omega⟩⟩)
      exact ⟨⟨Rect.unit (s := S10000x128) ![400 * t.val + 200, 0] S200x128.size inbO, rowsB m c t⟩,
        List.mem_cons_self, hm⟩

end CaseA

/-- The first point: the first support is computed and stored whole into the first scratch, read back, and the
    point's two slabs give rows 0 .. 399 of the second scratch. The result window's buffer (in R) is not touched. -/
theorem sound_A (c : Dev nD) (t : Fin cfg0.N) (h : t.val = 0) (R : sProp 𝕄) :
    iprop(PhiS m c 0 ∗ ins m c t ∗ R)
      ⊢ wp frame (wpE (defs₀ (F := F)) Variants.none c none) Set.univ (bodyAt0 t) (fun _ => iprop(PhiS m c 1 ∗ ins m c t ∗ R)) := by
  have ht : t = t₀ := Fin.ext h
  -- the first support is the payload of this point's own features and first weights
  have e0 : S0 m c = k0_pay1 (xblk m c t) (w1blk m c t) := by subst ht; rfl
  have hA : condA (grid0.coords t) := (hcondA t).mpr h
  have h2 : k0_cond2 (grid0.coords t) = 1#1 := (hcond2 t).mpr (by omega)
  have h3 : ¬ k0_cond3 (grid0.coords t) = 1#1 := fun h' => by have := (hcond3 t).mp h'; omega
  rw [PhiS_zero, scoped_eq, show PhiS m c 1 = _ from PhiS_succ m c 0]
  unfold ins bodyAt0
  iintro ⟨⟨HS0, HS1⟩, ⟨H0, H1, H2, H3, H4, H5, H6⟩, HR⟩
  iapply (CaseA.run c (grid0.coords t) _ _ _ _ _ _ _ _ _ _ _ _ _ _ _ _ _ _ _ _ hA h2 h3
    (adjA m c t) (adjB m c t) (xblk m c t) (w1blk m c t) (w2blk m c t) (b1blk m c t) (S0 m c) e0 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, ⟨%f, HS1⟩⟩
  isplitl [HS0 HS1]
  · isplitl [HS0]; · iexact HS0
    iexists _; isplitr
    swap
    · unfold owns; iexists _; isplitr
      swap; · iexact HS1
      ipureintro; rfl
    ipureintro
    -- rows 0 .. 399 of the second scratch are the second support's: the point's offsets are (0, 0) and (200, 0)
    intro y hy
    exact CaseA.rows_of_writes m c t _ f _ _ (off_even t (by omega)) (off_odd t (by omega)) _ _ y (by omega) (by omega)
  isplitr [HR]
  · isplitl [H0]; · iexact H0
    isplitl [H1]; · iexact H1
    isplitl [H2]; · iexact H2
    isplitl [H3]; · iexact H3
    isplitl [H4]; · iexact H4
    isplitl [H5]; · iexact H5
    iexact H6
  iexact HR

end Cert.KernelIdeal.Hand

end
-- ==== Proof.KI.CaseB.lean ====
/-
  The kernel body at the grid points of one of its three control cases.
-/
import proofs.«144041_g70901320122855_cont_9to1c4b_733_10_alg».proof.Proof.KI.Spec
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The zero offsets of rank 2 and of rank 3, spelt as vectors, are the constant zero function. -/
theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body where only its second branch is taken, on whole memrefs held at named contents: the four inputs it
    loads and the first scratch come back as they were; the second scratch is left with two pieces written, the odd
    slab's 200 rows last, each the payload of the loaded contents. -/
theorem run_B (c : Dev nD) (i : grid0.Coords) (arg2 : Memref sig .tc .vmem S1x200x10000 .f32) (harg2 : arg2.IsWhole) (arg3 : Memref sig .tc .vmem S1x200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .bf16) (harg10 : arg10.IsWhole) (arg11 : Memref sig .tc .vmem S10000x128 .bf16) (harg11 : arg11.IsWhole)
    (hcA : ¬ condA i) (hc2 : k0_cond2 i = 1#1) (hc3 : ¬ k0_cond3 i = 1#1)
    (xa xb : Vec F S1x200x10000 .f32) (xw2 : Vec F S128x128 .f32) (xb1 : Vec F S1x128 .f32) (s0 g : Vec F S10000x128 .bf16)
    (E : Set ℕ) (K : PUnit → sProp 𝕄) :
    iprop(owns (c : Thread nD τ) arg2 fullShare xa ∗ owns (c : Thread nD τ) arg3 fullShare xb ∗ owns (c : Thread nD τ) arg6 fullShare xb1
        ∗ owns (c : Thread nD τ) arg7 fullShare xw2 ∗ owns (c : Thread nD τ) arg10 fullShare s0 ∗ owns (c : Thread nD τ) arg11 fullShare g
        ∗ (iprop(owns (c : Thread nD τ) arg2 fullShare xa ∗ owns (c : Thread nD τ) arg3 fullShare xb ∗ owns (c : Thread nD τ) arg6 fullShare xb1
            ∗ owns (c : Thread nD τ) arg7 fullShare xw2 ∗ owns (c : Thread nD τ) arg10 fullShare s0
            ∗ (∃ w1 w0, ⌜w1 = k0_pay2 (k0_pay5 xw2) (k0_pay7 xb s0 xb1) ∧ w0 = k0_pay6 xw2 xa s0 xb1⌝
                ∗ (arg11.view.loc (c : Thread nD τ) ↦[arg11.view.set]{fullShare} arg11.view.writes (Elt F) (harg11.unread g)
                    [⟨Rect.unit (s := S10000x128) (k0_off1 i 1#32) S200x128.size (k0_off1_inb i hc2 1), w1⟩,
                     ⟨Rect.unit (s := S10000x128) (k0_off1 i 0#32) S200x128.size (k0_off1_inb i hc2 0), w0⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  have r7 : View.readAt (Elt F) arg7.view (Rect.unit ![0, 0] S128x128.size inb_S128x128_S128x128_0_0).toLoadRect (harg7.unread xw2) = xw2 := by
    rw [View.readAt_eq_ld, harg7.read_unread, View.ld_unit_zero hz2]
  have r2 : View.readAt (Elt F) arg2.view (Rect.unit ![0, 0, 0] S1x200x10000.size inb_S1x200x10000_S1x200x10000_0_0_0).toLoadRect (harg2.unread xa) = xa := by
    rw [View.readAt_eq_ld, harg2.read_unread, View.ld_unit_zero hz3]
  have r3 : View.readAt (Elt F) arg3.view (Rect.unit ![0, 0, 0] S1x200x10000.size inb_S1x200x10000_S1x200x10000_0_0_0).toLoadRect (harg3.unread xb) = xb := by
    rw [View.readAt_eq_ld, harg3.read_unread, View.ld_unit_zero hz3]
  have r10 : View.readAt (Elt F) arg10.view (Rect.unit ![0, 0] S10000x128.size inb_S10000x128_S10000x128_0_0).toLoadRect (harg10.unread s0) = s0 := by
    rw [View.readAt_eq_ld, harg10.read_unread, View.ld_unit_zero hz2]
  have r6 : View.readAt (Elt F) arg6.view (Rect.unit ![0, 0] S1x128.size inb_S1x128_S1x128_0_0).toLoadRect (harg6.unread xb1) = xb1 := by
    rw [View.readAt_eq_ld, harg6.read_unread, View.ld_unit_zero hz2]
  simp only [cc0__gcn_body_eq_skeleton]; unfold cc0__gcn_body_skel
  unfold owns
  iintro ⟨⟨%f2, %hf2, H2⟩, ⟨%f3, %hf3, H3⟩, ⟨%f6, %hf6, H6⟩, ⟨%f7, %hf7, H7⟩, ⟨%f10, %hf10, H10⟩, ⟨%f11, %hf11, H11⟩, Hk⟩
  obtain rfl := harg2.eq_unread hf2; obtain rfl := harg3.eq_unread hf3; obtain rfl := harg6.eq_unread hf6
  obtain rfl := harg7.eq_unread hf7; obtain rfl := harg10.eq_unread hf10; obtain rfl := harg11.eq_unread hf11
  sl_exec (disch := first | exact hcA | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H10]
  · iexists _; isplitr; · ipureintro; exact harg10.read_unread _
    iexact H10
  iexists _; iexists _; isplitr
  swap; · iexact H11
  ipureintro
  sl_unfold_words
  first | exact ⟨rfl, rfl⟩ | (simp only [r7, r2, r3, r10, r6]; exact ⟨rfl, rfl⟩)

/-- Two rows of the same row group and slab position are the same entry of the slab's 200 rows. -/
theorem rowsA_congr (c : Dev nD) (t t' : Fin cfg0.N) (a a' : Fin 200) (b : Fin 128) (ht : t' = t) (ha : a' = a) :
    rowsA m c t' (ix2 (n0 := 200) (n1 := 128) a' b) = rowsA m c t (ix2 (n0 := 200) (n1 := 128) a b) := by
  subst ht; subst ha; rfl
theorem rowsB_congr (c : Dev nD) (t t' : Fin cfg0.N) (a a' : Fin 200) (b : Fin 128) (ht : t' = t) (ha : a' = a) :
    rowsB m c t' (ix2 (n0 := 200) (n1 := 128) a' b) = rowsB m c t (ix2 (n0 := 200) (n1 := 128) a b) := by
  subst ht; subst ha; rfl

/-- The invariant's step at a layer-0 point t. Contents that agree with the second support below row 400 t, after
    the even slab's rows are written at rows 400 t .. 400 t + 199 and then the odd slab's at rows 400 t + 200 ..
    400 t + 399, agree with it below row 400 (t + 1): a row of the odd rectangle reads the odd payload, which is the
    second support's entry there since the row's group is t and its position in the group is at least 200; a row of
    the even rectangle misses the odd one and reads the even payload likewise; a lower row misses both and is as before. -/
theorem P1_step (c : Dev nD) (t : Fin cfg0.N) (h : t.val < 25) {κ : Kind} {sp : Space}
    (v : View sig κ sp S10000x128 .bf16) (f : v.ty.Contents (Elt F)) (g : Vec F S10000x128 .bf16)
    (hf : v.read (Elt F) f = g) (hP : P1 m c t.val g)
    (inb1 : ∀ a, k0_off1 (grid0.coords t) 1#32 a + S200x128.size a ≤ S10000x128.size a)
    (inb0 : ∀ a, k0_off1 (grid0.coords t) 0#32 a + S200x128.size a ≤ S10000x128.size a) :
    P1 m c (t.val + 1) (v.read (Elt F) (v.writes (Elt F) f
      [⟨Rect.unit (s := S10000x128) (k0_off1 (grid0.coords t) 1#32) S200x128.size inb1, rowsB m c t⟩,
       ⟨Rect.unit (s := S10000x128) (k0_off1 (grid0.coords t) 0#32) S200x128.size inb0, rowsA m c t⟩])) := by
  intro y hy
  have hy0 : (y 0).val < 10000 := idx2_lt0 y
  by_cases h1 : 400 * t.val + 200 ≤ (y 0).val
  · have hlt : (y 0).val - (400 * t.val + 200) < 200 := by omega
    refine (View.read_writes_cons_rows_of_mem v f inb1 (rowsB m c t) _ y
      (ix2 (n0 := 200) (n1 := 128) ⟨(y 0).val - (400 * t.val + 200), hlt⟩ ⟨(y 1).val, idx2_lt1 y⟩) (off_odd t h)
      (show (y 0).val = 400 * t.val + 200 + ((y 0).val - (400 * t.val + 200)) by omega) rfl).trans ?_
    unfold S1
    have hmod : ¬ (y 0).val % 400 < 200 := by omega
    refine Eq.trans ?_ (dif_neg hmod).symm
    exact (rowsB_congr m c t _ _ _ _ (Fin.ext (show (y 0).val / 400 = t.val by omega))
      (Fin.ext (show (y 0).val % 400 - 200 = (y 0).val - (400 * t.val + 200) by omega))).symm
  · by_cases h2 : 400 * t.val ≤ (y 0).val
    · have hlt : (y 0).val - 400 * t.val < 200 := by omega
      refine (View.read_writes_cons_rows_of_not_mem (o := 400 * t.val + 200) (W := 200) v f inb1 (rowsB m c t) _ y (off_odd t h) rfl
        (Or.inl (by omega))).trans ?_
      refine (View.read_writes_cons_rows_of_mem v f inb0 (rowsA m c t) _ y
        (ix2 (n0 := 200) (n1 := 128) ⟨(y 0).val - 400 * t.val, hlt⟩ ⟨(y 1).val, idx2_lt1 y⟩) (off_even t h)
        (show (y 0).val = 400 * t.val + ((y 0).val - 400 * t.val) by omega) rfl).trans ?_
      unfold S1
      have hmod : (y 0).val % 400 < 200 := by omega
      refine Eq.trans ?_ (dif_pos hmod).symm
      exact (rowsA_congr m c t _ _ _ _ (Fin.ext (show (y 0).val / 400 = t.val by omega))
        (Fin.ext (show (y 0).val % 400 = (y 0).val - 400 * t.val by omega))).symm
    · refine (View.read_writes_cons_rows_of_not_mem (o := 400 * t.val + 200) (W := 200) v f inb1 (rowsB m c t) _ y (off_odd t h) rfl
        (Or.inl (by omega))).trans ?_
      refine (View.read_writes_cons_rows_of_not_mem (o := 400 * t.val) (W := 200) v f inb0 (rowsA m c t) _ y (off_even t h) rfl
        (Or.inl (by omega))).trans ?_
      rw [View.writes_nil, hf]
      exact hP y (by omega)

/-- A later layer-0 point t: the first scratch is only read; the point's two slabs give rows 400 t .. 400 t + 399
    of the second scratch, the rows below staying as they were. The result window's buffer (in R) is not touched. -/
theorem sound_B (c : Dev nD) (t : Fin cfg0.N) (h0 : t.val ≠ 0) (h : t.val < 25) (R : sProp 𝕄) :
    iprop(PhiS m c t.val ∗ ins m c t ∗ R)
      ⊢ wp frame (wpE (defs₀ (F := F)) Variants.none c none) Set.univ (bodyAt0 t) (fun _ => iprop(PhiS m c (t.val + 1) ∗ ins m c t ∗ R)) := by
  obtain ⟨n, hn⟩ := Nat.exists_eq_succ_of_ne_zero h0
  have hcA : ¬ condA (grid0.coords t) := fun hh => h0 ((hcondA t).mp hh)
  have hc2 : k0_cond2 (grid0.coords t) = 1#1 := (hcond2 t).mpr h
  have hc3 : ¬ k0_cond3 (grid0.coords t) = 1#1 := fun hh => absurd ((hcond3 t).mp hh) (by omega)
  rw [PhiS_succ m c t.val, show PhiS m c t.val = PhiS m c (n + 1) from congrArg (PhiS m c) hn, PhiS_succ m c n]
  unfold ins bodyAt0
  iintro ⟨⟨HS0, ⟨%g, %hg, HS1⟩⟩, ⟨H0, H1, H2, H3, H4, H5, H6⟩, HR⟩
  have hg' : P1 m c t.val g := by rw [hn]; exact hg
  have hw1 : (scM1 : Memref sig .tc .vmem S10000x128 .bf16).IsWhole := Memref.isWhole_whole _
  iapply (run_B (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) hcA hc2 hc3 (adjA m c t) (adjB m c t) (w2blk m c t) (b1blk m c t) (S0 m c) g Set.univ _)
  isplitl [H0]; · iexact H0
  isplitl [H1]; · iexact H1
  isplitl [H4]; · iexact H4
  isplitl [H5]; · iexact H5
  isplitl [HS0]; · iexact HS0
  isplitl [HS1]; · iexact HS1
  iintro ⟨H0, H1, H4, H5, HS0, ⟨%w1, %w0, %hw, HS1⟩⟩
  obtain ⟨rfl, rfl⟩ := hw
  isplitl [HS0 HS1]
  · isplitl [HS0]; · iexact HS0
    iexists _; isplitr
    swap
    · unfold owns; iexists _; isplitr
      swap; · iexact HS1
      ipureintro; rfl
    ipureintro
    exact P1_step m c t h scM1.view (hw1.unread g) g (hw1.read_unread g) hg' _ _
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact HR

end Cert.KernelIdeal.Hand

end
-- ==== Proof.KI.CaseC.lean ====
/-
  The kernel body at the grid points of one of its three control cases.
-/
import proofs.«144041_g70901320122855_cont_9to1c4b_733_10_alg».proof.Proof.KI.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole buffer through the rectangle of its full extents at offset zero, the buffer held at the raw
    contents that read X, reads X. -/
theorem caseC_readAt_whole {s : Shape} {e : EltTy} (M : Memref sig .tc .vmem s e) (h : M.IsWhole) (X : s.Idx → Elt F e)
    {off : Fin s.rank → ℕ} (hz : off = fun _ => 0) (inb : ∀ a, off a + s.size a ≤ s.size a) :
    View.readAt (Elt F) M.view (Rect.unit (s := s) off s.size inb).toLoadRect (h.unread X) = X := by
  rw [View.readAt_eq_ld, h.read_unread, View.ld_unit_zero hz]

theorem caseC_zero3 : (![0, 0, 0] : Fin 3 → ℕ) = fun _ => 0 := by funext a; fin_cases a <;> rfl
theorem caseC_zero2 : (![0, 0] : Fin 2 → ℕ) = fun _ => 0 := by funext a; fin_cases a <;> rfl

set_option maxHeartbeats 1000000 in
/-- The body on any whole memrefs at a point where only its third branch is taken. It loads the even slab, the
    second scratch whole and the second bias row, stores their payload into rows 0 .. 199 of the result's staging
    buffer, then the same with the odd slab into rows 200 .. 399: the two stores cover the staging buffer, so it
    ends at the canonical contents of the two pieces whatever it held; every buffer read comes back as it was. -/
theorem caseC_run (c : Dev nD) (i : grid0.Coords) (arg2 : Memref sig .tc .vmem S1x200x10000 .f32) (harg2 : arg2.IsWhole) (arg3 : Memref sig .tc .vmem S1x200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .bf16) (harg10 : arg10.IsWhole) (arg11 : Memref sig .tc .vmem S10000x128 .bf16) (harg11 : arg11.IsWhole)
    (hcA : ¬condA i) (hc2 : ¬k0_cond2 i = 1#1) (hc3 : k0_cond3 i = 1#1)
    (xa xb : Vec F S1x200x10000 .f32) (xb2 : Vec F S1x128 .f32) (xs1 : Vec F S10000x128 .bf16)
    (E : Set ℕ) (K : PUnit → sProp 𝕄) :
    iprop(owns (c : Thread nD τ) arg2 fullShare xa ∗ owns (c : Thread nD τ) arg3 fullShare xb ∗ owns (c : Thread nD τ) arg8 fullShare xb2
        ∗ (∃ d, owns (c : Thread nD τ) arg9 fullShare d) ∗ owns (c : Thread nD τ) arg11 fullShare xs1
        ∗ (iprop(owns (c : Thread nD τ) arg2 fullShare xa ∗ owns (c : Thread nD τ) arg3 fullShare xb ∗ owns (c : Thread nD τ) arg8 fullShare xb2
            ∗ owns (c : Thread nD τ) arg9 fullShare (View.canon [⟨rHi, k0_pay4 xb xs1 xb2⟩, ⟨rLo, k0_pay3 xa xs1 xb2⟩])
            ∗ owns (c : Thread nD τ) arg11 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f2, %hf2, H2⟩, ⟨%f3, %hf3, H3⟩, ⟨%f8, %hf8, H8⟩, ⟨%d9, %f9, -, H9⟩, ⟨%f11, %hf11, H11⟩, Hk⟩
  obtain rfl := harg2.eq_unread hf2; obtain rfl := harg3.eq_unread hf3; obtain rfl := harg8.eq_unread hf8; obtain rfl := harg11.eq_unread hf11
  sl_exec (disch := first | exact hcA | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H8]
  · iexists _; isplitr; · ipureintro; exact harg8.read_unread _
    iexact H8
  isplitl [H9]
  · iexists _; isplitr
    swap; · iexact H9
    ipureintro
    rw [caseC_readAt_whole arg2 harg2 xa caseC_zero3, caseC_readAt_whole arg3 harg3 xb caseC_zero3, caseC_readAt_whole arg8 harg8 xb2 caseC_zero2,
      caseC_readAt_whole arg11 harg11 xs1 caseC_zero2]
    exact View.read_writes_eq_canon _ _ _ (View.cover_of_tiledL _ S200x128.size (by sl_kernel_rfl))
  · iexists _; isplitr; · ipureintro; exact harg11.read_unread _
    iexact H11

/-- A layer-1 point t: both scratch buffers are only read (the second IS the second support by now); the two
    halves of the result's staging buffer are stored, which covers it. -/
theorem sound_C (c : Dev nD) (t : Fin cfg0.N) (h : 25 ≤ t.val) (R : sProp 𝕄) :
    iprop(PhiS m c t.val ∗ ins m c t ∗ (∃ d, owns (c : Thread nD τ) (st0_7 t) fullShare d) ∗ R)
      ⊢ wp frame (wpE (defs₀ (F := F)) Variants.none c none) Set.univ (bodyAt0 t)
          (fun _ => iprop(PhiS m c (t.val + 1) ∗ ins m c t ∗ owns (c : Thread nD τ) (st0_7 t) fullShare (outBlk m c t) ∗ R)) := by
  -- the invariant before and after the point, both at a successor
  have e1 : PhiS m c t.val
      = iprop(owns (c : Thread nD τ) scM0 fullShare (S0 m c) ∗ ∃ g, ⌜P1 m c t.val g⌝ ∗ owns (c : Thread nD τ) scM1 fullShare g) := by
    obtain ⟨n, hn⟩ : ∃ n, t.val = n + 1 := ⟨t.val - 1, by omega⟩
    rw [hn]; exact PhiS_succ m c n
  rw [e1, PhiS_succ]
  unfold ins outBlk
  iintro ⟨⟨HS0, ⟨%g, %hg, HS1⟩⟩, ⟨H0, H1, H2, H3, H4, H5, H6⟩, H7, HR⟩
  -- every row lies below 400 t, so the second scratch holds the second support
  have hg' : g = S1 m c := funext fun y => hg y (by have := ValueIdx.idx2_lt0 y; omega)
  subst hg'
  iapply (caseC_run c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (Memref.whole cc0_scratch0) (Memref.isWhole_whole _) (Memref.whole cc0_scratch1) (Memref.isWhole_whole _)
    (fun hA => by have := (hcondA t).mp hA; omega) (fun h2 => by have := (hcond2 t).mp h2; omega) ((hcond3 t).mpr h)
    (adjA m c t) (adjB m c t) (b2blk m c t) (S1 m c) Set.univ _)
  isplitl [H0]; · iexact H0
  isplitl [H1]; · iexact H1
  isplitl [H6]; · iexact H6
  isplitl [H7]; · iexact H7
  isplitl [HS1]; · iexact HS1
  iintro ⟨H0, H1, H6, H7, HS1⟩
  isplitl [HS0 HS1]
  · isplitl [HS0]; · iexact HS0
    iexists (S1 m c); isplitr; · ipureintro; exact fun _ _ => rfl
    iexact HS1
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact HR

end Cert.KernelIdeal.Hand

end
-- ==== Proof.KI.Body.lean ====
/-
  The body obligation of the region at every grid point, from the three control cases. The pipeline hands the
  body each input window's staging buffer at the window's block (fetched at this point or kept from an earlier
  one), the result window's buffer at whatever it holds, and the invariant over the two scratch buffers; the
  body returns the inputs as they were, the invariant one point further, and the result window's buffer either
  untouched (layer 0: the window is idle there and not written back) or at the point's block (layer 1).
-/
import proofs.«144041_g70901320122855_cont_9to1c4b_733_10_alg».proof.Proof.KI.CaseA
import proofs.«144041_g70901320122855_cont_9to1c4b_733_10_alg».proof.Proof.KI.CaseB
import proofs.«144041_g70901320122855_cont_9to1c4b_733_10_alg».proof.Proof.KI.CaseC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_0 (c : Dev nD) (t : Fin cfg0.N) (d) : (dats m 0 c).before 0 t d = iblk m c 0 t := before_in0 m (dats m 0 c) (A_eq m c 0) (after_0 m c) t d
theorem before_1 (c : Dev nD) (t : Fin cfg0.N) (d) : (dats m 0 c).before 1 t d = iblk m c 1 t := before_in1 m (dats m 0 c) (A_eq m c 1) (after_1 m c) t d
theorem before_2 (c : Dev nD) (t : Fin cfg0.N) (d) : (dats m 0 c).before 2 t d = iblk m c 2 t := before_in2 m (dats m 0 c) (A_eq m c 2) (after_2 m c) t d
theorem before_3 (c : Dev nD) (t : Fin cfg0.N) (d) : (dats m 0 c).before 3 t d = iblk m c 3 t := before_in3 m (dats m 0 c) (A_eq m c 3) (after_3 m c) t d
theorem before_4 (c : Dev nD) (t : Fin cfg0.N) (d) : (dats m 0 c).before 4 t d = iblk m c 4 t := before_in4 m (dats m 0 c) (A_eq m c 4) (after_4 m c) t d
theorem before_5 (c : Dev nD) (t : Fin cfg0.N) (d) : (dats m 0 c).before 5 t d = iblk m c 5 t := before_in5 m (dats m 0 c) (A_eq m c 5) (after_5 m c) t d
theorem before_6 (c : Dev nD) (t : Fin cfg0.N) (d) : (dats m 0 c).before 6 t d = iblk m c 6 t := before_in6 m (dats m 0 c) (A_eq m c 6) (after_6 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- An input window is never idle: the body leaves its buffer at the block. -/
theorem leaves_in (c : Dev nD) (t : Fin cfg0.N) :
    (dats m 0 c).leavesExact 0 t = owns (c : Thread nD τ) (st0_0 t) fullShare (adjA m c t)
    ∧ (dats m 0 c).leavesExact 1 t = owns (c : Thread nD τ) (st0_1 t) fullShare (adjB m c t)
    ∧ (dats m 0 c).leavesExact 2 t = owns (c : Thread nD τ) (st0_2 t) fullShare (xblk m c t)
    ∧ (dats m 0 c).leavesExact 3 t = owns (c : Thread nD τ) (st0_3 t) fullShare (w1blk m c t)
    ∧ (dats m 0 c).leavesExact 4 t = owns (c : Thread nD τ) (st0_4 t) fullShare (b1blk m c t)
    ∧ (dats m 0 c).leavesExact 5 t = owns (c : Thread nD τ) (st0_5 t) fullShare (w2blk m c t)
    ∧ (dats m 0 c).leavesExact 6 t = owns (c : Thread nD τ) (st0_6 t) fullShare (b2blk m c t) := by
  refine ⟨?_, ?_, ?_, ?_, ?_, ?_, ?_⟩
  · unfold Dat.leavesExact; rw [show cfg0.idle 0 (cfg0.grid.coords t) = false from rfl, after_0]
  · unfold Dat.leavesExact; rw [show cfg0.idle 1 (cfg0.grid.coords t) = false from rfl, after_1]
  · unfold Dat.leavesExact; rw [show cfg0.idle 2 (cfg0.grid.coords t) = false from rfl, after_2]
  · unfold Dat.leavesExact; rw [show cfg0.idle 3 (cfg0.grid.coords t) = false from rfl, after_3]
  · unfold Dat.leavesExact; rw [show cfg0.idle 4 (cfg0.grid.coords t) = false from rfl, after_4]
  · unfold Dat.leavesExact; rw [show cfg0.idle 5 (cfg0.grid.coords t) = false from rfl, after_5]
  · unfold Dat.leavesExact; rw [show cfg0.idle 6 (cfg0.grid.coords t) = false from rfl, after_6]

/-- The inputs as the pipeline hands them over are the seven blocks. -/
theorem ins_intro (c : Dev nD) (t : Fin cfg0.N) :
    iprop((∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))) ⊢ ins m c t := by
  simp only [before_0, before_1, before_2, before_3, before_4, before_5, before_6]
  unfold ins
  iintro ⟨⟨%d0, H0⟩, ⟨%d1, H1⟩, ⟨%d2, H2⟩, ⟨%d3, H3⟩, ⟨%d4, H4⟩, ⟨%d5, H5⟩, ⟨%d6, H6⟩⟩
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨l0, l1, l2, l3, l4, l5, l6⟩ := leaves_in m c t
  rw [l0, l1, l2, l3, l4, l5, l6]
  rw [show (dats m 0 c).owesAt () t.succ = (dats m 0 c).owesAt () t.castSucc from rfl]
  rw [Phi_eq, Phi_eq, Fin.coe_castSucc, Fin.val_succ]
  by_cases h25 : t.val < 25
  · rw [Dat.leavesExact_idle (dats m 0 c) 7 t (idle7 t h25) (noflush7 t h25)]
    by_cases hz : t.val = 0
    · refine (show _ ⊢ iprop(PhiS m c 0 ∗ ins m c t ∗ ((dats m 0 c).owesAt () t.castSucc ∗ ∃ d, owns (c : Thread nD τ) (st0_7 t) fullShare ((dats m 0 c).before 7 t d))) from ?_).trans
        ((sound_A m c t hz _).trans (wp_mono _ _ _ fun _ => ?_))
      · rw [hz]
        iintro ⟨HΦ, Ho, H0, H1, H2, H3, H4, H5, H6, H7⟩
        isplitl [HΦ]; · iexact HΦ
        isplitr [Ho H7]
        · iapply (ins_intro m c t)
          isplitl [H0]; · iexact H0
          isplitl [H1]; · iexact H1
          isplitl [H2]; · iexact H2
          isplitl [H3]; · iexact H3
          isplitl [H4]; · iexact H4
          isplitl [H5]; · iexact H5
          iexact H6
        isplitl [Ho]; · iexact Ho
        iexact H7
      · rw [hz]; unfold ins
        iintro ⟨HΦ, ⟨H0, H1, H2, H3, H4, H5, H6⟩, Ho, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · refine (show _ ⊢ iprop(PhiS m c t.val ∗ ins m c t ∗ ((dats m 0 c).owesAt () t.castSucc ∗ ∃ d, owns (c : Thread nD τ) (st0_7 t) fullShare ((dats m 0 c).before 7 t d))) from ?_).trans
        ((sound_B m c t hz h25 _).trans (wp_mono _ _ _ fun _ => ?_))
      · iintro ⟨HΦ, Ho, H0, H1, H2, H3, H4, H5, H6, H7⟩
        isplitl [HΦ]; · iexact HΦ
        isplitr [Ho H7]
        · iapply (ins_intro m c t)
          isplitl [H0]; · iexact H0
          isplitl [H1]; · iexact H1
          isplitl [H2]; · iexact H2
          isplitl [H3]; · iexact H3
          isplitl [H4]; · iexact H4
          isplitl [H5]; · iexact H5
          iexact H6
        isplitl [Ho]; · iexact Ho
        iexact H7
      · unfold ins
        iintro ⟨HΦ, ⟨H0, H1, H2, H3, H4, H5, H6⟩, Ho, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · have h25' : 25 ≤ t.val := Nat.le_of_not_lt h25
    rw [show (dats m 0 c).leavesExact 7 t = owns (c : Thread nD τ) (st0_7 t) fullShare ((dats m 0 c).after 7 t) from by
      unfold Dat.leavesExact; rw [live7 t h25'], after_7]
    refine (show _ ⊢ iprop(PhiS m c t.val ∗ ins m c t ∗ (∃ d, owns (c : Thread nD τ) (st0_7 t) fullShare d) ∗ (dats m 0 c).owesAt () t.castSucc) from ?_).trans
      ((sound_C m c t h25' _).trans (wp_mono _ _ _ fun _ => ?_))
    · iintro ⟨HΦ, Ho, H0, H1, H2, H3, H4, H5, H6, ⟨%d7, H7⟩⟩
      isplitl [HΦ]; · iexact HΦ
      isplitr [Ho H7]
      · iapply (ins_intro m c t)
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      iexact Ho
    · unfold ins
      iintro ⟨HΦ, ⟨H0, H1, H2, H3, H4, H5, H6⟩, H7, Ho⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the one region, for any proof data over it. Two windows of the region read ONE array, the
  adjacency tensor (its even and its odd 200-row slabs): the region is entered holding that array once, whole,
  and hands each of the two windows one half of the share, which is all a window that only reads needs; every
  other window's array is held whole. The two scratch buffers the body keeps between grid points enter the
  region at unknown contents and leave it forgotten; the two bias vectors, which no window stages (the region
  reads their re-laid copies), bypass the region and are read back unchanged.
-/
import proofs.«144041_g70901320122855_cont_9to1c4b_733_10_alg».proof.Proof.KI.Kit
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's scoped buffers that are no staging buffer, the two scratch operands, at some contents. -/
abbrev ΦS (c : Dev nD) : sProp 𝕄 :=
  Pipeline.scopedRest (Ix := Unit) (Name := ℕ) (U := UR sig nD τ) (Lvl := ℕ) (Val := Elt F) spec0 c

/-- The distinct buffers behind the eight windows' arrays. -/
theorem arrRefs_eq : Finset.univ.image (Pipeline.arrRef spec0)
    = insert main_arg1 (insert main_arg0 (insert main_arg2 (insert main_v0 (insert main_arg4 (insert main_v1 {main_v2}))))) := by decide

/-- The buffers behind the arrays, each held whole once, are the eight windows' arrays at the proof data's
    shares: the adjacency tensor's one points-to is split into the two halves its two windows hold. -/
theorem split_arrays (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c (w : Fin 8), 2 ≤ w.val → (dats 0 c).q w = fullShare)
    (hA : ∀ c w, (dats 0 c).A w = V m c (Pipeline.arrRef spec0 w)) (c : Dev nD) :
    (Pipeline.arrBufs (Ix := Unit) (Name := ℕ) (U := UR sig nD τ) (Lvl := ℕ) cfg0.spec c (V m c) : sProp 𝕄) ⊢ (dats 0 c).arrays ((dats 0 c).arrAt · 0) := by
  unfold Pipeline.arrBufs Dat.arrays
  rw [bigSep_W0, arrRefs_eq, bigSep_insert (by decide), bigSep_insert (by decide), bigSep_insert (by decide),
    bigSep_insert (by decide), bigSep_insert (by decide), bigSep_insert (by decide), bigSep_singleton]
  simp only [View.set_whole]
  have e0 : (dats 0 c).share 0 = fullShare.left := by unfold Dat.share; rw [if_neg (by decide), hq0]
  have e1 : (dats 0 c).share 1 = fullShare.right := by unfold Dat.share; rw [if_neg (by decide), hq1]
  have e2 : (dats 0 c).share 2 = fullShare := by unfold Dat.share; rw [if_neg (by decide), hq c 2 (by decide)]
  have e3 : (dats 0 c).share 3 = fullShare := by unfold Dat.share; rw [if_neg (by decide), hq c 3 (by decide)]
  have e4 : (dats 0 c).share 4 = fullShare := by unfold Dat.share; rw [if_neg (by decide), hq c 4 (by decide)]
  have e5 : (dats 0 c).share 5 = fullShare := by unfold Dat.share; rw [if_neg (by decide), hq c 5 (by decide)]
  have e6 : (dats 0 c).share 6 = fullShare := by unfold Dat.share; rw [if_neg (by decide), hq c 6 (by decide)]
  have e7 : (dats 0 c).share 7 = fullShare := by unfold Dat.share; rw [if_pos (by decide)]
  rw [e0, e1, e2, e3, e4, e5, e6, e7]
  rw [show (dats 0 c).arrAt 0 0 = V m c (Pipeline.arrRef spec0 0) from hA c 0, show (dats 0 c).arrAt 1 0 = V m c (Pipeline.arrRef spec0 1) from hA c 1,
    show (dats 0 c).arrAt 2 0 = V m c (Pipeline.arrRef spec0 2) from hA c 2, show (dats 0 c).arrAt 3 0 = V m c (Pipeline.arrRef spec0 3) from hA c 3,
    show (dats 0 c).arrAt 4 0 = V m c (Pipeline.arrRef spec0 4) from hA c 4, show (dats 0 c).arrAt 5 0 = V m c (Pipeline.arrRef spec0 5) from hA c 5,
    show (dats 0 c).arrAt 6 0 = V m c (Pipeline.arrRef spec0 6) from hA c 6, show (dats 0 c).arrAt 7 0 = V m c (Pipeline.arrRef spec0 7) from hA c 7]
  refine (show iprop((((c.tc : Thread nD τ).loc main_arg1) ↦{fullShare} V m c main_arg1) ∗ (((c.tc : Thread nD τ).loc main_arg0) ↦{fullShare} V m c main_arg0)
      ∗ (((c.tc : Thread nD τ).loc main_arg2) ↦{fullShare} V m c main_arg2) ∗ (((c.tc : Thread nD τ).loc main_v0) ↦{fullShare} V m c main_v0)
      ∗ (((c.tc : Thread nD τ).loc main_arg4) ↦{fullShare} V m c main_arg4) ∗ (((c.tc : Thread nD τ).loc main_v1) ↦{fullShare} V m c main_v1)
      ∗ (((c.tc : Thread nD τ).loc main_v2) ↦{fullShare} V m c main_v2)) ⊢ _ from ?_)
  have hs : ((((c.tc : Thread nD τ).loc main_arg1) ↦{fullShare} V m c main_arg1 : sProp 𝕄))
      ⊢ iprop((((c.tc : Thread nD τ).loc main_arg1) ↦{fullShare.left} V m c main_arg1) ∗ (((c.tc : Thread nD τ).loc main_arg1) ↦{fullShare.right} V m c main_arg1)) :=
    (pointsTo_share (PosShare.mem_left_op_right fullShare)).1
  refine (sep_mono hs .rfl).trans ?_
  iintro ⟨⟨Ha, Hb⟩, H0, H2, H3, H4, H5, H6⟩
  isplitl [Ha]; · iexact Ha
  isplitl [Hb]; · iexact Hb
  isplitl [H0]; · iexact H0
  isplitl [H2]; · iexact H2
  isplitl [H3]; · iexact H3
  isplitl [H4]; · iexact H4
  isplitl [H5]; · iexact H5
  iexact H6

set_option backward.isDefEq.respectTransparency.types false in
/-- At the compiled mesh, for any float values, from any memory with zero counters: every weakly fair
    execution of @main on the TensorCores terminates, and every final state has each window's array at what the
    library computes from the proof data (an input as it was found, the result its blocks overwritten by what the body
    left at each write-back) and the two bias vectors as they were. -/
theorem run_shared (dats : (p : Fin 1) → (c : Dev nD) → Dat τ (Elt F) Unit ℕ (UR sig nD τ) ℕ (cfgs p) c) (𝒱₀ : Variants)
    (hbody : ∀ c, BodyObligationLoose (dats 0 c) (defs₀ (F := F)) 𝒱₀ () Set.univ)
    (hq0 : ∀ c, (dats 0 c).q 0 = fullShare.left) (hq1 : ∀ c, (dats 0 c).q 1 = fullShare.right)
    (hq : ∀ c (w : Fin 8), 2 ≤ w.val → (dats 0 c).q w = fullShare)
    (howed : ∀ c t, (dats 0 c).owed t = 0)
    (hA : ∀ c w, (dats 0 c).A w = V m c (Pipeline.arrRef spec0 w))
    (hin : ∀ c, ΦS c ⊢ (dats 0 c).Φ 0) (hout : ∀ c, (dats 0 c).Φ (Fin.last cfg0.N) ⊢ ΦS c) :
    θ_run defs (onTc (τ := τ) (main (F := F))) ⟨m, fun _ => 0, ρ⟩ (Pipeline.FramePost cfgs dats 0 (V m)) :=
  Pipeline.θ_run_region_noSem_shared cfgs dats () cellOf_inj (0 : Fin 1) winFacts₀0 emb₁ defs₀ 𝒱₀ m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := V m) (hmain := hmain m 𝒱₀)
    (hsplit := split_arrays m dats hq0 hq1 hq hA)
    (X := fun _ => iprop(emp)) (Y := fun _ => iprop(emp))
    (Z := fun c => Pipeline.unscopedRest (Ix := Unit) (Name := ℕ) (U := UR sig nD τ) (Lvl := ℕ) cfg0.spec c (V m c))
    (hX := fun c => by iintro H; isplitr; · iempintro
                       iexact H)
    (hin := fun c => (show iprop(emp ∗ ΦS c) ⊢ ΦS c from by iintro ⟨-, H⟩; iexact H).trans (hin c))
    (hout := fun c => (hout c).trans (by iintro H; isplitr; · iempintro
                                         iexact H))
    (QY := fun c s => ∀ b ∈ Pipeline.restRefs sig cfg0.spec, s.mem ((c.tc : Thread nD τ).loc b) = V m c b)
    (hY := fun c s' => by
      iintro ⟨-, HU, HSI⟩
      unfold Pipeline.unscopedRest
      imodintro
      iapply (pointsTo_read_all (Pipeline.restRefs sig cfg0.spec) (fun b => (c.tc : Thread nD τ).loc b) (V m c) s')
      isplitl [HU] <;> iassumption)
    (hQ := fun s h c => ⟨(h c).1, (h c).2⟩)

end Cert.KernelIdeal.Hand

end
-- ==== Proof.KI.Frame.lean ====
/-
  The run of the program and its frame: every weakly fair execution of @main terminates without a fault, the
  result array ends at what the library computes from the proof data, and the six argument arrays end as they
  were launched — the features, the adjacency tensor and the two weight matrices because the region only reads
  the windows on them, the two bias vectors because neither the two reshapes nor the region write them.
-/
import proofs.«144041_g70901320122855_cont_9to1c4b_733_10_alg».proof.Proof.KI.Body
import proofs.«144041_g70901320122855_cont_9to1c4b_733_10_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the compiled mesh, for any float values, from any memory with zero counters: every weakly fair execution
    of @main on the TensorCores terminates, and every final state has every window's array at what the library
    computes from the proof data and the two bias vectors as they were. -/
theorem run_main : θ_run defs (onTc (τ := τ) (main (F := F))) ⟨m, fun _ => 0, ρ⟩ (Pipeline.FramePost cfgs (dats m) 0 (V m)) :=
  run_shared m ρ (dats m) Variants.none (fun c => (body_obligation m c).loose) (q_0 m) (q_1 m) (q_ge m) (fun _ _ => rfl) (A_eq m)
    (hin m) (hout m)

/-- An input window's array ends as the region found it, which is as it was launched. -/
theorem kept_arg0 (c : Dev nD) (r : PUnit × MemSt nD τ sig (Elt F)) (h : Pipeline.FramePost cfgs (dats m) 0 (V m) r) :
    r.2.mem ((c.tc : Thread nD τ).loc main_arg0) = m ((c.tc : Thread nD τ).loc main_arg0) :=
  ((h c).1 2).trans (((dats m 0 c).arrAt_in 2 rfl _).trans ((A_eq m c 2).trans (V_main_arg0 m c)))
theorem kept_arg1 (c : Dev nD) (r : PUnit × MemSt nD τ sig (Elt F)) (h : Pipeline.FramePost cfgs (dats m) 0 (V m) r) :
    r.2.mem ((c.tc : Thread nD τ).loc main_arg1) = m ((c.tc : Thread nD τ).loc main_arg1) :=
  ((h c).1 0).trans (((dats m 0 c).arrAt_in 0 rfl _).trans ((A_eq m c 0).trans (V_main_arg1 m c)))
theorem kept_arg2 (c : Dev nD) (r : PUnit × MemSt nD τ sig (Elt F)) (h : Pipeline.FramePost cfgs (dats m) 0 (V m) r) :
    r.2.mem ((c.tc : Thread nD τ).loc main_arg2) = m ((c.tc : Thread nD τ).loc main_arg2) :=
  ((h c).1 3).trans (((dats m 0 c).arrAt_in 3 rfl _).trans ((A_eq m c 3).trans (V_main_arg2 m c)))
theorem kept_arg4 (c : Dev nD) (r : PUnit × MemSt nD τ sig (Elt F)) (h : Pipeline.FramePost cfgs (dats m) 0 (V m) r) :
    r.2.mem ((c.tc : Thread nD τ).loc main_arg4) = m ((c.tc : Thread nD τ).loc main_arg4) :=
  ((h c).1 5).trans (((dats m 0 c).arrAt_in 5 rfl _).trans ((A_eq m c 5).trans (V_main_arg4 m c)))
/-- A bias vector bypasses the region and ends as the region's entry found it, which is as it was launched. -/
theorem kept_arg3 (c : Dev nD) (r : PUnit × MemSt nD τ sig (Elt F)) (h : Pipeline.FramePost cfgs (dats m) 0 (V m) r) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg5 (c : Dev nD) (r : PUnit × MemSt nD τ sig (Elt F)) (h : Pipeline.FramePost cfgs (dats m) 0 (V m) r) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- The frame: the program runs to the end and its six argument arrays end unchanged, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨kept_arg0 m c r h, kept_arg1 m c r h, kept_arg2 m c r h, kept_arg3 m c r h, kept_arg4 m c r h, kept_arg5 m c r h⟩)
    (run_main m ρ)

/-- The result array after the run: what the library computes from the proof data's write-backs. -/
theorem result_eq (c : Dev nD) (r : PUnit × MemSt nD τ sig (Elt F)) (h : Pipeline.FramePost cfgs (dats m) 0 (V m) r) :
    r.2.mem ((c.tc : Thread nD τ).loc main_v2) = (dats m 0 c).arrAt 7 cfg0.N := (h c).1 7

end Cert.KernelIdeal.Hand

end
-- ==== Proof.Math.lean ====
/-
  The two-layer graph convolution both programs compute, as one function of the argument arrays over the
  extended reals, entry by entry:
    first support    s0[n, h] = Σ_d x[n, d] · W1[d, h]
    hidden layer     hd[k, h] = max (Σ_n A0[k, n] · s0[n, h] + b1[h]) 0
    second support   s1[k, j] = Σ_h hd[k, h] · W2[h, j]
    result           out[r, j] = Σ_k A1[r, k] · s1[k, j] + b2[j]
  with A0, A1 the two layers of the adjacency tensor. No law of the extended reals is used between the two
  programs: each is this expression tree, the kernel's cut into 200-row slabs.
-/
import Idealize.ShloMosaic.PureOps.Ideal

noncomputable section

namespace Cert.Gcn

open scoped BigOperators

variable (A0 A1 : Fin 10000 → Fin 10000 → EReal) (x : Fin 10000 → Fin 128 → EReal)
  (W1 : Fin 128 → Fin 128 → EReal) (b1 : Fin 128 → EReal) (W2 : Fin 128 → Fin 128 → EReal) (b2 : Fin 128 → EReal)

/-- The first support x W1. -/
def sup0 (n : Fin 10000) (h : Fin 128) : EReal := ∑ d : Fin 128, x n d * W1 d h

/-- The hidden layer relu (A0 s0 + b1). -/
def hid (k : Fin 10000) (h : Fin 128) : EReal := max (∑ n : Fin 10000, A0 k n * sup0 x W1 n h + b1 h) 0

/-- The second support hd W2. -/
def sup1 (k : Fin 10000) (j : Fin 128) : EReal := ∑ h : Fin 128, hid A0 x W1 b1 k h * W2 h j

/-- The result A1 s1 + b2. -/
def out (r : Fin 10000) (j : Fin 128) : EReal := ∑ k : Fin 10000, A1 r k * sup1 A0 x W1 b1 W2 k j + b2 j

end Cert.Gcn

end
-- ==== Proof.KI.Args.lean ====
/-
  The argument arrays of the idealized kernel as plain functions of their coordinates over the extended reals,
  and the network's result of them.
-/
import proofs.«144041_g70901320122855_cont_9to1c4b_733_10_alg».proof.Proof.KI.Spec
import proofs.«144041_g70901320122855_cont_9to1c4b_733_10_alg».proof.Proof.Math
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-- A grid point's position is below 50. -/
theorem t_lt50 (t : Fin cfg0.N) : t.val < 50 := lt_of_lt_of_eq t.isLt N_eq

/-- Layer l of the adjacency tensor. -/
def aAdj (c : Dev nD) (l : Fin 2) (k n : Fin 10000) : EReal := m ((c : Thread nD τ).loc main_arg1) (ix3 l k n)
/-- The features. -/
def aX (c : Dev nD) (n : Fin 10000) (d : Fin 128) : EReal := m ((c : Thread nD τ).loc main_arg0) (ix2 n d)
/-- The two weight matrices and the two bias vectors. -/
def aW1 (c : Dev nD) (d h : Fin 128) : EReal := m ((c : Thread nD τ).loc main_arg2) (ix2 d h)
def aB1 (c : Dev nD) (h : Fin 128) : EReal := m ((c : Thread nD τ).loc main_arg3) (ix1 h)
def aW2 (c : Dev nD) (h j : Fin 128) : EReal := m ((c : Thread nD τ).loc main_arg4) (ix2 h j)
def aB2 (c : Dev nD) (j : Fin 128) : EReal := m ((c : Thread nD τ).loc main_arg5) (ix1 j)

/-- The network's second support of core c's argument arrays. -/
def gSup1 (c : Dev nD) (k : Fin 10000) (j : Fin 128) : EReal :=
  Cert.Gcn.sup1 (aAdj m c 0) (aX m c) (aW1 m c) (aB1 m c) (aW2 m c) k j

/-- The network's result of core c's argument arrays. -/
def gOut (c : Dev nD) (r : Fin 10000) (j : Fin 128) : EReal :=
  Cert.Gcn.out (aAdj m c 0) (aAdj m c 1) (aX m c) (aW1 m c) (aB1 m c) (aW2 m c) (aB2 m c) r j

theorem gOut_eq (c : Dev nD) (r : Fin 10000) (j : Fin 128) :
    gOut m c r j = ∑ k : Fin 10000, aAdj m c 1 r k * gSup1 m c k j + aB2 m c j := rfl

end Cert.KernelIdeal.Hand

end
-- ==== Proof.KI.Blocks.lean ====
/-
  What each window's block holds, entry by entry, in terms of the argument arrays: point t is layer t / 25 and
  row group t % 25; the even slab of the adjacency layer is rows 400 (t % 25) .. + 199 and the odd slab rows
  400 (t % 25) + 200 .. + 399; the features, the weights and the re-laid bias rows are whole arrays at every point.
-/
import proofs.«144041_g70901320122855_cont_9to1c4b_733_10_alg».proof.Proof.KI.Args
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The windows' block indices, decided over the 50 points -/

/-- The even slab's block index at point t: layer t / 25, slab 2 (t % 25), all columns. -/
theorem idxA : ∀ t : Fin cfg0.N, win0_0.index t (0 : Fin 3) = t.val / 25
    ∧ win0_0.index t (1 : Fin 3) = 2 * (t.val % 25)
    ∧ win0_0.index t (2 : Fin 3) = 0 :=
  (by decide +kernel : ∀ t : Fin grid0.N, _)

/-- The odd slab's: layer t / 25, slab 2 (t % 25) + 1, all columns. -/
theorem idxB : ∀ t : Fin cfg0.N, win0_1.index t (0 : Fin 3) = t.val / 25
    ∧ win0_1.index t (1 : Fin 3) = 2 * (t.val % 25) + 1
    ∧ win0_1.index t (2 : Fin 3) = 0 :=
  (by decide +kernel : ∀ t : Fin grid0.N, _)

/-- The features, the weights and the bias rows are block (0, 0) of their arrays at every point. -/
theorem idxX : ∀ t : Fin cfg0.N, win0_2.index t (0 : Fin 2) = 0 ∧ win0_2.index t (1 : Fin 2) = 0 :=
  (by decide +kernel : ∀ t : Fin grid0.N, _)
theorem idxW1 : ∀ t : Fin cfg0.N, win0_3.index t (0 : Fin 2) = 0 ∧ win0_3.index t (1 : Fin 2) = 0 :=
  (by decide +kernel : ∀ t : Fin grid0.N, _)
theorem idxB1 : ∀ t : Fin cfg0.N, win0_4.index t (0 : Fin 2) = 0 ∧ win0_4.index t (1 : Fin 2) = 0 :=
  (by decide +kernel : ∀ t : Fin grid0.N, _)
theorem idxW2 : ∀ t : Fin cfg0.N, win0_5.index t (0 : Fin 2) = 0 ∧ win0_5.index t (1 : Fin 2) = 0 :=
  (by decide +kernel : ∀ t : Fin grid0.N, _)
theorem idxB2 : ∀ t : Fin cfg0.N, win0_6.index t (0 : Fin 2) = 0 ∧ win0_6.index t (1 : Fin 2) = 0 :=
  (by decide +kernel : ∀ t : Fin grid0.N, _)

/-! ## The two bias rows as the region finds them -/

/-- The first bias row is the first bias vector re-laid as one row. -/
theorem V_main_v0 (c : Dev nD) :
    (V m c main_v0 : S1x128.Idx → EReal) = shapeCast S1x128 (m ((c : Thread nD τ).loc main_arg3)) shapeCasts_S128_S1x128 := by
  unfold V
  dsimp only [hostOps0]
  after_results
  rfl

/-- The second bias row is the second bias vector re-laid as one row: the first re-laying does not touch it. -/
theorem V_main_v1 (c : Dev nD) :
    (V m c main_v1 : S1x128.Idx → EReal) = shapeCast S1x128 (m ((c : Thread nD τ).loc main_arg5)) shapeCasts_S128_S1x128 := by
  unfold V
  dsimp only [hostOps0]
  after_results
  rfl

/-! ## The blocks, entry by entry -/

theorem adjA_apply (c : Dev nD) (t : Fin cfg0.N) (p : Fin 200) (n : Fin 10000) :
    adjA (F := Ideal) m c t (ix3 (0 : Fin 1) p n)
      = aAdj m c ⟨t.val / 25, by have := t_lt50 t; omega⟩ ⟨400 * (t.val % 25) + p.val, by omega⟩ n := by
  show ((cfg0.win 0).blk t).view.read (Elt Ideal) (V m c (Pipeline.arrRef spec0 0)) (ix3 (0 : Fin 1) p n) = _
  rw [View.read_apply]
  show V m c main_arg1 (((cfg0.win 0).blk t).view.emb (ix3 (0 : Fin 1) p n)) = _
  rw [V_main_arg1]
  unfold aAdj
  obtain ⟨e0, e1, e2⟩ := idxA t
  congr 1
  funext a; apply Fin.ext
  match a with
  | ⟨0, _⟩ => show win0_0.index t (0 : Fin 3) * 1 + 1 * 0 = t.val / 25; omega
  | ⟨1, _⟩ => show win0_0.index t (1 : Fin 3) * 200 + 1 * p.val = 400 * (t.val % 25) + p.val; omega
  | ⟨2, _⟩ => show win0_0.index t (2 : Fin 3) * 10000 + 1 * n.val = n.val; omega

theorem adjB_apply (c : Dev nD) (t : Fin cfg0.N) (p : Fin 200) (n : Fin 10000) :
    adjB (F := Ideal) m c t (ix3 (0 : Fin 1) p n)
      = aAdj m c ⟨t.val / 25, by have := t_lt50 t; omega⟩ ⟨400 * (t.val % 25) + 200 + p.val, by omega⟩ n := by
  show ((cfg0.win 1).blk t).view.read (Elt Ideal) (V m c (Pipeline.arrRef spec0 1)) (ix3 (0 : Fin 1) p n) = _
  rw [View.read_apply]
  show V m c main_arg1 (((cfg0.win 1).blk t).view.emb (ix3 (0 : Fin 1) p n)) = _
  rw [V_main_arg1]
  unfold aAdj
  obtain ⟨e0, e1, e2⟩ := idxB t
  congr 1
  funext a; apply Fin.ext
  match a with
  | ⟨0, _⟩ => show win0_1.index t (0 : Fin 3) * 1 + 1 * 0 = t.val / 25; omega
  | ⟨1, _⟩ => show win0_1.index t (1 : Fin 3) * 200 + 1 * p.val = 400 * (t.val % 25) + 200 + p.val; omega
  | ⟨2, _⟩ => show win0_1.index t (2 : Fin 3) * 10000 + 1 * n.val = n.val; omega

theorem xblk_apply (c : Dev nD) (t : Fin cfg0.N) (n : Fin 10000) (d : Fin 128) :
    xblk (F := Ideal) m c t (ix2 n d) = aX m c n d := by
  show ((cfg0.win 2).blk t).view.read (Elt Ideal) (V m c (Pipeline.arrRef spec0 2)) (ix2 n d) = _
  rw [View.read_apply]
  show V m c main_arg0 (((cfg0.win 2).blk t).view.emb (ix2 n d)) = _
  rw [V_main_arg0]
  unfold aX
  obtain ⟨e0, e1⟩ := idxX t
  congr 1
  funext a; apply Fin.ext
  match a with
  | ⟨0, _⟩ => show win0_2.index t (0 : Fin 2) * 10000 + 1 * n.val = n.val; omega
  | ⟨1, _⟩ => show win0_2.index t (1 : Fin 2) * 128 + 1 * d.val = d.val; omega

theorem w1blk_apply (c : Dev nD) (t : Fin cfg0.N) (d h : Fin 128) :
    w1blk (F := Ideal) m c t (ix2 d h) = aW1 m c d h := by
  show ((cfg0.win 3).blk t).view.read (Elt Ideal) (V m c (Pipeline.arrRef spec0 3)) (ix2 d h) = _
  rw [View.read_apply]
  show V m c main_arg2 (((cfg0.win 3).blk t).view.emb (ix2 d h)) = _
  rw [V_main_arg2]
  unfold aW1
  obtain ⟨e0, e1⟩ := idxW1 t
  congr 1
  funext a; apply Fin.ext
  match a with
  | ⟨0, _⟩ => show win0_3.index t (0 : Fin 2) * 128 + 1 * d.val = d.val; omega
  | ⟨1, _⟩ => show win0_3.index t (1 : Fin 2) * 128 + 1 * h.val = h.val; omega

theorem w2blk_apply (c : Dev nD) (t : Fin cfg0.N) (h j : Fin 128) :
    w2blk (F := Ideal) m c t (ix2 h j) = aW2 m c h j := by
  show ((cfg0.win 5).blk t).view.read (Elt Ideal) (V m c (Pipeline.arrRef spec0 5)) (ix2 h j) = _
  rw [View.read_apply]
  show V m c main_arg4 (((cfg0.win 5).blk t).view.emb (ix2 h j)) = _
  rw [V_main_arg4]
  unfold aW2
  obtain ⟨e0, e1⟩ := idxW2 t
  congr 1
  funext a; apply Fin.ext
  match a with
  | ⟨0, _⟩ => show win0_5.index t (0 : Fin 2) * 128 + 1 * h.val = h.val; omega
  | ⟨1, _⟩ => show win0_5.index t (1 : Fin 2) * 128 + 1 * j.val = j.val; omega

theorem b1blk_apply (c : Dev nD) (t : Fin cfg0.N) (h : Fin 128) :
    b1blk (F := Ideal) m c t (ix2 (0 : Fin 1) h) = aB1 m c h := by
  show ((cfg0.win 4).blk t).view.read (Elt Ideal) (V m c (Pipeline.arrRef spec0 4)) (ix2 (0 : Fin 1) h) = _
  rw [View.read_apply]
  show (V m c main_v0 : S1x128.Idx → EReal) (((cfg0.win 4).blk t).view.emb (ix2 (0 : Fin 1) h)) = _
  rw [V_main_v0]
  unfold aB1
  obtain ⟨e0, e1⟩ := idxB1 t
  refine shapeCast_apply _ _ _ (ix1 h) ?_
  rw [Shape.rowMajor_val_one, Shape.rowMajor_val_two]
  show h.val = (win0_4.index t (0 : Fin 2) * 1 + 1 * 0) * 128 + (win0_4.index t (1 : Fin 2) * 128 + 1 * h.val)
  omega

theorem b2blk_apply (c : Dev nD) (t : Fin cfg0.N) (j : Fin 128) :
    b2blk (F := Ideal) m c t (ix2 (0 : Fin 1) j) = aB2 m c j := by
  show ((cfg0.win 6).blk t).view.read (Elt Ideal) (V m c (Pipeline.arrRef spec0 6)) (ix2 (0 : Fin 1) j) = _
  rw [View.read_apply]
  show (V m c main_v1 : S1x128.Idx → EReal) (((cfg0.win 6).blk t).view.emb (ix2 (0 : Fin 1) j)) = _
  rw [V_main_v1]
  unfold aB2
  obtain ⟨e0, e1⟩ := idxB2 t
  refine shapeCast_apply _ _ _ (ix1 j) ?_
  rw [Shape.rowMajor_val_one, Shape.rowMajor_val_two]
  show j.val = (win0_6.index t (0 : Fin 2) * 1 + 1 * 0) * 128 + (win0_6.index t (1 : Fin 2) * 128 + 1 * j.val)
  omega

end Cert.KernelIdeal.Hand

end
-- ==== Proof.KI.ValueS1.lean ====
/-
  The second support at the ideal instance, entry by entry: the network's formula.
  Over the extended reals a change of float format is the identity and a product into a zero accumulator is the
  plain sum Σ_k lhs[p, k] · rhs[k, q]; so the first scratch holds s0 = x W1, a layer-0 point's even and odd slab
  give relu (slab s0 + b1) W2 for their 200 rows each, and row k of the second scratch, written by row group
  k / 400 from the slab that holds row k of adjacency layer 0, is the network's s1[k, ·].
-/
import proofs.«144041_g70901320122855_cont_9to1c4b_733_10_alg».proof.Proof.KI.Blocks
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The three products of the kernel at an entry

  Each `tpu.matmul` of the kernel contracts the left operand's second axis with the right operand's first, with
  no batch axis, into a zero accumulator: at the ideal instance its entry (p, q) is Σ_k lhs[p, k] · rhs[k, q]. -/

/-! ### The features times the first weight matrix: [10000, 128] × [128, 128] -/

theorem featW_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem featW_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem featW_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem featW_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (n, h) of the product is Σ_d a[n, d] · b[d, h]. -/
theorem featW_apply (a : FVec Ideal S10000x128 .bf16) (b : FVec Ideal S128x128 .bf16) (n : Fin 10000) (h : Fin 128) :
    matmul dot_S10000x128_S128x128_S10000x128_1_0_0_1_n_n none a b (constant (F := Ideal) S10000x128 .f32 0x00000000#32) (ix2 n h)
      = ∑ d : Fin 128, a (ix2 n d) * b (ix2 d h) := by
  refine (Ideal.matmul_constant_zero_apply dot_S10000x128_S128x128_S10000x128_1_0_0_1_n_n none a b (ix2 n h)).trans ?_
  rw [← Equiv.sum_comp (contrEquiv1 dot_S10000x128_S128x128_S10000x128_1_0_0_1_n_n 128 rfl rfl).symm]
  refine Finset.sum_congr rfl fun d _ => ?_
  have hk := contrEquiv1_symm_val dot_S10000x128_S128x128_S10000x128_1_0_0_1_n_n 128 rfl rfl d
  have el : dot_S10000x128_S128x128_S10000x128_1_0_0_1_n_n.lhsIdx (ix2 n h) ((contrEquiv1 dot_S10000x128_S128x128_S10000x128_1_0_0_1_n_n 128 rfl rfl).symm d) = ix2 n d := funext fun ax => Fin.ext (by
    match ax with
    | ⟨0, _⟩ => exact featW_lhs0 _ _
    | ⟨1, _⟩ => exact (featW_lhs1 _ _).trans hk)
  have er : dot_S10000x128_S128x128_S10000x128_1_0_0_1_n_n.rhsIdx (ix2 n h) ((contrEquiv1 dot_S10000x128_S128x128_S10000x128_1_0_0_1_n_n 128 rfl rfl).symm d) = ix2 d h := funext fun ax => Fin.ext (by
    match ax with
    | ⟨0, _⟩ => exact (featW_rhs0 _ _).trans hk
    | ⟨1, _⟩ => exact featW_rhs1 _ _)
  rw [el, er]

/-! ### A 200-row adjacency slab times a support: [200, 10000] × [10000, 128] -/

theorem slabS_lhs0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem slabS_lhs1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem slabS_rhs0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem slabS_rhs1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Entry (p, h) of the product is Σ_n a[p, n] · s[n, h]. -/
theorem slabS_apply (a : FVec Ideal S200x10000 .bf16) (s : FVec Ideal S10000x128 .bf16) (p : Fin 200) (h : Fin 128) :
    matmul dot_S200x10000_S10000x128_S200x128_1_0_0_1_n_n none a s (constant (F := Ideal) S200x128 .f32 0x00000000#32) (ix2 p h)
      = ∑ n : Fin 10000, a (ix2 p n) * s (ix2 n h) := by
  refine (Ideal.matmul_constant_zero_apply dot_S200x10000_S10000x128_S200x128_1_0_0_1_n_n none a s (ix2 p h)).trans ?_
  rw [← Equiv.sum_comp (contrEquiv1 dot_S200x10000_S10000x128_S200x128_1_0_0_1_n_n 10000 rfl rfl).symm]
  refine Finset.sum_congr rfl fun n _ => ?_
  have hk := contrEquiv1_symm_val dot_S200x10000_S10000x128_S200x128_1_0_0_1_n_n 10000 rfl rfl n
  have el : dot_S200x10000_S10000x128_S200x128_1_0_0_1_n_n.lhsIdx (ix2 p h) ((contrEquiv1 dot_S200x10000_S10000x128_S200x128_1_0_0_1_n_n 10000 rfl rfl).symm n) = ix2 p n := funext fun ax => Fin.ext (by
    match ax with
    | ⟨0, _⟩ => exact slabS_lhs0 _ _
    | ⟨1, _⟩ => exact (slabS_lhs1 _ _).trans hk)
  have er : dot_S200x10000_S10000x128_S200x128_1_0_0_1_n_n.rhsIdx (ix2 p h) ((contrEquiv1 dot_S200x10000_S10000x128_S200x128_1_0_0_1_n_n 10000 rfl rfl).symm n) = ix2 n h := funext fun ax => Fin.ext (by
    match ax with
    | ⟨0, _⟩ => exact (slabS_rhs0 _ _).trans hk
    | ⟨1, _⟩ => exact slabS_rhs1 _ _)
  rw [el, er]

/-! ### 200 rows of the hidden layer times the second weight matrix: [200, 128] × [128, 128] -/

theorem hidW_lhs0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem hidW_lhs1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem hidW_rhs0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem hidW_rhs1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- Entry (p, j) of the product is Σ_h g[p, h] · w[h, j]. -/
theorem hidW_apply (g : FVec Ideal S200x128 .bf16) (w : FVec Ideal S128x128 .bf16) (p : Fin 200) (j : Fin 128) :
    matmul dot_S200x128_S128x128_S200x128_1_0_0_1_n_n none g w (constant (F := Ideal) S200x128 .f32 0x00000000#32) (ix2 p j)
      = ∑ h : Fin 128, g (ix2 p h) * w (ix2 h j) := by
  refine (Ideal.matmul_constant_zero_apply dot_S200x128_S128x128_S200x128_1_0_0_1_n_n none g w (ix2 p j)).trans ?_
  rw [← Equiv.sum_comp (contrEquiv1 dot_S200x128_S128x128_S200x128_1_0_0_1_n_n 128 rfl rfl).symm]
  refine Finset.sum_congr rfl fun h _ => ?_
  have hk := contrEquiv1_symm_val dot_S200x128_S128x128_S200x128_1_0_0_1_n_n 128 rfl rfl h
  have el : dot_S200x128_S128x128_S200x128_1_0_0_1_n_n.lhsIdx (ix2 p j) ((contrEquiv1 dot_S200x128_S128x128_S200x128_1_0_0_1_n_n 128 rfl rfl).symm h) = ix2 p h := funext fun ax => Fin.ext (by
    match ax with
    | ⟨0, _⟩ => exact hidW_lhs0 _ _
    | ⟨1, _⟩ => exact (hidW_lhs1 _ _).trans hk)
  have er : dot_S200x128_S128x128_S200x128_1_0_0_1_n_n.rhsIdx (ix2 p j) ((contrEquiv1 dot_S200x128_S128x128_S200x128_1_0_0_1_n_n 128 rfl rfl).symm h) = ix2 h j := funext fun ax => Fin.ext (by
    match ax with
    | ⟨0, _⟩ => exact (hidW_rhs0 _ _).trans hk
    | ⟨1, _⟩ => exact hidW_rhs1 _ _)
  rw [el, er]

/-! ## The payloads at an entry

  At the ideal instance a change of float format is the identity, a shape cast between equal shapes is the
  identity, the cast [1, 200, 10000] → [200, 10000] reads row p at (0, p, ·), the bias row's broadcast reads the one
  row at every row, the literal 0x00000000 is 0, maximumf is max and addf is +. -/

/-- The first support as the first point computes it: entry (n, h) is Σ_d x[n, d] · w[d, h]. -/
theorem pay1_apply (x : Vec Ideal S10000x128 .f32) (w : Vec Ideal S128x128 .f32) (n : Fin 10000) (h : Fin 128) :
    k0_pay1 (F := Ideal) x w (ix2 n h) = ∑ d : Fin 128, x (ix2 n d) * w (ix2 d h) := by
  unfold k0_pay1
  refine (congrFun (shapeCast_self _ shapeCasts_S10000x128_S10000x128) (ix2 n h)).trans ?_
  exact featW_apply (truncf .bf16 x bitsLt_bf16_f32) (truncf .bf16 w bitsLt_bf16_f32) n h

/-- 200 rows of the hidden layer times the second weight matrix: entry (p, j) is Σ_h v[p, h] · w[h, j]. -/
theorem pay2_apply (w : FVec Ideal S128x128 .bf16) (v : FVec Ideal S200x128 .f32) (p : Fin 200) (j : Fin 128) :
    k0_pay2 (F := Ideal) w v (ix2 p j) = ∑ h : Fin 128, v (ix2 p h) * w (ix2 h j) := by
  unfold k0_pay2
  refine (congrFun (shapeCast_self _ shapeCasts_S200x128_S200x128) (ix2 p j)).trans ?_
  exact hidW_apply (truncf .bf16 v bitsLt_bf16_f32) w p j

/-- 200 rows of the hidden layer from a slab a of the adjacency, a support s and the bias row b:
    entry (p, h) is max (Σ_n a[0, p, n] · s[n, h] + b[0, h]) 0. -/
theorem pay7_apply (a : Vec Ideal S1x200x10000 .f32) (s : Vec Ideal S10000x128 .bf16) (b : Vec Ideal S1x128 .f32) (p : Fin 200) (h : Fin 128) :
    k0_pay7 (F := Ideal) a s b (ix2 p h)
      = max (∑ n : Fin 10000, a (ix3 (0 : Fin 1) p n) * s (ix2 n h) + b (ix2 (0 : Fin 1) h)) 0 := by
  unfold k0_pay7
  refine (maximumf_apply _ _ (ix2 p h)).trans ?_
  refine congrArg₂ max ?_ ?_
  · refine (addf_apply _ _ (ix2 p h)).trans ?_
    refine congrArg₂ (· + ·) ?_ ?_
    · refine (slabS_apply _ _ p h).trans ?_
      refine Finset.sum_congr rfl fun n _ => ?_
      refine congrArg (· * s (ix2 n h)) ?_
      exact shapeCast_1ab_ab_apply a shapeCasts_S1x200x10000_S200x10000 p n
    · refine (broadcastTo_1b_ab_apply _ broadcasts_S1x128_S200x128 p h).trans ?_
      exact congrFun (shapeCast_self b shapeCasts_S1x128_S1x128) (ix2 (0 : Fin 1) h)
  · exact Ideal.ofBits_zero_f32

/-- The even slab's payload is the odd slab's two payloads composed: the same expression tree. -/
theorem pay6_eq {F : FTy → Type} [FloatOps F] (w2 : Vec F S128x128 .f32) (a : Vec F S1x200x10000 .f32) (s : Vec F S10000x128 .bf16) (b : Vec F S1x128 .f32) :
    k0_pay6 w2 a s b = k0_pay2 (k0_pay5 w2) (k0_pay7 a s b) := rfl

/-- 200 rows of the second support from a slab: entry (p, j) is Σ_h max (Σ_n a[0, p, n] · s[n, h] + b[0, h]) 0 · w2[h, j]. -/
theorem slabRows_apply (w2 : Vec Ideal S128x128 .f32) (a : Vec Ideal S1x200x10000 .f32) (s : Vec Ideal S10000x128 .bf16) (b : Vec Ideal S1x128 .f32) (p : Fin 200) (j : Fin 128) :
    k0_pay2 (F := Ideal) (k0_pay5 w2) (k0_pay7 a s b) (ix2 p j)
      = ∑ h : Fin 128, max (∑ n : Fin 10000, a (ix3 (0 : Fin 1) p n) * s (ix2 n h) + b (ix2 (0 : Fin 1) h)) 0 * w2 (ix2 h j) := by
  refine (pay2_apply (k0_pay5 w2) (k0_pay7 a s b) p j).trans ?_
  refine Finset.sum_congr rfl fun h _ => ?_
  exact congrArg₂ (· * ·) (pay7_apply a s b p h) rfl

/-! ## The supports entry by entry -/

/-- The first support is x W1: the feature and weight windows hold whole arrays. -/
theorem S0_apply (c : Dev nD) (n : Fin 10000) (h : Fin 128) :
    S0 (F := Ideal) m c (ix2 n h) = Cert.Gcn.sup0 (aX m c) (aW1 m c) n h := by
  unfold S0 Cert.Gcn.sup0
  refine (pay1_apply (xblk m c t₀) (w1blk m c t₀) n h).trans ?_
  refine Finset.sum_congr rfl fun d _ => ?_
  exact congrArg₂ (· * ·) (xblk_apply m c t₀ n d) (w1blk_apply m c t₀ d h)

/-- A slab's 200 rows, computed from a slab whose row p is row r of adjacency layer 0, are rows of the second
    support: row p is the network's row r. -/
theorem slabRows_sup1 (c : Dev nD) (t : Fin cfg0.N) (a : Vec Ideal S1x200x10000 .f32) (p : Fin 200) (r : Fin 10000)
    (ha : ∀ n : Fin 10000, a (ix3 (0 : Fin 1) p n) = aAdj m c 0 r n) (j : Fin 128) :
    k0_pay2 (F := Ideal) (k0_pay5 (w2blk m c t)) (k0_pay7 a (S0 m c) (b1blk m c t)) (ix2 p j) = gSup1 m c r j := by
  unfold gSup1 Cert.Gcn.sup1 Cert.Gcn.hid
  refine (slabRows_apply (w2blk m c t) a (S0 m c) (b1blk m c t) p j).trans ?_
  refine Finset.sum_congr rfl fun h _ => ?_
  refine congrArg₂ (· * ·) (congrArg₂ max (congrArg₂ (· + ·) ?_ (b1blk_apply m c t h)) rfl) (w2blk_apply m c t h j)
  refine Finset.sum_congr rfl fun n _ => ?_
  exact congrArg₂ (· * ·) (ha n) (S0_apply m c n h)

/-- At a layer-0 point t the even slab's rows are rows 400 t .. 400 t + 199 of the second support, -/
theorem rowsA_apply (c : Dev nD) (t : Fin cfg0.N) (ht : t.val < 25) (p : Fin 200) (j : Fin 128) :
    rowsA (F := Ideal) m c t (ix2 p j) = gSup1 m c ⟨400 * t.val + p.val, by omega⟩ j := by
  unfold rowsA
  refine (congrFun (pay6_eq (w2blk m c t) (adjA m c t) (S0 m c) (b1blk m c t)) (ix2 p j)).trans ?_
  refine slabRows_sup1 m c t (adjA m c t) p ⟨400 * t.val + p.val, by omega⟩ (fun n => ?_) j
  refine (adjA_apply m c t p n).trans ?_
  have h1 : (⟨t.val / 25, by have := t_lt50 t; omega⟩ : Fin 2) = 0 := Fin.ext (by show t.val / 25 = 0; omega)
  have h2 : (⟨400 * (t.val % 25) + p.val, by omega⟩ : Fin 10000) = ⟨400 * t.val + p.val, by omega⟩ :=
    Fin.ext (by show 400 * (t.val % 25) + p.val = 400 * t.val + p.val; omega)
  exact congrArg₂ (fun l k => aAdj m c l k n) h1 h2

/-- and the odd slab's are rows 400 t + 200 .. 400 t + 399. -/
theorem rowsB_apply (c : Dev nD) (t : Fin cfg0.N) (ht : t.val < 25) (p : Fin 200) (j : Fin 128) :
    rowsB (F := Ideal) m c t (ix2 p j) = gSup1 m c ⟨400 * t.val + 200 + p.val, by omega⟩ j := by
  unfold rowsB
  refine slabRows_sup1 m c t (adjB m c t) p ⟨400 * t.val + 200 + p.val, by omega⟩ (fun n => ?_) j
  refine (adjB_apply m c t p n).trans ?_
  have h1 : (⟨t.val / 25, by have := t_lt50 t; omega⟩ : Fin 2) = 0 := Fin.ext (by show t.val / 25 = 0; omega)
  have h2 : (⟨400 * (t.val % 25) + 200 + p.val, by omega⟩ : Fin 10000) = ⟨400 * t.val + 200 + p.val, by omega⟩ :=
    Fin.ext (by show 400 * (t.val % 25) + 200 + p.val = 400 * t.val + 200 + p.val; omega)
  exact congrArg₂ (fun l k => aAdj m c l k n) h1 h2

/-- The second support at the ideal instance is the formula's, entry by entry. -/
theorem S1_apply (c : Dev nD) (k : Fin 10000) (j : Fin 128) :
    S1 (F := Ideal) m c (ix2 k j) = gSup1 m c k j := by
  unfold S1
  by_cases hk : k.val % 400 < 200
  · refine (dif_pos hk).trans ?_
    refine (rowsA_apply m c _ (by show k.val / 400 < 25; omega) _ j).trans ?_
    exact congrArg₂ (gSup1 m c) (Fin.ext (by show 400 * (k.val / 400) + k.val % 400 = k.val; omega)) (Fin.ext rfl)
  · refine (dif_neg hk).trans ?_
    refine (rowsB_apply m c _ (by show k.val / 400 < 25; omega) _ j).trans ?_
    exact congrArg₂ (gSup1 m c) (Fin.ext (by show 400 * (k.val / 400) + 200 + (k.val % 400 - 200) = k.val; omega)) (Fin.ext rfl)

end Cert.KernelIdeal.Hand

end
-- ==== Proof.KI.ValueOut.lean ====
/-
  The block a layer-1 point leaves in the result's staging buffer, entry by entry: rows of the network's result.
-/
import proofs.«144041_g70901320122855_cont_9to1c4b_733_10_alg».proof.Proof.KI.ValueS1
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

namespace ValueOut

/-! ## The slab product's operand indices

The product of a 200 x 10000 slab with the 10000 x 128 support contracts the slab's axis 1 with the support's
axis 0: at the result's entry (q, j) and contraction position k the operands are read at (q, k) and (k, j). -/

theorem lhs_slab_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_slab_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_slab_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_slab_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Over the extended reals the product into a zero accumulator is the sum over the contraction position. -/
theorem slabDot_apply (X : FVec Ideal S200x10000 .bf16) (S : FVec Ideal S10000x128 .bf16) (q : Fin 200) (j : Fin 128) :
    matmul dot_S200x10000_S10000x128_S200x128_1_0_0_1_n_n none X S (constant (F := Ideal) S200x128 .f32 0x00000000#32) (ix2 q j)
      = ∑ k : Fin 10000, X (ix2 q k) * S (ix2 k j) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 q j) ((contrEquiv1 dot_S200x10000_S10000x128_S200x128_1_0_0_1_n_n 10000 rfl rfl).symm k) = ix2 q k := funext fun a => Fin.ext (by
    match a with
    | ⟨0, _⟩ => exact lhs_slab_0 _ _
    | ⟨1, _⟩ => exact (lhs_slab_1 _ _).trans hk)
  have er : dot_S200x10000_S10000x128_S200x128_1_0_0_1_n_n.rhsIdx (ix2 q j) ((contrEquiv1 dot_S200x10000_S10000x128_S200x128_1_0_0_1_n_n 10000 rfl rfl).symm k) = ix2 k j := funext fun a => Fin.ext (by
    match a with
    | ⟨0, _⟩ => exact (rhs_slab_0 _ _).trans hk
    | ⟨1, _⟩ => exact rhs_slab_1 _ _)
  rw [el, er]

/-- The slab under its two-axis shape: entry (q, k) is the block's entry (0, q, k). -/
theorem slabCast_apply (A : Vec Ideal S1x200x10000 .f32) (q : Fin 200) (k : Fin 10000) :
    shapeCast S200x10000 A Facts₀.shapeCasts_S1x200x10000_S200x10000 (ix2 q k) = A (ix3 0 q k) :=
  shapeCast_apply A Facts₀.shapeCasts_S1x200x10000_S200x10000 (ix2 q k) (ix3 0 q k)
    (by rewrite [Shape.rowMajor_val_three, Shape.rowMajor_val_two]
        show (0 * 200 + q.val) * 10000 + k.val = q.val * 10000 + k.val
        omega)

/-- The bias row spread over the 200 rows: entry (q, j) is the row's entry (0, j). -/
theorem biasRows_apply (b : Vec Ideal S1x128 .f32) (q : Fin 200) (j : Fin 128) :
    broadcastTo S200x128 (shapeCast S1x128 b Facts₀.shapeCasts_S1x128_S1x128) Facts₀.broadcasts_S1x128_S200x128 (ix2 q j)
      = b (ix2 0 j) := by
  rw [shapeCast_self]
  exact broadcastTo_apply b Facts₀.broadcasts_S1x128_S200x128 (ix2 q j) (ix2 0 j) (fun a => match a with
    | ⟨0, _⟩ => by show 0 = if (1 : Nat) = 1 then 0 else q.val; rw [if_pos rfl]
    | ⟨1, _⟩ => by show j.val = if (128 : Nat) = 1 then 0 else j.val; rw [if_neg (by decide)])

/-- What a layer-1 point stores for a slab A against a support S and a bias row b, entry by entry: the slab's row
    times the support's column, plus the bias. -/
theorem pay3_apply (A : Vec Ideal S1x200x10000 .f32) (S : Vec Ideal S10000x128 .bf16) (b : Vec Ideal S1x128 .f32)
    (q : Fin 200) (j : Fin 128) :
    k0_pay3 (F := Ideal) A S b (ix2 q j)
      = ∑ k : Fin 10000, (A (ix3 0 q k) : EReal) * (S (ix2 k j) : EReal) + (b (ix2 0 j) : EReal) := by
  unfold k0_pay3
  refine (addf_apply _ _ _).trans ?_
  rw [slabDot_apply, biasRows_apply]
  refine congrArg (· + _) (Finset.sum_congr rfl fun k _ => ?_)
  rw [truncf_apply, slabCast_apply]

/-- The odd slab's store is the same expression. -/
theorem pay4_apply (A : Vec Ideal S1x200x10000 .f32) (S : Vec Ideal S10000x128 .bf16) (b : Vec Ideal S1x128 .f32)
    (q : Fin 200) (j : Fin 128) :
    k0_pay4 (F := Ideal) A S b (ix2 q j)
      = ∑ k : Fin 10000, (A (ix3 0 q k) : EReal) * (S (ix2 k j) : EReal) + (b (ix2 0 j) : EReal) :=
  pay3_apply A S b q j

end ValueOut

variable (m : (ℓ : Loc nD τ sig) → Buf (Elt Ideal) ℓ)

/-- The block a layer-1 point t leaves: row p of it is row 400 (t - 25) + p of the network's result. -/
theorem outBlk_apply (c : Dev nD) (t : Fin cfg0.N) (h : 25 ≤ t.val) (p : Fin 400) (j : Fin 128) :
    outBlk (F := Ideal) m c t (ix2 p j) = gOut m c ⟨400 * (t.val - 25) + p.val, by have := t_lt50 t; omega⟩ j := by
  have ht := t_lt50 t
  unfold outBlk
  by_cases hp : p.val < 200
  · -- a row of the lower half: outside the upper half's rows, and row p of the even slab's store
    have he : (ix2 p j : S400x128.Idx) = rLo.emb (ix2 (n0 := 200) (n1 := 128) ⟨p.val, hp⟩ j) := funext fun a => Fin.ext (by
      match a with
      | ⟨0, _⟩ => show p.val = 0 + 1 * p.val; omega
      | ⟨1, _⟩ => show j.val = 0 + 1 * j.val; omega)
    refine (View.canon_cons_of_not_mem _ _ ?_).trans ?_
    · rw [Rect.mem_set_unit]
      intro hm
      have h0 := (hm 0).1
      change 200 ≤ p.val at h0
      omega
    · rw [he, View.canon_cons_emb, ValueOut.pay3_apply, gOut_eq, b2blk_apply]
      refine congrArg (· + _) (Finset.sum_congr rfl fun k _ => ?_)
      rw [adjA_apply, S1_apply]
      refine congrArg (· * _) ?_
      exact congrArg₂ (fun l r => aAdj m c l r k) (Fin.ext (by show t.val / 25 = 1; omega))
        (Fin.ext (by show 400 * (t.val % 25) + p.val = 400 * (t.val - 25) + p.val; omega))
  · -- a row of the upper half: row p - 200 of the odd slab's store
    have hp' : p.val - 200 < 200 := by have := p.isLt; omega
    have he : (ix2 p j : S400x128.Idx) = rHi.emb (ix2 (n0 := 200) (n1 := 128) ⟨p.val - 200, hp'⟩ j) := funext fun a => Fin.ext (by
      match a with
      | ⟨0, _⟩ => show p.val = 200 + 1 * (p.val - 200); omega
      | ⟨1, _⟩ => show j.val = 0 + 1 * j.val; omega)
    rw [he, View.canon_cons_emb, ValueOut.pay4_apply, gOut_eq, b2blk_apply]
    refine congrArg (· + _) (Finset.sum_congr rfl fun k _ => ?_)
    rw [adjB_apply, S1_apply]
    refine congrArg (· * _) ?_
    exact congrArg₂ (fun l r => aAdj m c l r k) (Fin.ext (by show t.val / 25 = 1; omega))
      (Fin.ext (by show 400 * (t.val % 25) + 200 + (p.val - 200) = 400 * (t.val - 25) + p.val; omega))

end Cert.KernelIdeal.Hand

end
-- ==== Proof.KI.Final.lean ====
/-
  From the blocks to the array: the 25 write-backs of layer 1 tile the result, so after the run the result array
  is the network's formula at every entry.
-/
import proofs.«144041_g70901320122855_cont_9to1c4b_733_10_alg».proof.Proof.KI.ValueOut
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-- The network's result of core c's argument arrays, as one array: entry (r, j) is the result's. -/
def gArr (c : Dev nD) : S10000x128.Idx → EReal :=
  fun y => gOut m c ⟨(y 0).val, idx2_lt0 y⟩ ⟨(y 1).val, idx2_lt1 y⟩

/-- That array at an index whose coordinates are r and j. -/
theorem gArr_at (c : Dev nD) (y : S10000x128.Idx) (r : Fin 10000) (j : Fin 128)
    (h0 : (y 0).val = r.val) (h1 : (y 1).val = j.val) : gArr m c y = gOut m c r j := by
  unfold gArr
  congr 1
  · exact Fin.ext h0
  · exact Fin.ext h1

/-- The block a layer-1 point t leaves, at any index x of the block: row 400 (t - 25) + x₀ of the result. -/
theorem outBlk_at (c : Dev nD) (t : Fin cfg0.N) (h : 25 ≤ t.val) (x : S400x128.Idx) :
    outBlk (F := Ideal) m c t x
      = gOut m c ⟨400 * (t.val - 25) + (x 0).val, by have := t_lt50 t; have := idx2_lt0 x; omega⟩ ⟨(x 1).val, idx2_lt1 x⟩ :=
  (congrArg (outBlk (F := Ideal) m c t) (eq_ix2 x)).trans
    (outBlk_apply m c t h ⟨(x 0).val, idx2_lt0 x⟩ ⟨(x 1).val, idx2_lt1 x⟩)

/-- A point that writes the result back is a layer-1 point. -/
theorem ge25_of_flush (t : Fin cfg0.N) (hf : (cfg0.win 7).flush t = true) : 25 ≤ t.val := by
  by_contra hlt
  rw [noflush7 t (by omega)] at hf
  exact Bool.false_ne_true hf

/-- WHAT A LAYER-1 POINT WRITES BACK is its block of the network's result: rows 400 (t - 25) onwards. -/
theorem flushed7_eq (c : Dev nD) (t : Fin cfg0.N) (hf : (cfg0.win 7).flush t = true) :
    (dats (F := Ideal) m 0 c).flushed 7 t = ((cfg0.win 7).blk t).view.read (Elt Ideal) (gArr m c) := by
  have ht : 25 ≤ t.val := ge25_of_flush t hf
  have e0 : win0_7.index t (0 : Fin 2) = t.val - 25 := congrFun (index7 t ht) 0
  have e1 : win0_7.index t (1 : Fin 2) = 0 := congrFun (index7 t ht) 1
  show (cfg0.win 7).cut (grid0.coords t) ((dats (F := Ideal) m 0 c).after 7 t) = _
  rw [after_7]
  funext j
  show outBlk (F := Ideal) m c t ((cfg0.win 7).xinj (grid0.coords t) j) = gArr m c (((cfg0.win 7).blk t).view.emb j)
  refine (outBlk_at m c t ht _).trans (gArr_at m c _ _ _ ?_ ?_).symm
  · show win0_7.index t (0 : Fin 2) * 400 + 1 * (j 0).val = 400 * (t.val - 25) + (j 0).val
    omega
  · show win0_7.index t (1 : Fin 2) * 128 + 1 * (j 1).val = (j 1).val
    omega

/-- An index of the result is in point t's block iff each coordinate is in the block's range on its axis. -/
theorem mem_blk7 (t : Fin cfg0.N) (i : S10000x128.Idx) :
    i ∈ ((cfg0.win 7).blk t).view.set
      ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- A row between 400 (t - 25) and 400 (t - 25) + 399 lies in the block of the layer-1 point t. -/
theorem mem_blk7_of_rows (t : Fin cfg0.N) (ht : 25 ≤ t.val) (i : S10000x128.Idx)
    (hlo : 400 * (t.val - 25) ≤ (i 0).val) (hhi : (i 0).val < 400 * (t.val - 25) + 400) :
    i ∈ ((cfg0.win 7).blk t).view.set := by
  have e0 : win0_7.index t (0 : Fin 2) = t.val - 25 := congrFun (index7 t ht) 0
  have e1 : win0_7.index t (1 : Fin 2) = 0 := congrFun (index7 t ht) 1
  have hi1 : (i 1).val < 128 := idx2_lt1 i
  rw [mem_blk7]
  intro a
  match a with
  | ⟨0, _⟩ =>
    show win0_7.index t (0 : Fin 2) * 400 ≤ (i 0).val ∧ (i 0).val < win0_7.index t (0 : Fin 2) * 400 + 400
    omega
  | ⟨1, _⟩ =>
    show win0_7.index t (1 : Fin 2) * 128 ≤ (i 1).val ∧ (i 1).val < win0_7.index t (1 : Fin 2) * 128 + 128
    omega

/-- THE COVER: row r of the result lies in the block of the layer-1 point 25 + r / 400, which writes it back. -/
theorem cover7 (i : S10000x128.Idx) :
    ∃ t : Fin cfg0.N, (cfg0.win 7).flush t = true ∧ i ∈ ((cfg0.win 7).blk t).view.set := by
  have hi0 : (i 0).val < 10000 := idx2_lt0 i
  obtain ⟨t, ht⟩ : ∃ t : Fin cfg0.N, t.val = 25 + (i 0).val / 400 :=
    ⟨⟨25 + (i 0).val / 400, by rw [N_eq]; omega⟩, rfl⟩
  exact ⟨t, flush7 t (by omega), mem_blk7_of_rows t (by omega) i (by omega) (by omega)⟩

/-- The result array after every write-back. -/
theorem final_out (c : Dev nD) :
    ((dats (F := Ideal) m 0 c).arrAt 7 cfg0.N : S10000x128.Idx → EReal)
      = fun y => gOut m c ⟨(y 0).val, idx2_lt0 y⟩ ⟨(y 1).val, idx2_lt1 y⟩ :=
  (dats (F := Ideal) m 0 c).arrAt_eq_of_cover 7 (gArr m c) (fun t hf => flushed7_eq m c t hf) cover7

end Cert.KernelIdeal.Hand

end
-- ==== Proof.Reference.lean ====
/-
  The reference's result, read at an index: the network's formula of its argument arrays.

  The reference is fifteen host operations. Read at an index, each is one step of the network's formula:
  a dot_general is the sum over its one contracted axis of the operands' products, a slice followed by a
  reshape reads one layer of the adjacency tensor at (row, column), the two broadcasts of a bias read the
  bias at the column, and the relu is the maximum with the constant zero. So stage by stage
    x W1                       is the first support,
    relu (A0 (x W1) + b1)      the hidden layer,
    (hidden) W2                the second support,
    A1 (second support) + b2   the result,
  each at the index built from its two coordinates. No law of the extended reals is used: both sides are one
  expression tree, and what is proved is that the composed index functions of the stages are the coordinate
  constructors (for a reshape: (r * 10000 + k) / 10000 % 10000 = r and (r * 10000 + k) % 10000 = k below 10000).
-/
import proofs.«144041_g70901320122855_cont_9to1c4b_733_10_alg».proof.Proof.Gen.ReferenceIdeal.Run
import proofs.«144041_g70901320122855_cont_9to1c4b_733_10_alg».proof.Proof.Gen.ReferenceIdeal.Read
import proofs.«144041_g70901320122855_cont_9to1c4b_733_10_alg».proof.Proof.Math
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.SL.Sem
open Idealize.ShloMosaic.ValueIdx

/-! ## The stages' index functions are the coordinate constructors -/

/-- A product's left operand index at output (n, h) and contraction coordinate d is (n, d) … -/
theorem lidx0_ix (n : Fin 10000) (h d : Fin 128) : lidx_main_v0 (ix2 n h) d = ix2 n d :=
  funext fun a => Fin.ext (by match a with | ⟨0, _⟩ => rfl | ⟨1, _⟩ => rfl)
/-- … and its right operand index is (d, h). -/
theorem ridx0_ix (n : Fin 10000) (h d : Fin 128) : ridx_main_v0 (ix2 n h) d = ix2 d h :=
  funext fun a => Fin.ext (by match a with | ⟨0, _⟩ => rfl | ⟨1, _⟩ => rfl)
theorem lidx3_ix (k : Fin 10000) (h : Fin 128) (n : Fin 10000) : lidx_main_v3 (ix2 k h) n = ix2 k n :=
  funext fun a => Fin.ext (by match a with | ⟨0, _⟩ => rfl | ⟨1, _⟩ => rfl)
theorem ridx3_ix (k : Fin 10000) (h : Fin 128) (n : Fin 10000) : ridx_main_v3 (ix2 k h) n = ix2 n h :=
  funext fun a => Fin.ext (by match a with | ⟨0, _⟩ => rfl | ⟨1, _⟩ => rfl)
theorem lidx8_ix (k : Fin 10000) (j h : Fin 128) : lidx_main_v8 (ix2 k j) h = ix2 k h :=
  funext fun a => Fin.ext (by match a with | ⟨0, _⟩ => rfl | ⟨1, _⟩ => rfl)
theorem ridx8_ix (k : Fin 10000) (j h : Fin 128) : ridx_main_v8 (ix2 k j) h = ix2 h j :=
  funext fun a => Fin.ext (by match a with | ⟨0, _⟩ => rfl | ⟨1, _⟩ => rfl)
theorem lidx11_ix (r : Fin 10000) (j : Fin 128) (k : Fin 10000) : lidx_main_v11 (ix2 r j) k = ix2 r k :=
  funext fun a => Fin.ext (by match a with | ⟨0, _⟩ => rfl | ⟨1, _⟩ => rfl)
theorem ridx11_ix (r : Fin 10000) (j : Fin 128) (k : Fin 10000) : ridx_main_v11 (ix2 r j) k = ix2 k j :=
  funext fun a => Fin.ext (by match a with | ⟨0, _⟩ => rfl | ⟨1, _⟩ => rfl)

/-- Layer 0 of the adjacency tensor, sliced out and flattened to a matrix, reads the tensor at (0, k, n):
    the flat position k * 10000 + n splits back into k and n. -/
theorem adj0_ix (k n : Fin 10000) : idx_main_v1 (idx_main_v2 (ix2 k n)) = ix3 (0 : Fin 2) k n :=
  funext fun a => Fin.ext (by
    have hk : k.val < 10000 := k.isLt
    have hn : n.val < 10000 := n.isLt
    match a with
    | ⟨0, _⟩ => rfl
    | ⟨1, _⟩ => show (k.val * 10000 + n.val) / 10000 % 10000 = k.val; omega
    | ⟨2, _⟩ => show (k.val * 10000 + n.val) % 10000 = n.val; omega)
/-- Layer 1 likewise reads the tensor at (1, r, k). -/
theorem adj1_ix (r k : Fin 10000) : idx_main_v9 (idx_main_v10 (ix2 r k)) = ix3 (1 : Fin 2) r k :=
  funext fun a => Fin.ext (by
    have hr : r.val < 10000 := r.isLt
    have hk : k.val < 10000 := k.isLt
    match a with
    | ⟨0, _⟩ => rfl
    | ⟨1, _⟩ => show (r.val * 10000 + k.val) / 10000 % 10000 = r.val; omega
    | ⟨2, _⟩ => show (r.val * 10000 + k.val) % 10000 = k.val; omega)
/-- A bias broadcast to a row and then to every row reads the bias at the column. -/
theorem bias1_ix (k : Fin 10000) (h : Fin 128) : idx_main_v4 (idx_main_v5 (ix2 k h)) = ix1 h :=
  funext fun a => Fin.ext (by match a with | ⟨0, _⟩ => rfl)
theorem bias2_ix (r : Fin 10000) (j : Fin 128) : idx_main_v12 (idx_main_v13 (ix2 r j)) = ix1 j :=
  funext fun a => Fin.ext (by match a with | ⟨0, _⟩ => rfl)

/-! ## The stages at an index -/

section Stages
variable (x0 : (⟨S10000x128, .f32⟩ : BufTy).Contents (Elt Ideal)) (x1 : (⟨S2x10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first product is the first support. -/
theorem sup0_at (n : Fin 10000) (h : Fin 128) :
    val_main_v0 (F := Ideal) x0 x2 (ix2 n h) = Cert.Gcn.sup0 (fun n d => x0 (ix2 n d)) (fun d h => x2 (ix2 d h)) n h := by
  rw [val_main_v0_apply]
  unfold Cert.Gcn.sup0
  refine Finset.sum_congr rfl fun d _ => ?_
  rw [lidx0_ix, ridx0_ix]

/-- The first layer of the adjacency tensor as a matrix. -/
theorem adj0_at (k n : Fin 10000) : val_main_v2 (F := Ideal) x1 (ix2 k n) = x1 (ix3 (0 : Fin 2) k n) := by
  rw [val_main_v2_apply, val_main_v1_apply, adj0_ix]

/-- The second layer of the adjacency tensor as a matrix. -/
theorem adj1_at (r k : Fin 10000) : val_main_v10 (F := Ideal) x1 (ix2 r k) = x1 (ix3 (1 : Fin 2) r k) := by
  rw [val_main_v10_apply, val_main_v9_apply, adj1_ix]

/-- The first bias at every row. -/
theorem bias1_at (k : Fin 10000) (h : Fin 128) : val_main_v5 (F := Ideal) x3 (ix2 k h) = x3 (ix1 h) := by
  rw [val_main_v5_apply, val_main_v4_apply, bias1_ix]

/-- The second bias at every row. -/
theorem bias2_at (r : Fin 10000) (j : Fin 128) : val_main_v13 (F := Ideal) x5 (ix2 r j) = x5 (ix1 j) := by
  rw [val_main_v13_apply, val_main_v12_apply, bias2_ix]

/-- The relu of the first aggregation plus bias is the hidden layer: the maximum with the constant whose word is zero. -/
theorem hid_at (k : Fin 10000) (h : Fin 128) :
    val_main_v7 (F := Ideal) x0 x1 x2 x3 (ix2 k h)
      = Cert.Gcn.hid (fun k n => x1 (ix3 (0 : Fin 2) k n)) (fun n d => x0 (ix2 n d)) (fun d h => x2 (ix2 d h)) (fun h => x3 (ix1 h)) k h := by
  rw [val_main_v7_apply, val_main_v6_apply, val_main_v3_apply, val_main_call0_v0_apply, val_main_call0_cst_apply, bias1_at,
    Ideal.maximumf_def, Ideal.addf_def, Ideal.ofBits_def, Ideal.ofBits_zero_f32]
  unfold Cert.Gcn.hid
  refine congrArg (fun s => max (s + x3 (ix1 h)) 0) (Finset.sum_congr rfl fun n _ => ?_)
  rw [lidx3_ix, ridx3_ix, adj0_at, sup0_at]

/-- The second product is the second support. -/
theorem sup1_at (k : Fin 10000) (j : Fin 128) :
    val_main_v8 (F := Ideal) x0 x1 x2 x3 x4 (ix2 k j)
      = Cert.Gcn.sup1 (fun k n => x1 (ix3 (0 : Fin 2) k n)) (fun n d => x0 (ix2 n d)) (fun d h => x2 (ix2 d h)) (fun h => x3 (ix1 h))
          (fun h j => x4 (ix2 h j)) k j := by
  rw [val_main_v8_apply]
  unfold Cert.Gcn.sup1
  refine Finset.sum_congr rfl fun h _ => ?_
  rw [lidx8_ix, ridx8_ix, hid_at]

/-- The second aggregation plus bias is the result. -/
theorem out_at (r : Fin 10000) (j : Fin 128) :
    val_main_v14 (F := Ideal) x0 x1 x2 x3 x4 x5 (ix2 r j)
      = Cert.Gcn.out (fun k n => x1 (ix3 (0 : Fin 2) k n)) (fun k n => x1 (ix3 (1 : Fin 2) k n)) (fun n d => x0 (ix2 n d)) (fun d h => x2 (ix2 d h))
          (fun h => x3 (ix1 h)) (fun h j => x4 (ix2 h j)) (fun j => x5 (ix1 j)) r j := by
  rw [val_main_v14_apply, val_main_v11_apply, bias2_at, Ideal.addf_def]
  unfold Cert.Gcn.out
  refine congrArg (fun s => s + x5 (ix1 j)) (Finset.sum_congr rfl fun k _ => ?_)
  rw [lidx11_ix, ridx11_ix, adj1_at, sup1_at]

end Stages

/-- The reference's last stage at index i is the network's result at i's coordinates. -/
theorem ref_out (x0 : (⟨S10000x128, .f32⟩ : BufTy).Contents (Elt Ideal)) (x1 : (⟨S2x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (i : S10000x128.Idx) :
    val_main_v14 (F := Ideal) x0 x1 x2 x3 x4 x5 i
      = Cert.Gcn.out (fun k n => x1 (ix3 (0 : Fin 2) k n)) (fun k n => x1 (ix3 (1 : Fin 2) k n)) (fun n d => x0 (ix2 n d)) (fun d h => x2 (ix2 d h))
          (fun h => x3 (ix1 h)) (fun h j => x4 (ix2 h j)) (fun j => x5 (ix1 j)) ⟨(i 0).val, idx2_lt0 i⟩ ⟨(i 1).val, idx2_lt1 i⟩ := by
  have hi : i = ix2 (⟨(i 0).val, idx2_lt0 i⟩ : Fin 10000) (⟨(i 1).val, idx2_lt1 i⟩ : Fin 128) :=
    funext fun a => match a with | ⟨0, _⟩ => rfl | ⟨1, _⟩ => rfl
  exact (congrArg (val_main_v14 (F := Ideal) x0 x1 x2 x3 x4 x5) hi).trans (out_at x0 x1 x2 x3 x4 x5 _ _)

end Cert.RefValue

end
-- ==== Proof.lean ====
/-
  The certificate of a two-layer graph convolution fused into one kernel, against its reference.
  Both programs compute, over the extended reals,
      out = A1 (relu (A0 (x W1) + b1) W2) + b2
  with A0, A1 the two layers of a dense adjacency tensor. The kernel walks a 2 × 25 grid: at its first point it
  keeps the first support x W1 in a scratch buffer; through layer 0 it reads A0 in 200-row slabs (two per point,
  through two windows on the ONE adjacency tensor) and writes the matching 400 rows of the second support into a
  second scratch buffer; through layer 1 it reads A1 the same way and writes 400 rows of the result per point.
  At the ideal instance a change of float format is the identity and a matrix product into a zero accumulator is a
  sum, so the two programs are one expression tree entry by entry: no law of the extended reals is needed between
  them, and the finiteness of the inputs is never used.
  The three frames: the reference's is its run with the result dropped; the kernel's, at the word level and at the
  ideal instance alike, is the pipeline's launch with the adjacency tensor's share split between its two windows,
  the body run case by case (the first point; layer 0; layer 1) over an invariant that tracks the two scratch
  buffers. The idealization rewrote no operation, so there is nothing to preserve.
-/
import proofs.«144041_g70901320122855_cont_9to1c4b_733_10_alg».proof.Defs
import proofs.«144041_g70901320122855_cont_9to1c4b_733_10_alg».proof.Proof.Gen.Kernel
import proofs.«144041_g70901320122855_cont_9to1c4b_733_10_alg».proof.Proof.Gen.KernelIdeal
import proofs.«144041_g70901320122855_cont_9to1c4b_733_10_alg».proof.Proof.Gen.ReferenceIdeal
import proofs.«144041_g70901320122855_cont_9to1c4b_733_10_alg».proof.Proof.Gen.Pre_finite_inputs
import proofs.«144041_g70901320122855_cont_9to1c4b_733_10_alg».proof.Proof.Gen.ReferenceIdeal.Run
import proofs.«144041_g70901320122855_cont_9to1c4b_733_10_alg».proof.Proof.Gen.ReferenceIdeal.Read
import proofs.«144041_g70901320122855_cont_9to1c4b_733_10_alg».proof.Proof.K.Frame
import proofs.«144041_g70901320122855_cont_9to1c4b_733_10_alg».proof.Proof.KI.Frame
import proofs.«144041_g70901320122855_cont_9to1c4b_733_10_alg».proof.Proof.KI.Final
import proofs.«144041_g70901320122855_cont_9to1c4b_733_10_alg».proof.Proof.Reference

noncomputable section

namespace Cert.Proof

open Idealize.ShloMosaic Idealize.ShloMosaic.TcCoe Idealize.SL.Sem
open Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array ends at the network's formula of its argument arrays (the
    25 write-backs of layer 1 tile it) and the reference's last stage is the same formula of arguments that agree. -/
theorem algebraic : Cert.algebraic_KernelIdeal_ReferenceIdeal := by
  intro m ρ m' ρ' _ hagree
  refine ⟨fun c => fun y => Cert.KernelIdeal.Hand.gOut m c ⟨(y 0).val, idx2_lt0 y⟩ ⟨(y 1).val, idx2_lt1 y⟩, ?_, ?_⟩
  · exact (θ_run Cert.KernelIdeal.defs _ _).mono (fun r h c =>
      ⟨(Cert.KernelIdeal.Hand.result_eq m c r h).trans (Cert.KernelIdeal.Hand.final_out m c),
        Cert.KernelIdeal.Hand.kept_arg0 m c r h, Cert.KernelIdeal.Hand.kept_arg1 m c r h, Cert.KernelIdeal.Hand.kept_arg2 m c r h,
        Cert.KernelIdeal.Hand.kept_arg3 m c r h, Cert.KernelIdeal.Hand.kept_arg4 m c r h, Cert.KernelIdeal.Hand.kept_arg5 m c r h⟩)
      (Cert.KernelIdeal.Hand.run_main (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v14_eq]
    funext i
    rw [Cert.RefValue.ref_out, (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
